-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000x128 : Shape := ⟨2, ![800000, 128]⟩
abbrev S128x256 : Shape := ⟨2, ![128, 256]⟩
abbrev S128x128 : Shape := ⟨2, ![128, 128]⟩
abbrev S128 : Shape := ⟨1, ![128]⟩
abbrev S1 : Shape := ⟨1, ![1]⟩
abbrev S2x800000 : Shape := ⟨2, ![2, 800000]⟩
abbrev S2x1600000 : Shape := ⟨2, ![2, 1600000]⟩
abbrev S_ : Shape := ⟨0, ![]⟩
abbrev S1x1600000 : Shape := ⟨2, ![1, 1600000]⟩
abbrev S1600000 : Shape := ⟨1, ![1600000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x256 : S_.BroadcastsInDim S128x256 (![] : Fin 0 → Fin S128x256.rank)
  reducesTo_S128x256_S_d0_1 : S128x256.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1 : S_.BroadcastsInDim S1 (![] : Fin 0 → Fin S1.rank)
  reducesTo_S1_S_d0 : S1.ReducesTo [0] S_
  bcast_S_S2x800000 : S_.BroadcastsInDim S2x800000 (![] : Fin 0 → Fin S2x800000.rank)
  reducesTo_S2x800000_S_d0_1 : S2x800000.ReducesTo [0, 1] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg7 : FVec F S128 .f32) (main_arg8 : IVec S2x800000 32) (main_arg9 : IVec S2x1600000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 0#32
  let main_v39 : IVec S2x800000 32 := broadcastInDim S2x800000 ![] bcast_S_S2x800000 main_c_14
  let main_v40 : IVec S2x800000 1 := cmpi .sge main_arg8 main_v39
  let main_c_15 : IVec S_ 1 := constantI S_ 1 1#1
  let main_v41 : IVec S_ 1 := (fun x v => Host.reduce IntOp.andi x v reducesTo_S2x800000_S_d0_1 h_S_) main_v40 main_c_15
  let main_v42 : IVec S_ 1 := andi main_v38 main_v41
  let main_v43 : IVec S1x1600000 32 := (extractStridedSlice S1x1600000 ![0, 0] · slices_S2x1600000_S1x1600000_0_0) main_arg9
  let main_v44 : IVec S1600000 32 := shapeCast S1600000 main_v43 shapeCasts_S1x1600000_S1600000
  let main_c_16 : IVec S_ 32 := constantI S_ 32 0#32
  let main_v45 : IVec S1600000 32 := broadcastInDim S1600000 ![] bcast_S_S1600000 main_c_16
  let main_v46 : IVec S1600000 1 := cmpi .sge main_v44 main_v45
  let main_c_17 : IVec S_ 1 := constantI S_ 1 1#1
  let main_v47 : IVec S_ 1 := (fun x v => Host.reduce IntOp.andi x v reducesTo_S1600000_S_d0 h_S_) main_v46 main_c_17
  let main_v48 : IVec S_ 1 := andi main_v42 main_v47
  main_v48

def fn_part1 {F : FTy → Type} [FloatOps F] (main_arg4 : FVec F S128 .f32) (main_arg5 : FVec F S1 .f32) (main_arg6 : FVec F S128 .f32) (main_arg7 : FVec F S128 .f32) (main_arg8 : IVec S2x800000 32) (main_arg9 : IVec S2x1600000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S50000x256 .f32) (main_arg1 : FVec F S800000x128 .f32) (main_arg2 : FVec F S128x256 .f32) (main_arg3 : FVec F S128x128 .f32) (main_arg4 : FVec F S128 .f32) (main_arg5 : FVec F S1 .f32) (main_arg6 : FVec F S128 .f32) (main_arg7 : FVec F S128 .f32) (main_arg8 : IVec S2x800000 32) (main_arg9 : IVec S2x1600000 32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000x128 .f32 := Host.absf main_arg1
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_v13 main_v16
-- ==== Kernel.lean ====
abbrev S50000x256 : Shape := ⟨2, ![50000, 256]⟩
abbrev S800000x128 : Shape := ⟨2, ![800000, 128]⟩
abbrev S128x256 : Shape := ⟨2, ![128, 256]⟩
abbrev S128x128 : Shape := ⟨2, ![128, 128]⟩
abbrev S128 : Shape := ⟨1, ![128]⟩
abbrev S1 : Shape := ⟨1, ![1]⟩
abbrev S2x800000 : Shape := ⟨2, ![2, 800000]⟩
abbrev S2x1600000 : Shape := ⟨2, ![2, 1600000]⟩
abbrev S256x128 : Shape := ⟨2, ![256, 128]⟩
abbrev S1x128 : Shape := ⟨2, ![1, 128]⟩
abbrev S1x1 : Shape := ⟨2, ![1, 1]⟩
abbrev S50000x128 : Shape := ⟨2, ![50000, 128]⟩
abbrev S2000x256 : Shape := ⟨2, ![2000, 256]⟩
abbrev S2000x128 : Shape := ⟨2, ![2000, 128]⟩
abbrev S1x800000 : Shape := ⟨2, ![1, 800000]⟩
abbrev S800000 : Shape := ⟨1, ![800000]⟩
abbrev S800000x1 : Shape := ⟨2, ![800000, 1]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S2x8x128 : Shape := ⟨3, ![2, 8, 128]⟩
abbrev S4000x128 : Shape := ⟨2, ![4000, 128]⟩
abbrev S1x8x128 : Shape := ⟨3, ![1, 8, 128]⟩
abbrev S8x128 : Shape := ⟨2, ![8, 128]⟩
abbrev S2x1x128 : Shape := ⟨3, ![2, 1, 128]⟩
abbrev S2x128 : Shape := ⟨2, ![2, 128]⟩
abbrev S50000 : Shape := ⟨1, ![50000]⟩
abbrev S50000x1 : Shape := ⟨2, ![50000, 1]⟩

abbrev nBuf : Space → Nat
  | .hbm => 92
  | .vmem => 27
  | .smem => 0
  | _ => 0

abbrev bufTy : (tb : Table) → Fin (tcTables nBuf tb) → BufTy
  | .hbm, ⟨0, _⟩ => ⟨S50000x256, .f32⟩
  | .hbm, ⟨1, _⟩ => ⟨S800000x128, .f32⟩
  | .hbm, ⟨2, _⟩ => ⟨S128x256, .f32⟩
  | .hbm, ⟨3, _⟩ => ⟨S128x128, .f32⟩
  | .hbm, ⟨4, _⟩ => ⟨S128, .f32⟩
  | .hbm, ⟨5, _⟩ => ⟨S1, .f32⟩
  | .hbm, ⟨6, _⟩ => ⟨S128, .f32⟩
  | .hbm, ⟨7, _⟩ => ⟨S128, .f32⟩
  | .hbm, ⟨8, _⟩ => ⟨S2x800000, .i32⟩
  | .hbm, ⟨9, _⟩ => ⟨S2x1600000, .i32⟩
  | .hbm, ⟨10, _⟩ => ⟨S256x128, .f32⟩
  | .hbm, ⟨11, _⟩ => ⟨S128x128, .f32⟩
  | .hbm, ⟨12, _⟩ => ⟨S1x128, .f32⟩
  | .hbm, ⟨13, _⟩ => ⟨S1x1, .f32⟩
  | .hbm, ⟨14, _⟩ => ⟨S1x128, .f32⟩
  | .hbm, ⟨15, _⟩ => ⟨S1x128, .f32⟩
  | .hbm, ⟨16, _⟩ => ⟨S50000x128, .f32⟩
  | .hbm, ⟨17, _⟩ => ⟨S1x800000, .i32⟩
  | .hbm, ⟨18, _⟩ => ⟨S800000, .i32⟩
  | .hbm, ⟨19, _⟩ => ⟨S1x800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x1, .i32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S800000x128, .f32⟩
  | .hbm, ⟨28, _⟩ => ⟨S800000x128, .f32⟩
  | .hbm, ⟨29, _⟩ => ⟨S800000x128, .f32⟩
  | .hbm, ⟨30, _⟩ => ⟨S1x1600000, .i32⟩
  | .hbm, ⟨31, _⟩ => ⟨S1600000, .i32⟩
  | .hbm, ⟨32, _⟩ => ⟨S1x1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S800000x128, .f32⟩
  | .hbm, ⟨38, _⟩ => ⟨S1600000x1, .i32⟩
  | .hbm, ⟨39, _⟩ => ⟨S800000x128, .f32⟩
  | .hbm, ⟨40, _⟩ => ⟨S_, .f32⟩
  | .hbm, ⟨41, _⟩ => ⟨S1600000, .f32⟩
  | .hbm, ⟨42, _⟩ => ⟨S_, .f32⟩
  | .hbm, ⟨43, _⟩ => ⟨S800000, .f32⟩
  | .hbm, ⟨44, _⟩ => ⟨S1600000x1, .i32⟩
  | .hbm, ⟨45, _⟩ => ⟨S800000, .f32⟩
  | .hbm, ⟨46, _⟩ => ⟨S_, .f32⟩
  | .hbm, ⟨47, _⟩ => ⟨S800000, .f32⟩
  | .hbm, ⟨48, _⟩ => ⟨S800000, .f32⟩
  | .hbm, ⟨49, _⟩ => ⟨S800000x1, .f32⟩
  | .hbm, ⟨50, _⟩ => ⟨S800000x128, .f32⟩
  | .hbm, ⟨51, _⟩ => ⟨S800000x128, .f32⟩
  | .hbm, ⟨52, _⟩ => ⟨S2x8x128, .f32⟩
  | .hbm, ⟨53, _⟩ => ⟨S2x8x128, .f32⟩
  | .hbm, ⟨54, _⟩ => ⟨S2x1x128, .f32⟩
  | .hbm, ⟨55, _⟩ => ⟨S2x128, .f32⟩
  | .hbm, ⟨56, _⟩ => ⟨S_, .f32⟩
  | .hbm, ⟨57, _⟩ => ⟨S128, .f32⟩
  | .hbm, ⟨58, _⟩ => ⟨S2x1x128, .f32⟩
  | .hbm, ⟨59, _⟩ => ⟨S2x128, .f32⟩
  | .hbm, ⟨60, _⟩ => ⟨S_, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S_, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S1x128, .f32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S_, .f32⟩
  | .hbm, ⟨81, _⟩ => ⟨S800000, .f32⟩
  | .hbm, ⟨82, _⟩ => ⟨S_, .f32⟩
  | .hbm, ⟨83, _⟩ => ⟨S50000, .f32⟩
  | .hbm, ⟨84, _⟩ => ⟨S800000x1, .i32⟩
  | .hbm, ⟨85, _⟩ => ⟨S50000, .f32⟩
  | .hbm, ⟨86, _⟩ => ⟨S_, .f32⟩
  | .hbm, ⟨87, _⟩ => ⟨S50000, .f32⟩
  | .hbm, ⟨88, _⟩ => ⟨S50000, .f32⟩
  | .hbm, ⟨89, _⟩ => ⟨S50000x1, .f32⟩
  | .hbm, ⟨90, _⟩ => ⟨S50000x128, .f32⟩
  | .hbm, ⟨91, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S4000x128, .f32⟩
  | .local _ .vmem, ⟨6, _⟩ => ⟨S4000x128, .f32⟩
  | .local _ .vmem, ⟨7, _⟩ => ⟨S128x128, .f32⟩
  | .local _ .vmem, ⟨8, _⟩ => ⟨S1x128, .f32⟩
  | .local _ .vmem, ⟨9, _⟩ => ⟨S1x1, .f32⟩
  | .local _ .vmem, ⟨10, _⟩ => ⟨S1x8x128, .f32⟩
  | .local _ .vmem, ⟨11, _⟩ => ⟨S1x8x128, .f32⟩
  | .local _ .vmem, ⟨12, _⟩ => ⟨S1x8x128, .f32⟩
  | .local _ .vmem, ⟨13, _⟩ => ⟨S1x8x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S128x128, .f32⟩
  | .local _ .vmem, ⟨19, _⟩ => ⟨S1x128, .f32⟩
  | .local _ .vmem, ⟨20, _⟩ => ⟨S1x1, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S4000x128, .f32⟩
  | .local _ .vmem, ⟨26, _⟩ => ⟨S4000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_v0 : Ref sig .tc := ⟨.hbm, 21, rfl⟩
abbrev main_v11 : Ref sig .tc := ⟨.hbm, 22, rfl⟩
abbrev main_call1_v0 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call2_v0 : Ref sig .tc := ⟨.hbm, 34, rfl⟩
abbrev main_v21 : Ref sig .tc := ⟨.hbm, 35, rfl⟩
abbrev main_cst_0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_1 : Ref sig .tc := ⟨.hbm, 40, rfl⟩
abbrev main_v25 : Ref sig .tc := ⟨.hbm, 41, rfl⟩
abbrev main_cst_2 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34_0 : Ref sig .tc := ⟨.hbm, 52, rfl⟩
abbrev main_v34_1 : Ref sig .tc := ⟨.hbm, 53, rfl⟩
abbrev main_v35 : Ref sig .tc := ⟨.hbm, 54, rfl⟩
abbrev main_v36 : Ref sig .tc := ⟨.hbm, 55, rfl⟩
abbrev main_cst_4 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_cst_11 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg9_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem9_1 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 100], ![false, false]⟩

def cc1_transform_0 (i : grid1.Coords) : Fin 2 → Nat :=
  let arg0 : BitVec 32 := BitVec.ofNat 32 (i 0).val
  let arg1 : BitVec 32 := BitVec.ofNat 32 (i 1).val
  let c100_i32 : BitVec 32 := 100#32
  let v0 : BitVec 32 := Scalar.muli arg0 c100_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨1, ![200], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  transposes_S128x256_S256x128_1_0 : S128x256.Transposes [1, 0] S256x128
  transposes_S128x128_S128x128_1_0 : S128x128.Transposes [1, 0] S128x128
  shapeCasts_S128_S1x128 : S128.ShapeCasts S1x128
  shapeCasts_S1_S1x1 : S1.ShapeCasts S1x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000x128 : S_.BroadcastsInDim S800000x128 (![] : Fin 0 → Fin S800000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S800000 : S_.BroadcastsInDim S800000 (![] : Fin 0 → Fin S800000.rank)
  bcast_S800000x1_S800000x128_0_1 : S800000x1.BroadcastsInDim S800000x128 (![0, 1] : Fin 2 → Fin S800000x128.rank)
  inb_S1x8x128_S1x8x128_0_0_0 : ∀ a, (![0, 0, 0] : Fin 3 → Nat) a + S1x8x128.size a ≤ S1x8x128.size a
  h_S1x8x128 : 0 < S1x8x128.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  reduces_S4000x128_S128 : S4000x128.Reduces [0] S128
  shapeCasts_S1x8x128_S8x128 : S1x8x128.ShapeCasts S8x128
  broadcasts_S1x128_S8x128 : S1x128.Broadcasts S8x128
  shapeCasts_S8x128_S1x8x128 : S8x128.ShapeCasts S1x8x128
  slices_S2x8x128_S2x1x128_0_0_0 : S2x8x128.Slices ![0, 0, 0] S2x1x128
  shapeCasts_S2x1x128_S2x128 : S2x1x128.ShapeCasts S2x128
  reducesTo_S2x128_S128_d0 : S2x128.ReducesTo [0] S128
  h_S_ : 0 < S_.numel
  bcast_S_S128 : S_.BroadcastsInDim S128 (![] : Fin 0 → Fin S128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  gather_S800000x128_S1600000x1_S1600000x128_1_0_n_n_0_1_1128_wf : GatherDims.WF S800000x128 S1600000x1 S1600000x128 [1] [0] [] [0] [] 1 ![1, 128]
  scatter_S800000x128_S1600000x1_S1600000x128_1_0_0_1_wf : ScatterDims.WF S800000x128 S1600000x1 S1600000x128 [1] [0] [0] 1
  scatter_S800000_S1600000x1_S1600000_n_0_0_1_wf : ScatterDims.WF S800000 S1600000x1 S1600000 [] [0] [0] 1
  dot_S4000x128_S128x128_S4000x128_1_0_0_1_n_n_wf : DotDims.WF S4000x128 S128x128 S4000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S800000x128.size a
  hwx1_0 : ∀ i : grid1.Coords, EltTy.bits .f32 = 32 ∨ (Rect.block (s := S800000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x8x128.size a ≤ S2x8x128.size a
  hwx1_4 : ∀ i : grid1.Coords, EltTy.bits .f32 = 32 ∨ (Rect.block (s := S2x8x128) S1x8x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8x128.size a ≤ S2x8x128.size a
  hwx1_5 : ∀ i : grid1.Coords, EltTy.bits .f32 = 32 ∨ (Rect.block (s := S2x8x128) S1x8x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S800000x128.size a
  hwx2_0 : ∀ i : grid2.Coords, EltTy.bits .f32 = 32 ∨ (Rect.block (s := S800000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S800000x128.size a
  hwx2_1 : ∀ i : grid2.Coords, EltTy.bits .f32 = 32 ∨ (Rect.block (s := S800000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x128.size a ≤ S800000x128.size a
  hwx2_9 : ∀ i : grid2.Coords, EltTy.bits .f32 = 32 ∨ (Rect.block (s := S800000x128) S4000x128.size (cc2_transform_9 i) (hinb2_9 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S800000x128_S1600000x1_S1600000x128_1_0_n_n_0_1_1128 : GatherDims S800000x128 S1600000x1 S1600000x128 where
  offsetDims := [1]
  collapsedSliceDims := [0]
  operandBatchingDims := []
  startIndicesBatchingDims := []
  startIndexMap := [0]
  indexVectorDim := 1
  sliceSizes := ![1, 128]
  wf := gather_S800000x128_S1600000x1_S1600000x128_1_0_n_n_0_1_1128_wf
def scatter_S800000x128_S1600000x1_S1600000x128_1_0_0_1 : ScatterDims S800000x128 S1600000x1 S1600000x128 where
  updateWindowDims := [1]
  insertedWindowDims := [0]
  scatterDimsToOperandDims := [0]
  indexVectorDim := 1
  wf := scatter_S800000x128_S1600000x1_S1600000x128_1_0_0_1_wf
def scatter_S800000_S1600000x1_S1600000_n_0_0_1 : ScatterDims S800000 S1600000x1 S1600000 where
  updateWindowDims := []
  insertedWindowDims := [0]
  scatterDimsToOperandDims := [0]
  indexVectorDim := 1
  wf := scatter_S800000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34_0) S1x8x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v34_1) S1x8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v1) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v3) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v50) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v4) S1x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v5) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v51) S4000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S50000x256 : Shape := ⟨2, ![50000, 256]⟩
abbrev S800000x128 : Shape := ⟨2, ![800000, 128]⟩
abbrev S128x256 : Shape := ⟨2, ![128, 256]⟩
abbrev S128x128 : Shape := ⟨2, ![128, 128]⟩
abbrev S128 : Shape := ⟨1, ![128]⟩
abbrev S1 : Shape := ⟨1, ![1]⟩
abbrev S2x800000 : Shape := ⟨2, ![2, 800000]⟩
abbrev S2x1600000 : Shape := ⟨2, ![2, 1600000]⟩
abbrev S1x800000 : Shape := ⟨2, ![1, 800000]⟩
abbrev S800000 : Shape := ⟨1, ![800000]⟩
abbrev S256x128 : Shape := ⟨2, ![256, 128]⟩
abbrev S50000x128 : Shape := ⟨2, ![50000, 128]⟩
abbrev S_ : Shape := ⟨0, ![]⟩
abbrev S800000x1 : Shape := ⟨2, ![800000, 1]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S1x128 : Shape := ⟨2, ![1, 128]⟩
abbrev S1x1 : Shape := ⟨2, ![1, 1]⟩
abbrev S50000 : Shape := ⟨1, ![50000]⟩
abbrev S50000x1 : Shape := ⟨2, ![50000, 1]⟩

abbrev nBuf : Space → Nat
  | .hbm => 127
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000x128, .f32⟩
  | .hbm, ⟨2, _⟩ => ⟨S128x256, .f32⟩
  | .hbm, ⟨3, _⟩ => ⟨S128x128, .f32⟩
  | .hbm, ⟨4, _⟩ => ⟨S128, .f32⟩
  | .hbm, ⟨5, _⟩ => ⟨S1, .f32⟩
  | .hbm, ⟨6, _⟩ => ⟨S128, .f32⟩
  | .hbm, ⟨7, _⟩ => ⟨S128, .f32⟩
  | .hbm, ⟨8, _⟩ => ⟨S2x800000, .i32⟩
  | .hbm, ⟨9, _⟩ => ⟨S2x1600000, .i32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S256x128, .f32⟩
  | .hbm, ⟨15, _⟩ => ⟨S50000x128, .f32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x128, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x128, .f32⟩
  | .hbm, ⟨34, _⟩ => ⟨S800000x128, .f32⟩
  | .hbm, ⟨35, _⟩ => ⟨S_, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S1x1600000, .i32⟩
  | .hbm, ⟨40, _⟩ => ⟨S1600000, .i32⟩
  | .hbm, ⟨41, _⟩ => ⟨S1x1600000, .i32⟩
  | .hbm, ⟨42, _⟩ => ⟨S1600000, .i32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S800000x128, .f32⟩
  | .hbm, ⟨54, _⟩ => ⟨S1600000x1, .i32⟩
  | .hbm, ⟨55, _⟩ => ⟨S800000x128, .f32⟩
  | .hbm, ⟨56, _⟩ => ⟨S_, .f32⟩
  | .hbm, ⟨57, _⟩ => ⟨S1600000, .f32⟩
  | .hbm, ⟨58, _⟩ => ⟨S_, .f32⟩
  | .hbm, ⟨59, _⟩ => ⟨S800000, .f32⟩
  | .hbm, ⟨60, _⟩ => ⟨S1600000x1, .i32⟩
  | .hbm, ⟨61, _⟩ => ⟨S800000, .f32⟩
  | .hbm, ⟨62, _⟩ => ⟨S_, .f32⟩
  | .hbm, ⟨63, _⟩ => ⟨S800000, .f32⟩
  | .hbm, ⟨64, _⟩ => ⟨S800000, .f32⟩
  | .hbm, ⟨65, _⟩ => ⟨S800000x1, .f32⟩
  | .hbm, ⟨66, _⟩ => ⟨S800000x128, .f32⟩
  | .hbm, ⟨67, _⟩ => ⟨S800000x128, .f32⟩
  | .hbm, ⟨68, _⟩ => ⟨S128x128, .f32⟩
  | .hbm, ⟨69, _⟩ => ⟨S800000x128, .f32⟩
  | .hbm, ⟨70, _⟩ => ⟨S1x128, .f32⟩
  | .hbm, ⟨71, _⟩ => ⟨S800000x128, .f32⟩
  | .hbm, ⟨72, _⟩ => ⟨S800000x128, .f32⟩
  | .hbm, ⟨73, _⟩ => ⟨S_, .f32⟩
  | .hbm, ⟨74, _⟩ => ⟨S800000x128, .f32⟩
  | .hbm, ⟨75, _⟩ => ⟨S800000x128, .i1⟩
  | .hbm, ⟨76, _⟩ => ⟨S1x1, .f32⟩
  | .hbm, ⟨77, _⟩ => ⟨S800000x128, .f32⟩
  | .hbm, ⟨78, _⟩ => ⟨S800000x128, .f32⟩
  | .hbm, ⟨79, _⟩ => ⟨S800000x128, .f32⟩
  | .hbm, ⟨80, _⟩ => ⟨S_, .f32⟩
  | .hbm, ⟨81, _⟩ => ⟨S128, .f32⟩
  | .hbm, ⟨82, _⟩ => ⟨S_, .f32⟩
  | .hbm, ⟨83, _⟩ => ⟨S128, .f32⟩
  | .hbm, ⟨84, _⟩ => ⟨S128, .f32⟩
  | .hbm, ⟨85, _⟩ => ⟨S1x128, .f32⟩
  | .hbm, ⟨86, _⟩ => ⟨S800000x128, .f32⟩
  | .hbm, ⟨87, _⟩ => ⟨S800000x128, .f32⟩
  | .hbm, ⟨88, _⟩ => ⟨S800000x128, .f32⟩
  | .hbm, ⟨89, _⟩ => ⟨S_, .f32⟩
  | .hbm, ⟨90, _⟩ => ⟨S128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S1x128, .f32⟩
  | .hbm, ⟨95, _⟩ => ⟨S800000x128, .f32⟩
  | .hbm, ⟨96, _⟩ => ⟨S800000x128, .f32⟩
  | .hbm, ⟨97, _⟩ => ⟨S_, .f32⟩
  | .hbm, ⟨98, _⟩ => ⟨S128, .f32⟩
  | .hbm, ⟨99, _⟩ => ⟨S128, .f32⟩
  | .hbm, ⟨100, _⟩ => ⟨S128, .f32⟩
  | .hbm, ⟨101, _⟩ => ⟨S1x128, .f32⟩
  | .hbm, ⟨102, _⟩ => ⟨S800000x128, .f32⟩
  | .hbm, ⟨103, _⟩ => ⟨S800000x128, .f32⟩
  | .hbm, ⟨104, _⟩ => ⟨S1x128, .f32⟩
  | .hbm, ⟨105, _⟩ => ⟨S800000x128, .f32⟩
  | .hbm, ⟨106, _⟩ => ⟨S800000x128, .f32⟩
  | .hbm, ⟨107, _⟩ => ⟨S1x128, .f32⟩
  | .hbm, ⟨108, _⟩ => ⟨S800000x128, .f32⟩
  | .hbm, ⟨109, _⟩ => ⟨S800000x128, .f32⟩
  | .hbm, ⟨110, _⟩ => ⟨S800000x128, .f32⟩
  | .hbm, ⟨111, _⟩ => ⟨S_, .f32⟩
  | .hbm, ⟨112, _⟩ => ⟨S50000x128, .f32⟩
  | .hbm, ⟨113, _⟩ => ⟨S800000x1, .i32⟩
  | .hbm, ⟨114, _⟩ => ⟨S50000x128, .f32⟩
  | .hbm, ⟨115, _⟩ => ⟨S_, .f32⟩
  | .hbm, ⟨116, _⟩ => ⟨S800000, .f32⟩
  | .hbm, ⟨117, _⟩ => ⟨S_, .f32⟩
  | .hbm, ⟨118, _⟩ => ⟨S50000, .f32⟩
  | .hbm, ⟨119, _⟩ => ⟨S800000x1, .i32⟩
  | .hbm, ⟨120, _⟩ => ⟨S50000, .f32⟩
  | .hbm, ⟨121, _⟩ => ⟨S_, .f32⟩
  | .hbm, ⟨122, _⟩ => ⟨S50000, .f32⟩
  | .hbm, ⟨123, _⟩ => ⟨S50000, .f32⟩
  | .hbm, ⟨124, _⟩ => ⟨S50000x1, .f32⟩
  | .hbm, ⟨125, _⟩ => ⟨S50000x128, .f32⟩
  | .hbm, ⟨126, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_cst_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_10 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_12 : Ref sig .tc := ⟨.hbm, 89, rfl⟩
abbrev main_v65 : Ref sig .tc := ⟨.hbm, 90, rfl⟩
abbrev main_cst_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_15 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_cst_16 : Ref sig .tc := ⟨.hbm, 115, rfl⟩
abbrev main_v87 : Ref sig .tc := ⟨.hbm, 116, rfl⟩
abbrev main_cst_17 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_cst_18 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  transposes_S128x256_S256x128_1_0 : S128x256.Transposes [1, 0] S256x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S800000x1_S800000x128_0_1 : S800000x1.BroadcastsInDim S800000x128 (![0, 1] : Fin 2 → Fin S800000x128.rank)
  transposes_S128x128_S128x128_1_0 : S128x128.Transposes [1, 0] S128x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S1_S1x1_1 : S1.BroadcastsInDim S1x1 (![1] : Fin 1 → Fin S1x1.rank)
  bcast_S1x1_S800000x128_0_1 : S1x1.BroadcastsInDim S800000x128 (![0, 1] : Fin 2 → Fin S800000x128.rank)
  reducesTo_S800000x128_S128_d0 : S800000x128.ReducesTo [0] S128
  h_S_ : 0 < S_.numel
  bcast_S_S128 : S_.BroadcastsInDim S128 (![] : Fin 0 → Fin S128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  gather_S800000x128_S1600000x1_S1600000x128_1_0_n_n_0_1_1128_wf : GatherDims.WF S800000x128 S1600000x1 S1600000x128 [1] [0] [] [0] [] 1 ![1, 128]
  scatter_S800000x128_S1600000x1_S1600000x128_1_0_0_1_wf : ScatterDims.WF S800000x128 S1600000x1 S1600000x128 [1] [0] [0] 1
  scatter_S800000_S1600000x1_S1600000_n_0_0_1_wf : ScatterDims.WF S800000 S1600000x1 S1600000 [] [0] [0] 1
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S800000x128_S1600000x1_S1600000x128_1_0_n_n_0_1_1128 : GatherDims S800000x128 S1600000x1 S1600000x128 where
  offsetDims := [1]
  collapsedSliceDims := [0]
  operandBatchingDims := []
  startIndicesBatchingDims := []
  startIndexMap := [0]
  indexVectorDim := 1
  sliceSizes := ![1, 128]
  wf := gather_S800000x128_S1600000x1_S1600000x128_1_0_n_n_0_1_1128_wf
def scatter_S800000x128_S1600000x1_S1600000x128_1_0_0_1 : ScatterDims S800000x128 S1600000x1 S1600000x128 where
  updateWindowDims := [1]
  insertedWindowDims := [0]
  scatterDimsToOperandDims := [0]
  indexVectorDim := 1
  wf := scatter_S800000x128_S1600000x1_S1600000x128_1_0_0_1_wf
def scatter_S800000_S1600000x1_S1600000_n_0_0_1 : ScatterDims S800000 S1600000x1 S1600000 where
  updateWindowDims := []
  insertedWindowDims := [0]
  scatterDimsToOperandDims := [0]
  indexVectorDim := 1
  wf := scatter_S800000_S1600000x1_S1600000_n_0_0_1_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.Alg.lean ====
/-
  Extended reals that are real numbers, and the identity between the two ways of writing a variance.

  `IsFin x` says the extended real `x` is a real number. Real numbers are closed under the operations the two
  programs use between the inputs and the batch statistics (sums, products, differences, maxima, a quotient by a
  number that is at least one), so every entry of the activation array is a real number when the inputs are.

  For real numbers `h i` over a finite index type of `n` elements, the mean of the squares less the square of the
  mean is the mean of the squared deviations, and that number is not negative, so clamping it below at zero changes
  nothing:  max ((Σ h²)/n − ((Σ h)/n)², 0) = (Σ (h − (Σ h)/n)²)/n.  On the extended reals this needs the `h i` real:
  at an infinity the left side is ⊥ − … or ⊤ − ⊤ and the two sides differ.
-/
import Idealize.ShloMosaic.PureOps.Ideal
import Idealize.ShloMosaic.PureOps.Ideal.Laws

noncomputable section

namespace Cert.Alg

open Idealize.ShloMosaic

/-- The extended real `x` is a real number (neither infinity). -/
def IsFin (x : EReal) : Prop := ∃ r : ℝ, x = (r : EReal)

theorem isFin_coe (r : ℝ) : IsFin (r : EReal) := ⟨r, rfl⟩

theorem isFin_zero : IsFin 0 := ⟨0, EReal.coe_zero.symm⟩

theorem isFin_one : IsFin 1 := ⟨1, EReal.coe_one.symm⟩

theorem IsFin.add {x y : EReal} (hx : IsFin x) (hy : IsFin y) : IsFin (x + y) := by
  obtain ⟨a, rfl⟩ := hx
  obtain ⟨b, rfl⟩ := hy
  exact ⟨a + b, (EReal.coe_add a b).symm⟩

theorem IsFin.sub {x y : EReal} (hx : IsFin x) (hy : IsFin y) : IsFin (x - y) := by
  obtain ⟨a, rfl⟩ := hx
  obtain ⟨b, rfl⟩ := hy
  exact ⟨a - b, (EReal.coe_sub a b).symm⟩

theorem IsFin.mul {x y : EReal} (hx : IsFin x) (hy : IsFin y) : IsFin (x * y) := by
  obtain ⟨a, rfl⟩ := hx
  obtain ⟨b, rfl⟩ := hy
  exact ⟨a * b, (EReal.coe_mul a b).symm⟩

theorem IsFin.max {x y : EReal} (hx : IsFin x) (hy : IsFin y) : IsFin (max x y) := by
  rcases le_total x y with hxy | hxy
  · rw [max_eq_right hxy]; exact hy
  · rw [max_eq_left hxy]; exact hx

theorem isFin_sum {ι : Type} (s : Finset ι) (f : ι → EReal) (h : ∀ i ∈ s, IsFin (f i)) : IsFin (∑ i ∈ s, f i) := by
  classical
  induction s using Finset.induction_on with
  | empty => rw [Finset.sum_empty]; exact isFin_zero
  | insert a s ha ih =>
    rw [Finset.sum_insert ha]
    exact (h a (Finset.mem_insert_self a s)).add (ih fun i hi => h i (Finset.mem_insert_of_mem hi))

/-- A quotient of real numbers by a real number that is at least one is a real number. -/
theorem IsFin.div_of_one_le {x y : EReal} (hx : IsFin x) (hy : IsFin y) (h : 1 ≤ y) : IsFin (Ideal.div x y) := by
  obtain ⟨a, rfl⟩ := hx
  obtain ⟨b, rfl⟩ := hy
  have hb1 : (1 : ℝ) ≤ b := by exact_mod_cast h
  have hb : b ≠ 0 := by linarith
  rw [Ideal.div_coe hb]
  exact ⟨a * (1 / b), (EReal.coe_mul a (1 / b)).symm⟩

theorem isFin_select (c : BitVec 1) {x y : EReal} (hx : IsFin x) (hy : IsFin y) : IsFin (Scalar.select c x y) := by
  unfold Scalar.select
  split
  · exact hx
  · exact hy

/-! ## The literals the programs carry, as real numbers -/

theorem ofBits_800000 : Ideal.ofBits .f32 0x49435000#32 = ((800000 : ℝ) : EReal) := by
  simp [Ideal.ofBits, Ideal.ieee, -EReal.coe_mul]
  norm_num

theorem ofBits_one : Ideal.ofBits .f32 0x3F800000#32 = ((1 : ℝ) : EReal) := by
  simp [Ideal.ofBits, Ideal.ieee, -EReal.coe_mul]
  norm_num

theorem ofBits_half : Ideal.ofBits .f32 0x3F000000#32 = ((1 / 2 : ℝ) : EReal) := by
  simp [Ideal.ofBits, Ideal.ieee, -EReal.coe_mul]
  norm_num

theorem ofBits_zero : Ideal.ofBits .f32 0x00000000#32 = (0 : EReal) := Ideal.ofBits_zero_f32

/-- The small positive number added under the reciprocal square root is a real number. -/
theorem isFin_eps : IsFin (Ideal.ofBits .f32 0x3727C5AC#32) := by
  simp [Ideal.ofBits, Ideal.ieee, -EReal.coe_mul]
  exact ⟨_, rfl⟩

/-! ## The variance, two ways -/

/-- A finite sum of real numbers, taken in the extended reals, is the real sum. -/
theorem coe_sum {ι : Type} (s : Finset ι) (f : ι → ℝ) :
    (∑ i ∈ s, (f i : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- The squared deviations from any number `m` sum to Σ r² − 2 m Σ r + n m². -/
theorem sum_sq_dev {ι : Type} [Fintype ι] (r : ι → ℝ) (n : ℝ) (hn : n = (Fintype.card ι : ℝ)) (m : ℝ) :
    ∑ i, (r i - m) * (r i - m) = (∑ i, r i * r i) - 2 * m * (∑ i, r i) + n * (m * m) := by
  have e : ∀ i, (r i - m) * (r i - m) = r i * r i - 2 * m * r i + m * m := fun i => by ring
  simp only [e]
  rw [Finset.sum_add_distrib, Finset.sum_sub_distrib, ← Finset.mul_sum, Finset.sum_const, Finset.card_univ,
    nsmul_eq_mul, ← hn]

/-- The identity on the real numbers, with the quotients written as products with `1 / n`. -/
theorem real_var {ι : Type} [Fintype ι] (r : ι → ℝ) (n : ℝ) (hn : n = (Fintype.card ι : ℝ)) (hpos : 0 < n) :
    (∑ i, r i * r i) * (1 / n) - (∑ i, r i) * (1 / n) * ((∑ i, r i) * (1 / n))
      = (∑ i, (r i - (∑ j, r j) * (1 / n)) * (r i - (∑ j, r j) * (1 / n))) * (1 / n) := by
  have hn0 : n ≠ 0 := ne_of_gt hpos
  rw [sum_sq_dev r n hn]
  field_simp
  ring

/-- Mean of squares less squared mean, clamped below at zero, is the mean of the squared deviations: for real
    entries over `n = card ι > 0` indices. -/
theorem var_identity {ι : Type} [Fintype ι] (h : ι → EReal) (hf : ∀ i, IsFin (h i)) (n : ℝ)
    (hn : n = (Fintype.card ι : ℝ)) (hpos : 0 < n) :
    max (Ideal.div (∑ i, h i * h i) (n : EReal)
          - Ideal.div (∑ i, h i) (n : EReal) * Ideal.div (∑ i, h i) (n : EReal)) 0
      = Ideal.div (∑ i, (h i - Ideal.div (∑ j, h j) (n : EReal)) * (h i - Ideal.div (∑ j, h j) (n : EReal))) (n : EReal) := by
  choose r hr using hf
  obtain rfl : h = fun i => (r i : EReal) := funext hr
  have hn0 : n ≠ 0 := ne_of_gt hpos
  simp only [Ideal.div_coe hn0, ← EReal.coe_mul, coe_sum, ← EReal.coe_sub]
  rw [real_var r n hn hpos, max_eq_left]
  exact EReal.coe_nonneg.mpr
    (mul_nonneg (Finset.sum_nonneg fun i _ => mul_self_nonneg _) (one_div_pos.mpr hpos).le)

end Cert.Alg

end
-- ==== Proof.PreFacts.lean ====
/-
  What the precondition says, entry by entry.

  The precondition is one bit: the conjunction, over the eight float inputs, of "every entry's absolute value is below
  +∞", and, over the two index inputs, of "every entry of `edge_index` is at least 0" and "every entry of row 0 of
  `line_graph_edge_index` is at least 0" (signed comparisons). Read back: every float entry is a real number, and
  those index words are non-negative as signed integers.
-/
import proofs.«415791_j54597624267061_2_alg».proof.Pre_finite_inputs
import proofs.«415791_j54597624267061_2_alg».proof.Proof.Gen.Pre_finite_inputs
import proofs.«415791_j54597624267061_2_alg».proof.Proof.Alg
import Idealize.ShloMosaic.Lib.ValueIdx
import Idealize.ShloMosaic.Lib.ReduceAll
import Idealize.ShloMosaic.Lib.StableHlo.Predicate
import Idealize.ShloMosaic.Lib.Pipeline.Value

noncomputable section

namespace Cert.PreFacts

open Cert.Pre_finite_inputs Idealize.ShloMosaic Idealize.ShloMosaic.ValueIdx Cert.Alg

/-- The scalar shape has one index. -/
instance subsingletonScalarIdx : Subsingleton (⟨0, ![]⟩ : Shape).Idx := ⟨fun a b => funext fun d => d.elim0⟩

/-- The f32 word with all exponent bits set and no fraction bit is +∞. -/
theorem ofBits_inf : Ideal.ofBits .f32 0x7F800000#32 = ⊤ := by
  simp [Ideal.ofBits, Ideal.ieee]

/-- An extended real whose absolute value max x (−x) is below +∞ is a real number. -/
theorem isFin_of_abs_lt_top (x : EReal) (h : max x (-x) < ⊤) : IsFin x := by
  induction x using EReal.rec with
  | bot => exact absurd h (by simp)
  | coe r => exact ⟨r, rfl⟩
  | top => exact absurd h (by simp)

/-- One entry of the compared array: |x| < +∞, as a bit, says x is a real number. -/
theorem isFin_of_cmp (x : EReal) (h : Ideal.cmp .olt (max x (-x)) (Ideal.ofBits .f32 0x7F800000#32) = 1#1) : IsFin x := by
  rw [ofBits_inf] at h
  unfold Ideal.cmp at h
  refine isFin_of_abs_lt_top x ?_
  by_contra hn
  simp [hn] at h

/-- "Every |entry| is below +∞", reduced by `and` over all axes to one bit that is 1: every entry is a real number. -/
theorem all_fin {s : Shape} {axes : List (Fin s.rank)} (a : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel) (init : IVec ⟨0, ![]⟩ 1) (j : (⟨0, ![]⟩ : Shape).Idx)
    (h : Host.reduce IntOp.andi
        (cmpf .olt (Host.absf a) (broadcastInDim s ![] hb (constant (F := Ideal) ⟨0, ![]⟩ .f32 0x7F800000#32))) init hr h0 j = 1#1)
    (i : s.Idx) : IsFin (a i) :=
  isFin_of_cmp (a i) (Host.reduce_andi_all _ init hr h0 j h i)

/-- "Every word is at least 0, signed", reduced by `and` over all axes to one bit that is 1: every word is
    non-negative as a signed integer. -/
theorem all_nonneg {s : Shape} {axes : List (Fin s.rank)} (w : IVec s 32)
    (hb : (⟨0, ![]⟩ : Shape).BroadcastsInDim s (![] : Fin 0 → Fin s.rank)) (hr : s.ReducesTo axes ⟨0, ![]⟩)
    (h0 : 0 < (⟨0, ![]⟩ : Shape).numel) (init : IVec ⟨0, ![]⟩ 1) (j : (⟨0, ![]⟩ : Shape).Idx)
    (h : Host.reduce IntOp.andi (cmpi .sge w (broadcastInDim s ![] hb (constantI ⟨0, ![]⟩ 32 0#32))) init hr h0 j = 1#1)
    (i : s.Idx) : 0 ≤ (w i).toInt := by
  have e : IntOp.cmpi .sge (w i) 0#32 = 1#1 := Host.reduce_andi_all _ init hr h0 j h i
  have := IntOp.cmpi_sge.mp e
  simpa using this

/-- Row 0 of a two-row array, flattened: entry `e` of the flattened row is entry (0, e) of the array. -/
theorem row0_apply {n : Nat} (w : IVec ⟨2, ![2, n]⟩ 32) (hs : (⟨2, ![2, n]⟩ : Shape).Slices ![0, 0] ⟨2, ![1, n]⟩)
    (hc : (⟨2, ![1, n]⟩ : Shape).ShapeCasts ⟨1, ![n]⟩) (e : Fin n) :
    shapeCast ⟨1, ![n]⟩ (extractStridedSlice ⟨2, ![1, n]⟩ ![0, 0] w hs) hc (ix1 e) = w (ix2 (0 : Fin 2) e) := by
  rw [shapeCast_dropUnit_apply ![n] _ hc (ix1 e)]
  refine extractStridedSlice_apply ![0, 0] w hs _ (ix2 (0 : Fin 2) e) fun a => ?_
  match a with
  | ⟨0, _⟩ => exact (Nat.zero_add 0).symm
  | ⟨1, _⟩ => exact (Nat.zero_add e.val).symm

/-- The precondition, unfolded: the float inputs are real numbers entry by entry, every word of `edge_index` and every
    word of row 0 of `line_graph_edge_index` is non-negative as a signed integer. -/
theorem decode (a0 : FVec Ideal S50000x256 .f32) (a1 : FVec Ideal S800000x128 .f32) (a2 : FVec Ideal S128x256 .f32)
    (a3 : FVec Ideal S128x128 .f32) (a4 : FVec Ideal S128 .f32) (a5 : FVec Ideal S1 .f32) (a6 a7 : FVec Ideal S128 .f32)
    (a8 : IVec S2x800000 32) (a9 : IVec S2x1600000 32)
    (h : Cert.Pre_finite_inputs.fn (F := Ideal) a0 a1 a2 a3 a4 a5 a6 a7 a8 a9 = fun _ => 1#1) :
    (∀ i, IsFin (a0 i)) ∧ (∀ i, IsFin (a1 i)) ∧ (∀ i, IsFin (a2 i)) ∧ (∀ i, IsFin (a3 i)) ∧ (∀ i, IsFin (a4 i))
      ∧ (∀ i, IsFin (a5 i)) ∧ (∀ i, IsFin (a6 i)) ∧ (∀ i, IsFin (a7 i))
      ∧ (∀ i, 0 ≤ (a8 i).toInt) ∧ (∀ e : Fin 1600000, 0 ≤ (a9 (ix2 (0 : Fin 2) e)).toInt) := by
  have e := congrFun h ix0
  dsimp only [fn, fn_part1, fn_part2] at e
  simp only [andi, IntOp.andi_eq_one] at e
  obtain ⟨⟨⟨⟨⟨⟨⟨⟨⟨h0, h1⟩, h2⟩, h3⟩, h4⟩, h5⟩, h6⟩, h7⟩, h8⟩, h9⟩ := e
  refine ⟨all_fin a0 _ _ _ _ _ h0, all_fin a1 _ _ _ _ _ h1, all_fin a2 _ _ _ _ _ h2, all_fin a3 _ _ _ _ _ h3,
    all_fin a4 _ _ _ _ _ h4, all_fin a5 _ _ _ _ _ h5, all_fin a6 _ _ _ _ _ h6, all_fin a7 _ _ _ _ _ h7,
    all_nonneg a8 _ _ _ _ _ h8, fun e => ?_⟩
  have h9e := all_nonneg _ _ _ _ _ _ h9 (ix1 e)
  rw [row0_apply a9 _ _ e] at h9e
  exact h9e

end Cert.PreFacts

end
-- ==== Proof.KNames.lean ====
/-
  Names for what the kernel program's run passes from one segment to the next: the ten arguments as launched, and the
  array each kernel region leaves in its output window (the projection after region 0, the two accumulators after
  region 1, the updated edge features after region 2), read off the generated frame's proof data.
-/
import proofs.«415791_j54597624267061_2_alg».proof.Proof.Gen.KernelIdeal.Frame
import Idealize.ShloMosaic.Lib.ValueIdx

noncomputable section

namespace Cert.KNames

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

abbrev x0 : FVec Ideal S50000x256 .f32 := m ((c : Thread nD τ).loc main_arg0)
abbrev x1 : FVec Ideal S800000x128 .f32 := m ((c : Thread nD τ).loc main_arg1)
abbrev x2 : FVec Ideal S128x256 .f32 := m ((c : Thread nD τ).loc main_arg2)
abbrev x3 : FVec Ideal S128x128 .f32 := m ((c : Thread nD τ).loc main_arg3)
abbrev x4 : FVec Ideal S128 .f32 := m ((c : Thread nD τ).loc main_arg4)
abbrev x5 : FVec Ideal S1 .f32 := m ((c : Thread nD τ).loc main_arg5)
abbrev x6 : FVec Ideal S128 .f32 := m ((c : Thread nD τ).loc main_arg6)
abbrev x7 : FVec Ideal S128 .f32 := m ((c : Thread nD τ).loc main_arg7)
abbrev x8 : IVec S2x800000 32 := m ((c : Thread nD τ).loc main_arg8)
abbrev x9 : IVec S2x1600000 32 := m ((c : Thread nD τ).loc main_arg9)

/-- The array region 0 leaves in its output window (the node projection). -/
def PX : FVec Ideal S50000x128 .f32 := (dat0 (F := Ideal) (V1 m ρ) c).arrAt 2 cfg0.N
/-- The arrays region 1 leaves in its two output windows (each core's partial sums of the activations and of their squares). -/
def ACC0 : FVec Ideal S2x8x128 .f32 := (dat1 (F := Ideal) (V8 m ρ) c).arrAt 4 cfg1.N
def ACC1 : FVec Ideal S2x8x128 .f32 := (dat1 (F := Ideal) (V8 m ρ) c).arrAt 5 cfg1.N
/-- The array region 2 leaves in its output window (the updated edge features). -/
def Z2 : FVec Ideal S800000x128 .f32 := (dat2 (F := Ideal) (V10 m ρ) c).arrAt 9 cfg2.N

end Cert.KNames

end
-- ==== Proof.KForm.lean ====
/-
  What the kernel program's host stretches compute, as functions of the arrays they read.

  Between its three kernel regions the kernel program runs plain array operations: before the first, the transposes of
  the two weight matrices and the four parameter vectors reshaped to rows; after it, the two index rows cut out of
  `edge_index`, the rows of the projection gathered at them (the gather clamps an index into the array), the fused
  features `edge_attr + ½ · (P[src] + P[dst])`, the same for the line graph followed by the segment mean; after the
  statistics kernel, the two per-core partial sums added (row 0 of each core's padded block), the mean, and the variance
  as the mean of squares less the squared mean, clamped below at zero; after the last kernel, the segment mean over
  `dst`. Each is named here so that the fold of the program's segments can be read against one short term.
-/
import proofs.«415791_j54597624267061_2_alg».proof.Proof.Gen.KernelIdeal
import Idealize.ShloMosaic.PureOps.Ideal

noncomputable section

namespace Cert.KForm

open Cert.KernelIdeal Cert.KernelIdeal.Gen Idealize.ShloMosaic

/-- `W_projᵀ`. -/
def kT0 (x2 : FVec Ideal S128x256 .f32) : FVec Ideal S256x128 .f32 :=
  transpose S256x128 [1, 0] x2 transposes_S128x256_S256x128_1_0

/-- `W1ᵀ`. -/
def kT1 (x3 : FVec Ideal S128x128 .f32) : FVec Ideal S128x128 .f32 :=
  transpose S128x128 [1, 0] x3 transposes_S128x128_S128x128_1_0

/-- A vector of 128 channels as a row `[1, 128]`. -/
def kRow (v : FVec Ideal S128 .f32) : FVec Ideal S1x128 .f32 := shapeCast S1x128 v shapeCasts_S128_S1x128

/-- The one-entry vector as `[1, 1]`. -/
def kRow1 (v : FVec Ideal S1 .f32) : FVec Ideal S1x1 .f32 := shapeCast S1x1 v shapeCasts_S1_S1x1

/-- Row 0 of `edge_index` (the source nodes). -/
def kSrc (x8 : IVec S2x800000 32) : IVec S800000 32 :=
  shapeCast S800000 (extractStridedSlice S1x800000 ![0, 0] x8 slices_S2x800000_S1x800000_0_0) shapeCasts_S1x800000_S800000

/-- Row 1 of `edge_index` (the destination nodes). -/
def kDst (x8 : IVec S2x800000 32) : IVec S800000 32 :=
  shapeCast S800000 (extractStridedSlice S1x800000 ![1, 0] x8 slices_S2x800000_S1x800000_1_0) shapeCasts_S1x800000_S800000

/-- The rows of `P` at the indices `i`, each index clamped into `[0, 50000)` by the gather. -/
def kTake (P : FVec Ideal S50000x128 .f32) (i : IVec S800000 32) : FVec Ideal S800000x128 .f32 :=
  Host.gather gather_S50000x128_S800000x1_S800000x128_1_0_n_n_0_1_1128 P (broadcastInDim S800000x1 ![0] bcast_S800000_S800000x1_0 i)

/-- The fused edge features `edge_attr + ½ · (P[src] + P[dst])`. -/
def kFused (P : FVec Ideal S50000x128 .f32) (x1 : FVec Ideal S800000x128 .f32) (x8 : IVec S2x800000 32) :
    FVec Ideal S800000x128 .f32 :=
  addf x1 (mulf (broadcastInDim S800000x128 ![] bcast_S_S800000x128 (constant S_ .f32 0x3F000000#32))
    (addf (kTake P (kSrc x8)) (kTake P (kDst x8))))

/-- Row 0 of `line_graph_edge_index`. -/
def kLSrc (x9 : IVec S2x1600000 32) : IVec S1600000 32 :=
  shapeCast S1600000 (extractStridedSlice S1x1600000 ![0, 0] x9 slices_S2x1600000_S1x1600000_0_0) shapeCasts_S1x1600000_S1600000

/-- Row 1 of `line_graph_edge_index`. -/
def kLDst (x9 : IVec S2x1600000 32) : IVec S1600000 32 :=
  shapeCast S1600000 (extractStridedSlice S1x1600000 ![1, 0] x9 slices_S2x1600000_S1x1600000_1_0) shapeCasts_S1x1600000_S1600000

/-- The line-graph aggregate: the rows `Z[line_src]` summed by `line_dst`, over each `line_dst`'s count clamped below at one. -/
def kAgg (Z : FVec Ideal S800000x128 .f32) (x9 : IVec S2x1600000 32) : FVec Ideal S800000x128 .f32 :=
  Host.divf
    (Host.scatterAdd scatter_S800000x128_S1600000x1_S1600000x128_1_0_0_1
      (broadcastInDim S800000x128 ![] bcast_S_S800000x128 (constant S_ .f32 0x00000000#32))
      (broadcastInDim S1600000x1 ![0] bcast_S1600000_S1600000x1_0 (kLDst x9))
      (Host.gather gather_S800000x128_S1600000x1_S1600000x128_1_0_n_n_0_1_1128 Z
        (broadcastInDim S1600000x1 ![0] bcast_S1600000_S1600000x1_0 (kLSrc x9))))
    (broadcastInDim S800000x128 ![0, 1] bcast_S800000x1_S800000x128_0_1
      (broadcastInDim S800000x1 ![0] bcast_S800000_S800000x1_0
        (maximumf
          (Host.scatterAdd scatter_S800000_S1600000x1_S1600000_n_0_0_1
            (broadcastInDim S800000 ![] bcast_S_S800000 (constant S_ .f32 0x00000000#32))
            (broadcastInDim S1600000x1 ![0] bcast_S1600000_S1600000x1_0 (kLDst x9))
            (broadcastInDim S1600000 ![] bcast_S_S1600000 (constant S_ .f32 0x3F800000#32)))
          (broadcastInDim S800000 ![] bcast_S_S800000 (constant S_ .f32 0x3F800000#32)))))

/-- The two cores' partial sums added: row 0 of each core's padded `[8, 128]` block, summed over the two cores. -/
def kStat (acc : FVec Ideal S2x8x128 .f32) : FVec Ideal S128 .f32 :=
  Host.reduceAdd (shapeCast S2x128 (extractStridedSlice S2x1x128 ![0, 0, 0] acc slices_S2x8x128_S2x1x128_0_0_0) shapeCasts_S2x1x128_S2x128)
    (constant S_ .f32 0x00000000#32) reducesTo_S2x128_S128_d0 h_S_

/-- The per-channel mean from the partial sums of the activations. -/
def kMean (acc0 : FVec Ideal S2x8x128 .f32) : FVec Ideal S128 .f32 :=
  Host.divf (kStat acc0) (broadcastInDim S128 ![] bcast_S_S128 (constant S_ .f32 0x49435000#32))

/-- The per-channel variance from the partial sums of the activations and of their squares: mean of squares less the
    squared mean, clamped below at zero. -/
def kVar (acc0 acc1 : FVec Ideal S2x8x128 .f32) : FVec Ideal S128 .f32 :=
  maximumf
    (subf (Host.divf (kStat acc1) (broadcastInDim S128 ![] bcast_S_S128 (constant S_ .f32 0x49435000#32)))
      (mulf (kMean acc0) (kMean acc0)))
    (broadcastInDim S128 ![] bcast_S_S128 (constant S_ .f32 0x00000000#32))

/-- The node update: the rows of `Z'` summed by `dst`, over each `dst`'s count clamped below at one. -/
def kOut (Z' : FVec Ideal S800000x128 .f32) (x8 : IVec S2x800000 32) : FVec Ideal S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 (kDst x8)) Z')
    (broadcastInDim S50000x128 ![0, 1] bcast_S50000x1_S50000x128_0_1
      (broadcastInDim S50000x1 ![0] bcast_S50000_S50000x1_0
        (maximumf
          (Host.scatterAdd scatter_S50000_S800000x1_S800000_n_0_0_1
            (broadcastInDim S50000 ![] bcast_S_S50000 (constant S_ .f32 0x00000000#32))
            (broadcastInDim S800000x1 ![0] bcast_S800000_S800000x1_0 (kDst x8))
            (broadcastInDim S800000 ![] bcast_S_S800000 (constant S_ .f32 0x3F800000#32)))
          (broadcastInDim S50000 ![] bcast_S_S50000 (constant S_ .f32 0x3F800000#32)))))

end Cert.KForm

end
-- ==== Proof.KHostA.lean ====
/-
  The kernel program's buffers at the entries of its first two kernel regions, read through the fold of its segments.

  The generated frame names the buffer contents at every segment boundary as a fold from the launch memory: a host
  stretch applies its operations in order, a kernel region replaces its windows' arrays by what the pipeline leaves and
  keeps every other buffer. A buffer is read through the fold by walking back to the operation that wrote it (its value
  is that operation of its operands, read the same way) or, past operations and regions that do not write it, to the
  launch memory. Here: at region 0's entry `x` is as launched and `main_v0` is `W_projᵀ`; at region 1's entry
  `main_v33` is the line-graph aggregate of the fused features of region 0's output, and the three small operands are
  `W1ᵀ`, `b1` as a row and the slope as `[1,1]`.
-/
import proofs.«415791_j54597624267061_2_alg».proof.Proof.Gen.KernelIdeal.Frame
import proofs.«415791_j54597624267061_2_alg».proof.Proof.KForm
import proofs.«415791_j54597624267061_2_alg».proof.Proof.KNames
import Idealize.ShloMosaic.Lib.StableHlo.Run
import Idealize.ShloMosaic.Lib.ValueIdx

noncomputable section

set_option maxRecDepth 16384

namespace Cert.KHostA

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KNames Cert.KForm

variable (m : (ℓ : Loc nD τ sig) → Buf (Elt Ideal) ℓ) (ρ : Dev nD → PrngReg) (c : Dev nD)

/-- A host stretch leaves a buffer none of its operations writes as it was: each operation writes one reference, and
    the buffer's reference differs from every one of them. -/
local macro "unwritten" ops:ident V:term:max b:term:max : term =>
  `(StableHlo.after_of_forall_not_mem (b := Proc.devRef .tc $b) $ops $V (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## What each host stretch leaves in the buffers read later, from any entry contents

Each is the stretch's operations composed: the value at a result buffer is its operation applied to the values at its
operand buffers, those read the same way within the stretch or, when the stretch does not write them, at its entry. -/

/-- `a + ½ · (p + q)`. -/
def fusedOf (a p q : FVec Ideal S800000x128 .f32) : FVec Ideal S800000x128 .f32 :=
  addf a (mulf (broadcastInDim S800000x128 ![] bcast_S_S800000x128 (constant S_ .f32 0x3F000000#32)) (addf p q))

/-- The rows of `Z` at the indices `i`, each index clamped into the array by the gather. -/
def takeL (Z : FVec Ideal S800000x128 .f32) (i : IVec S1600000 32) : FVec Ideal S1600000x128 .f32 :=
  Host.gather gather_S800000x128_S1600000x1_S1600000x128_1_0_n_n_0_1_1128 Z
    (broadcastInDim S1600000x1 ![0] bcast_S1600000_S1600000x1_0 i)

/-- The rows `g` summed by the segment ids `d`, over each id's count clamped below at one. -/
def aggOf (d : IVec S1600000 32) (g : FVec Ideal S1600000x128 .f32) : FVec Ideal S800000x128 .f32 :=
  Host.divf
    (Host.scatterAdd scatter_S800000x128_S1600000x1_S1600000x128_1_0_0_1
      (broadcastInDim S800000x128 ![] bcast_S_S800000x128 (constant S_ .f32 0x00000000#32))
      (broadcastInDim S1600000x1 ![0] bcast_S1600000_S1600000x1_0 d) g)
    (broadcastInDim S800000x128 ![0, 1] bcast_S800000x1_S800000x128_0_1
      (broadcastInDim S800000x1 ![0] bcast_S800000_S800000x1_0
        (maximumf
          (Host.scatterAdd scatter_S800000_S1600000x1_S1600000_n_0_0_1
            (broadcastInDim S800000 ![] bcast_S_S800000 (constant S_ .f32 0x00000000#32))
            (broadcastInDim S1600000x1 ![0] bcast_S1600000_S1600000x1_0 d)
            (broadcastInDim S1600000 ![] bcast_S_S1600000 (constant S_ .f32 0x3F800000#32)))
          (broadcastInDim S800000 ![] bcast_S_S800000 (constant S_ .f32 0x3F800000#32)))))

theorem kFused_eq (P : FVec Ideal S50000x128 .f32) (x1 : FVec Ideal S800000x128 .f32) (x8 : IVec S2x800000 32) :
    kFused P x1 x8 = fusedOf x1 (kTake P (kSrc x8)) (kTake P (kDst x8)) := rfl

theorem kAgg_eq (Z : FVec Ideal S800000x128 .f32) (x9 : IVec S2x1600000 32) :
    kAgg Z x9 = aggOf (kLDst x9) (takeL Z (kLSrc x9)) := rfl

section Stretch

variable (V : Valuation τ sig (Elt Ideal))

theorem h0_v0 : StableHlo.after hostOps0 V (Proc.devRef .tc main_v0) = kT0 (V (Proc.devRef .tc main_arg2)) := by
  after_results; rfl
theorem h0_v1 : StableHlo.after hostOps0 V (Proc.devRef .tc main_v1) = kT1 (V (Proc.devRef .tc main_arg3)) := by
  after_results; rfl
theorem h0_v2 : StableHlo.after hostOps0 V (Proc.devRef .tc main_v2) = kRow (V (Proc.devRef .tc main_arg4)) := by
  after_results; rfl
theorem h0_v3 : StableHlo.after hostOps0 V (Proc.devRef .tc main_v3) = kRow1 (V (Proc.devRef .tc main_arg5)) := by
  after_results; rfl

theorem h1_v8 : StableHlo.after hostOps1 V (Proc.devRef .tc main_v8) = kSrc (V (Proc.devRef .tc main_arg8)) := by
  after_results; rfl
theorem h1_v10 : StableHlo.after hostOps1 V (Proc.devRef .tc main_v10) = kDst (V (Proc.devRef .tc main_arg8)) := by
  after_results; rfl

theorem h11_v11 : StableHlo.after hostOps1_1 V (Proc.devRef .tc main_v11) = kTake (V (Proc.devRef .tc main_v6)) (V (Proc.devRef .tc main_v8)) := by
  after_results; rfl
theorem h12_v12 : StableHlo.after hostOps1_2 V (Proc.devRef .tc main_v12) = kTake (V (Proc.devRef .tc main_v6)) (V (Proc.devRef .tc main_v10)) := by
  after_results; rfl

theorem h13_v16 : StableHlo.after hostOps1_3 V (Proc.devRef .tc main_v16)
    = fusedOf (V (Proc.devRef .tc main_arg1)) (V (Proc.devRef .tc main_v11)) (V (Proc.devRef .tc main_v12)) := by
  after_results; rfl
theorem h13_v18 : StableHlo.after hostOps1_3 V (Proc.devRef .tc main_v18) = kLSrc (V (Proc.devRef .tc main_arg9)) := by
  after_results; rfl
theorem h13_v20 : StableHlo.after hostOps1_3 V (Proc.devRef .tc main_v20) = kLDst (V (Proc.devRef .tc main_arg9)) := by
  after_results; rfl

theorem h14_v21 : StableHlo.after hostOps1_4 V (Proc.devRef .tc main_v21) = takeL (V (Proc.devRef .tc main_v16)) (V (Proc.devRef .tc main_v18)) := by
  after_results; rfl

theorem h15_v33 : StableHlo.after hostOps1_5 V (Proc.devRef .tc main_v33) = aggOf (V (Proc.devRef .tc main_v20)) (V (Proc.devRef .tc main_v21)) := by
  after_results; rfl

end Stretch

/-! ## Region 0's entry: after the first host stretch -/

theorem v1_arg0 : V1 m ρ c main_arg0 = x0 m c :=
  calc V1 m ρ c main_arg0
    _ = W0 m ρ c (Proc.devRef .tc main_arg0) := unwritten hostOps0 (W0 m ρ c) main_arg0
    _ = x0 m c := rfl

theorem w1_arg2 : W1 m ρ c (Proc.devRef .tc main_arg2) = x2 m c :=
  calc W1 m ρ c (Proc.devRef .tc main_arg2)
    _ = W0 m ρ c (Proc.devRef .tc main_arg2) := unwritten hostOps0 (W0 m ρ c) main_arg2
    _ = x2 m c := rfl

theorem v1_v0 : V1 m ρ c main_v0 = kT0 (x2 m c) :=
  calc V1 m ρ c main_v0
    _ = kT0 (W0 m ρ c (Proc.devRef .tc main_arg2)) := h0_v0 (W0 m ρ c)
    _ = kT0 (x2 m c) := rfl

/-! ## Region 1's entry

### The three small operands: written by the first host stretch, then untouched -/

theorem v8_v1 : V8 m ρ c main_v1 = kT1 (x3 m c) :=
  calc V8 m ρ c main_v1
    _ = W8 m ρ c (Proc.devRef .tc main_v1) := rfl
    _ = W7 m ρ c (Proc.devRef .tc main_v1) := unwritten hostOps1_5 (W7 m ρ c) main_v1
    _ = W6 m ρ c (Proc.devRef .tc main_v1) := unwritten hostOps1_4 (W6 m ρ c) main_v1
    _ = W5 m ρ c (Proc.devRef .tc main_v1) := unwritten hostOps1_3 (W5 m ρ c) main_v1
    _ = W4 m ρ c (Proc.devRef .tc main_v1) := unwritten hostOps1_2 (W4 m ρ c) main_v1
    _ = W3 m ρ c (Proc.devRef .tc main_v1) := unwritten hostOps1_1 (W3 m ρ c) main_v1
    _ = W2 m ρ c (Proc.devRef .tc main_v1) := unwritten hostOps1 (W2 m ρ c) main_v1
    _ = W1 m ρ c (Proc.devRef .tc main_v1) := W2_of_ne m ρ c main_v1 (by decide)
    _ = kT1 (W0 m ρ c (Proc.devRef .tc main_arg3)) := h0_v1 (W0 m ρ c)
    _ = kT1 (x3 m c) := rfl

theorem v8_v2 : V8 m ρ c main_v2 = kRow (x4 m c) :=
  calc V8 m ρ c main_v2
    _ = W8 m ρ c (Proc.devRef .tc main_v2) := rfl
    _ = W7 m ρ c (Proc.devRef .tc main_v2) := unwritten hostOps1_5 (W7 m ρ c) main_v2
    _ = W6 m ρ c (Proc.devRef .tc main_v2) := unwritten hostOps1_4 (W6 m ρ c) main_v2
    _ = W5 m ρ c (Proc.devRef .tc main_v2) := unwritten hostOps1_3 (W5 m ρ c) main_v2
    _ = W4 m ρ c (Proc.devRef .tc main_v2) := unwritten hostOps1_2 (W4 m ρ c) main_v2
    _ = W3 m ρ c (Proc.devRef .tc main_v2) := unwritten hostOps1_1 (W3 m ρ c) main_v2
    _ = W2 m ρ c (Proc.devRef .tc main_v2) := unwritten hostOps1 (W2 m ρ c) main_v2
    _ = W1 m ρ c (Proc.devRef .tc main_v2) := W2_of_ne m ρ c main_v2 (by decide)
    _ = kRow (W0 m ρ c (Proc.devRef .tc main_arg4)) := h0_v2 (W0 m ρ c)
    _ = kRow (x4 m c) := rfl

theorem v8_v3 : V8 m ρ c main_v3 = kRow1 (x5 m c) :=
  calc V8 m ρ c main_v3
    _ = W8 m ρ c (Proc.devRef .tc main_v3) := rfl
    _ = W7 m ρ c (Proc.devRef .tc main_v3) := unwritten hostOps1_5 (W7 m ρ c) main_v3
    _ = W6 m ρ c (Proc.devRef .tc main_v3) := unwritten hostOps1_4 (W6 m ρ c) main_v3
    _ = W5 m ρ c (Proc.devRef .tc main_v3) := unwritten hostOps1_3 (W5 m ρ c) main_v3
    _ = W4 m ρ c (Proc.devRef .tc main_v3) := unwritten hostOps1_2 (W4 m ρ c) main_v3
    _ = W3 m ρ c (Proc.devRef .tc main_v3) := unwritten hostOps1_1 (W3 m ρ c) main_v3
    _ = W2 m ρ c (Proc.devRef .tc main_v3) := unwritten hostOps1 (W2 m ρ c) main_v3
    _ = W1 m ρ c (Proc.devRef .tc main_v3) := W2_of_ne m ρ c main_v3 (by decide)
    _ = kRow1 (W0 m ρ c (Proc.devRef .tc main_arg5)) := h0_v3 (W0 m ρ c)
    _ = kRow1 (x5 m c) := rfl

/-! ### The arguments read after region 0: as launched (no operation writes one; region 0 has none of them for a window) -/

theorem w2_arg8 : W2 m ρ c (Proc.devRef .tc main_arg8) = x8 m c :=
  calc W2 m ρ c (Proc.devRef .tc main_arg8)
    _ = W1 m ρ c (Proc.devRef .tc main_arg8) := W2_of_ne m ρ c main_arg8 (by decide)
    _ = W0 m ρ c (Proc.devRef .tc main_arg8) := unwritten hostOps0 (W0 m ρ c) main_arg8
    _ = x8 m c := rfl

theorem w5_arg1 : W5 m ρ c (Proc.devRef .tc main_arg1) = x1 m c :=
  calc W5 m ρ c (Proc.devRef .tc main_arg1)
    _ = W4 m ρ c (Proc.devRef .tc main_arg1) := unwritten hostOps1_2 (W4 m ρ c) main_arg1
    _ = W3 m ρ c (Proc.devRef .tc main_arg1) := unwritten hostOps1_1 (W3 m ρ c) main_arg1
    _ = W2 m ρ c (Proc.devRef .tc main_arg1) := unwritten hostOps1 (W2 m ρ c) main_arg1
    _ = W1 m ρ c (Proc.devRef .tc main_arg1) := W2_of_ne m ρ c main_arg1 (by decide)
    _ = W0 m ρ c (Proc.devRef .tc main_arg1) := unwritten hostOps0 (W0 m ρ c) main_arg1
    _ = x1 m c := rfl

theorem w5_arg9 : W5 m ρ c (Proc.devRef .tc main_arg9) = x9 m c :=
  calc W5 m ρ c (Proc.devRef .tc main_arg9)
    _ = W4 m ρ c (Proc.devRef .tc main_arg9) := unwritten hostOps1_2 (W4 m ρ c) main_arg9
    _ = W3 m ρ c (Proc.devRef .tc main_arg9) := unwritten hostOps1_1 (W3 m ρ c) main_arg9
    _ = W2 m ρ c (Proc.devRef .tc main_arg9) := unwritten hostOps1 (W2 m ρ c) main_arg9
    _ = W1 m ρ c (Proc.devRef .tc main_arg9) := W2_of_ne m ρ c main_arg9 (by decide)
    _ = W0 m ρ c (Proc.devRef .tc main_arg9) := unwritten hostOps0 (W0 m ρ c) main_arg9
    _ = x9 m c := rfl

/-! ### The projection region 0 leaves, and the two index rows -/

theorem w3_v6 : W3 m ρ c (Proc.devRef .tc main_v6) = PX m ρ c :=
  calc W3 m ρ c (Proc.devRef .tc main_v6)
    _ = W2 m ρ c (Proc.devRef .tc main_v6) := unwritten hostOps1 (W2 m ρ c) main_v6
    _ = PX m ρ c := W2_arr m ρ c 2

theorem w3_v8 : W3 m ρ c (Proc.devRef .tc main_v8) = kSrc (x8 m c) :=
  calc W3 m ρ c (Proc.devRef .tc main_v8)
    _ = kSrc (W2 m ρ c (Proc.devRef .tc main_arg8)) := h1_v8 (W2 m ρ c)
    _ = kSrc (x8 m c) := by rw [w2_arg8]

theorem w3_v10 : W3 m ρ c (Proc.devRef .tc main_v10) = kDst (x8 m c) :=
  calc W3 m ρ c (Proc.devRef .tc main_v10)
    _ = kDst (W2 m ρ c (Proc.devRef .tc main_arg8)) := h1_v10 (W2 m ρ c)
    _ = kDst (x8 m c) := by rw [w2_arg8]

/-! ### The gathered rows and the fused features -/

theorem w5_v11 : W5 m ρ c (Proc.devRef .tc main_v11) = kTake (PX m ρ c) (kSrc (x8 m c)) :=
  calc W5 m ρ c (Proc.devRef .tc main_v11)
    _ = W4 m ρ c (Proc.devRef .tc main_v11) := unwritten hostOps1_2 (W4 m ρ c) main_v11
    _ = kTake (W3 m ρ c (Proc.devRef .tc main_v6)) (W3 m ρ c (Proc.devRef .tc main_v8)) := h11_v11 (W3 m ρ c)
    _ = kTake (PX m ρ c) (kSrc (x8 m c)) := by rw [w3_v6, w3_v8]

theorem w4_v6 : W4 m ρ c (Proc.devRef .tc main_v6) = PX m ρ c :=
  calc W4 m ρ c (Proc.devRef .tc main_v6)
    _ = W3 m ρ c (Proc.devRef .tc main_v6) := unwritten hostOps1_1 (W3 m ρ c) main_v6
    _ = PX m ρ c := w3_v6 m ρ c

theorem w4_v10 : W4 m ρ c (Proc.devRef .tc main_v10) = kDst (x8 m c) :=
  calc W4 m ρ c (Proc.devRef .tc main_v10)
    _ = W3 m ρ c (Proc.devRef .tc main_v10) := unwritten hostOps1_1 (W3 m ρ c) main_v10
    _ = kDst (x8 m c) := w3_v10 m ρ c

theorem w5_v12 : W5 m ρ c (Proc.devRef .tc main_v12) = kTake (PX m ρ c) (kDst (x8 m c)) :=
  calc W5 m ρ c (Proc.devRef .tc main_v12)
    _ = kTake (W4 m ρ c (Proc.devRef .tc main_v6)) (W4 m ρ c (Proc.devRef .tc main_v10)) := h12_v12 (W4 m ρ c)
    _ = kTake (PX m ρ c) (kDst (x8 m c)) := by rw [w4_v6, w4_v10]

theorem w6_v16 : W6 m ρ c (Proc.devRef .tc main_v16) = kFused (PX m ρ c) (x1 m c) (x8 m c) :=
  calc W6 m ρ c (Proc.devRef .tc main_v16)
    _ = fusedOf (W5 m ρ c (Proc.devRef .tc main_arg1)) (W5 m ρ c (Proc.devRef .tc main_v11)) (W5 m ρ c (Proc.devRef .tc main_v12)) := h13_v16 (W5 m ρ c)
    _ = fusedOf (x1 m c) (kTake (PX m ρ c) (kSrc (x8 m c))) (kTake (PX m ρ c) (kDst (x8 m c))) := by
          rw [w5_arg1, w5_v11, w5_v12]
    _ = kFused (PX m ρ c) (x1 m c) (x8 m c) := (kFused_eq _ _ _).symm

theorem v8_v16 : V8 m ρ c main_v16 = kFused (PX m ρ c) (x1 m c) (x8 m c) :=
  calc V8 m ρ c main_v16
    _ = W8 m ρ c (Proc.devRef .tc main_v16) := rfl
    _ = W7 m ρ c (Proc.devRef .tc main_v16) := unwritten hostOps1_5 (W7 m ρ c) main_v16
    _ = W6 m ρ c (Proc.devRef .tc main_v16) := unwritten hostOps1_4 (W6 m ρ c) main_v16
    _ = kFused (PX m ρ c) (x1 m c) (x8 m c) := w6_v16 m ρ c

/-! ### The line-graph aggregate -/

theorem w6_v18 : W6 m ρ c (Proc.devRef .tc main_v18) = kLSrc (x9 m c) :=
  calc W6 m ρ c (Proc.devRef .tc main_v18)
    _ = kLSrc (W5 m ρ c (Proc.devRef .tc main_arg9)) := h13_v18 (W5 m ρ c)
    _ = kLSrc (x9 m c) := by rw [w5_arg9]

theorem w7_v20 : W7 m ρ c (Proc.devRef .tc main_v20) = kLDst (x9 m c) :=
  calc W7 m ρ c (Proc.devRef .tc main_v20)
    _ = W6 m ρ c (Proc.devRef .tc main_v20) := unwritten hostOps1_4 (W6 m ρ c) main_v20
    _ = kLDst (W5 m ρ c (Proc.devRef .tc main_arg9)) := h13_v20 (W5 m ρ c)
    _ = kLDst (x9 m c) := by rw [w5_arg9]

theorem w7_v21 : W7 m ρ c (Proc.devRef .tc main_v21) = takeL (kFused (PX m ρ c) (x1 m c) (x8 m c)) (kLSrc (x9 m c)) :=
  calc W7 m ρ c (Proc.devRef .tc main_v21)
    _ = takeL (W6 m ρ c (Proc.devRef .tc main_v16)) (W6 m ρ c (Proc.devRef .tc main_v18)) := h14_v21 (W6 m ρ c)
    _ = takeL (kFused (PX m ρ c) (x1 m c) (x8 m c)) (kLSrc (x9 m c)) := by rw [w6_v16, w6_v18]

theorem v8_v33 : V8 m ρ c main_v33 = kAgg (kFused (PX m ρ c) (x1 m c) (x8 m c)) (x9 m c) :=
  calc V8 m ρ c main_v33
    _ = aggOf (W7 m ρ c (Proc.devRef .tc main_v20)) (W7 m ρ c (Proc.devRef .tc main_v21)) := h15_v33 (W7 m ρ c)
    _ = aggOf (kLDst (x9 m c)) (takeL (kFused (PX m ρ c) (x1 m c) (x8 m c)) (kLSrc (x9 m c))) := by
          rw [w7_v20, w7_v21]
    _ = kAgg (kFused (PX m ρ c) (x1 m c) (x8 m c)) (x9 m c) := (kAgg_eq _ _).symm

end Cert.KHostA

end
-- ==== Proof.KHostB.lean ====
/-
  The kernel program's buffers at the entry of its third kernel region, and its result, read through the fold of its
  segments.

  As in the first half: a buffer is read by walking the fold back to the operation that wrote it, or past the segments
  that do not write it. At region 2's entry the aggregate, the fused features and the small operands are what they
  were at region 1's entry (region 1 writes only its two accumulators, and the stretch after it only the statistics);
  `main_v49` and `main_v50` are the mean and the clamped variance, as rows, of the two accumulators region 1 left;
  `γ` and `β` are rows. The result buffer is the segment mean over `dst` of the array region 2 left.
-/
import proofs.«415791_j54597624267061_2_alg».proof.Proof.Gen.KernelIdeal.Frame
import proofs.«415791_j54597624267061_2_alg».proof.Proof.KForm
import proofs.«415791_j54597624267061_2_alg».proof.Proof.KNames
import proofs.«415791_j54597624267061_2_alg».proof.Proof.KHostA
import Idealize.ShloMosaic.Lib.StableHlo.Run
import Idealize.ShloMosaic.Lib.ValueIdx

noncomputable section

set_option maxRecDepth 16384

namespace Cert.KHostB

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KNames Cert.KForm

variable (m : (ℓ : Loc nD τ sig) → Buf (Elt Ideal) ℓ) (ρ : Dev nD → PrngReg) (c : Dev nD)

/-- A buffer that no operation of a stretch writes holds after the stretch what it held before it: the stretch's
    result buffers are listed and each is told apart from the buffer read. -/
macro "skip_host " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## From region 2's entry back to region 1's entry

The stretch between the two regions writes only the statistics' buffers, and region 1 only its two accumulators: a
buffer that is neither holds at region 2's entry what it held at region 1's. The aggregate and the three small
operands are input windows of region 1: the pipeline leaves an input window's array as it was entered. The fused
features are no window of region 1 at all. -/

/-- An input window's array at region 1's exit is what it was at region 1's entry. -/
theorem w9_in (w : Fin cfg1.W) (hin : (cfg1.win w).isOut = false) :
    W9 m ρ c (Proc.devRef .tc (Pipeline.arrRef spec1 w)) = W8 m ρ c (Proc.devRef .tc (Pipeline.arrRef spec1 w)) :=
  (W9_arr m ρ c w).trans (((dat1 (V8 m ρ) c).arrAt_in w hin _).trans (A_eq1 (V8 m ρ) c w))

theorem v10_v33 : V10 m ρ c main_v33 = kAgg (kFused (PX m ρ c) (x1 m c) (x8 m c)) (x9 m c) :=
  calc V10 m ρ c main_v33
    _ = W9 m ρ c (Proc.devRef .tc main_v33) := by skip_host hostOps2
    _ = W8 m ρ c (Proc.devRef .tc main_v33) := w9_in m ρ c 0 rfl
    _ = _ := KHostA.v8_v33 m ρ c

theorem v10_v16 : V10 m ρ c main_v16 = kFused (PX m ρ c) (x1 m c) (x8 m c) :=
  calc V10 m ρ c main_v16
    _ = W9 m ρ c (Proc.devRef .tc main_v16) := by skip_host hostOps2
    _ = W8 m ρ c (Proc.devRef .tc main_v16) := W9_of_ne m ρ c main_v16 (by decide)
    _ = _ := KHostA.v8_v16 m ρ c

theorem v10_v1 : V10 m ρ c main_v1 = kT1 (x3 m c) :=
  calc V10 m ρ c main_v1
    _ = W9 m ρ c (Proc.devRef .tc main_v1) := by skip_host hostOps2
    _ = W8 m ρ c (Proc.devRef .tc main_v1) := w9_in m ρ c 1 rfl
    _ = _ := KHostA.v8_v1 m ρ c

theorem v10_v2 : V10 m ρ c main_v2 = kRow (x4 m c) :=
  calc V10 m ρ c main_v2
    _ = W9 m ρ c (Proc.devRef .tc main_v2) := by skip_host hostOps2
    _ = W8 m ρ c (Proc.devRef .tc main_v2) := w9_in m ρ c 2 rfl
    _ = _ := KHostA.v8_v2 m ρ c

theorem v10_v3 : V10 m ρ c main_v3 = kRow1 (x5 m c) :=
  calc V10 m ρ c main_v3
    _ = W9 m ρ c (Proc.devRef .tc main_v3) := by skip_host hostOps2
    _ = W8 m ρ c (Proc.devRef .tc main_v3) := w9_in m ρ c 3 rfl
    _ = _ := KHostA.v8_v3 m ρ c

/-! ## The statistics

The stretch after region 1 reads the two accumulators out of region 1's output windows and writes the mean and the
clamped variance as rows. -/

/-- Region 1's first output window at its exit: the partial sums of the activations. -/
theorem w9_acc0 : W9 m ρ c (Proc.devRef .tc main_v34_0) = ACC0 m ρ c := W9_arr m ρ c 4
/-- Region 1's second output window at its exit: the partial sums of the squares. -/
theorem w9_acc1 : W9 m ρ c (Proc.devRef .tc main_v34_1) = ACC1 m ρ c := W9_arr m ρ c 5

theorem v10_v49 : V10 m ρ c main_v49 = kRow (kMean (ACC0 m ρ c)) := by
  show StableHlo.after hostOps2 (W9 m ρ c) (Proc.devRef .tc main_v49) = _
  dsimp only [hostOps2]
  after_results
  rw [w9_acc0 m ρ c]
  rfl

theorem v10_v50 : V10 m ρ c main_v50 = kRow (kVar (ACC0 m ρ c) (ACC1 m ρ c)) := by
  show StableHlo.after hostOps2 (W9 m ρ c) (Proc.devRef .tc main_v50) = _
  dsimp only [hostOps2]
  after_results_simp
  rw [w9_acc0 m ρ c, w9_acc1 m ρ c]
  rfl

/-! ## The scale and the shift

Both rows are written by the first stretch and by nothing after it. -/

/-- A buffer that only the first stretch writes, read at region 2's entry, is read at region 0's entry. -/
theorem v10_of_w1 (b : Ref sig .tc) (h2 : ∀ w, Pipeline.arrRef spec1 w ≠ b) (h0 : ∀ w, Pipeline.arrRef spec0 w ≠ b)
    (e10 : W10 m ρ c (Proc.devRef .tc b) = W9 m ρ c (Proc.devRef .tc b))
    (e8 : W8 m ρ c (Proc.devRef .tc b) = W7 m ρ c (Proc.devRef .tc b))
    (e7 : W7 m ρ c (Proc.devRef .tc b) = W6 m ρ c (Proc.devRef .tc b))
    (e6 : W6 m ρ c (Proc.devRef .tc b) = W5 m ρ c (Proc.devRef .tc b))
    (e5 : W5 m ρ c (Proc.devRef .tc b) = W4 m ρ c (Proc.devRef .tc b))
    (e4 : W4 m ρ c (Proc.devRef .tc b) = W3 m ρ c (Proc.devRef .tc b))
    (e3 : W3 m ρ c (Proc.devRef .tc b) = W2 m ρ c (Proc.devRef .tc b)) :
    W10 m ρ c (Proc.devRef .tc b) = W1 m ρ c (Proc.devRef .tc b) :=
  calc W10 m ρ c (Proc.devRef .tc b)
    _ = W9 m ρ c (Proc.devRef .tc b) := e10
    _ = W8 m ρ c (Proc.devRef .tc b) := W9_of_ne m ρ c b h2
    _ = W7 m ρ c (Proc.devRef .tc b) := e8
    _ = W6 m ρ c (Proc.devRef .tc b) := e7
    _ = W5 m ρ c (Proc.devRef .tc b) := e6
    _ = W4 m ρ c (Proc.devRef .tc b) := e5
    _ = W3 m ρ c (Proc.devRef .tc b) := e4
    _ = W2 m ρ c (Proc.devRef .tc b) := e3
    _ = W1 m ρ c (Proc.devRef .tc b) := W2_of_ne m ρ c b h0

theorem v10_v4 : V10 m ρ c main_v4 = kRow (x6 m c) := by
  refine (v10_of_w1 m ρ c main_v4 (by decide) (by decide) (by skip_host hostOps2) (by skip_host hostOps1_5)
    (by skip_host hostOps1_4) (by skip_host hostOps1_3) (by skip_host hostOps1_2) (by skip_host hostOps1_1)
    (by skip_host hostOps1)).trans ?_
  show StableHlo.after hostOps0 (W0 m ρ c) (Proc.devRef .tc main_v4) = _
  dsimp only [hostOps0]
  after_results
  rfl

theorem v10_v5 : V10 m ρ c main_v5 = kRow (x7 m c) := by
  refine (v10_of_w1 m ρ c main_v5 (by decide) (by decide) (by skip_host hostOps2) (by skip_host hostOps1_5)
    (by skip_host hostOps1_4) (by skip_host hostOps1_3) (by skip_host hostOps1_2) (by skip_host hostOps1_1)
    (by skip_host hostOps1)).trans ?_
  show StableHlo.after hostOps0 (W0 m ρ c) (Proc.devRef .tc main_v5) = _
  dsimp only [hostOps0]
  after_results
  rfl

/-! ## The result

The last stretch sums the rows of region 2's output by destination node and divides by each node's count, clamped
below at one. The destination row was cut out of `edge_index` right after region 0 and is not written again. -/

/-- `edge_index` at region 0's exit is as launched: no region window holds it and the first stretch does not write it. -/
theorem w2_arg8 : W2 m ρ c (Proc.devRef .tc main_arg8) = x8 m c :=
  calc W2 m ρ c (Proc.devRef .tc main_arg8)
    _ = W1 m ρ c (Proc.devRef .tc main_arg8) := W2_of_ne m ρ c main_arg8 (by decide)
    _ = W0 m ρ c (Proc.devRef .tc main_arg8) := by skip_host hostOps0
    _ = x8 m c := rfl

/-- The destination row right after it is cut out. -/
theorem w3_v10 : W3 m ρ c (Proc.devRef .tc main_v10) = kDst (x8 m c) := by
  show StableHlo.after hostOps1 (W2 m ρ c) (Proc.devRef .tc main_v10) = _
  dsimp only [hostOps1]
  after_results
  rw [w2_arg8 m ρ c]
  rfl

/-- The destination row at region 2's exit: nothing after the cut writes it. -/
theorem w11_v10 : W11 m ρ c (Proc.devRef .tc main_v10) = kDst (x8 m c) :=
  calc W11 m ρ c (Proc.devRef .tc main_v10)
    _ = W10 m ρ c (Proc.devRef .tc main_v10) := W11_of_ne m ρ c main_v10 (by decide)
    _ = W9 m ρ c (Proc.devRef .tc main_v10) := by skip_host hostOps2
    _ = W8 m ρ c (Proc.devRef .tc main_v10) := W9_of_ne m ρ c main_v10 (by decide)
    _ = W7 m ρ c (Proc.devRef .tc main_v10) := by skip_host hostOps1_5
    _ = W6 m ρ c (Proc.devRef .tc main_v10) := by skip_host hostOps1_4
    _ = W5 m ρ c (Proc.devRef .tc main_v10) := by skip_host hostOps1_3
    _ = W4 m ρ c (Proc.devRef .tc main_v10) := by skip_host hostOps1_2
    _ = W3 m ρ c (Proc.devRef .tc main_v10) := by skip_host hostOps1_1
    _ = _ := w3_v10 m ρ c

/-- Region 2's output window at its exit: the updated edge features. -/
theorem w11_z2 : W11 m ρ c (Proc.devRef .tc main_v51) = Z2 m ρ c := W11_arr m ρ c 9

/-- The result buffer after the run: the segment mean over `dst` of the updated edge features. -/
theorem w12_v63 : W12 m ρ c (Proc.devRef .tc main_v63) = kOut (Z2 m ρ c) (x8 m c) := by
  show StableHlo.after hostOps3 (W11 m ρ c) (Proc.devRef .tc main_v63) = _
  dsimp only [hostOps3]
  after_results_simp
  rw [w11_z2 m ρ c, w11_v10 m ρ c]
  rfl

end Cert.KHostB

end
-- ==== Proof.Pure.lean ====
/-
  The activation at an edge and a channel, as a plain expression on the extended reals.

  `z = Σ k, A[r,k] · W1[d,k] + b1[d]` is the linear layer's output at edge `r`, channel `d`; the activation is `z`
  itself where `0 ≤ z` and `a · z` elsewhere (`a` the one learnt slope).
-/
import proofs.«415791_j54597624267061_2_alg».proof.KernelIdeal
import Idealize.ShloMosaic.Lib.ValueIdx

noncomputable section

namespace Cert.Pure

open Cert.KernelIdeal Idealize.ShloMosaic Idealize.ShloMosaic.ValueIdx

/-- The pre-activation at an edge and a channel. -/
def zAt (A : FVec Ideal S800000x128 .f32) (x3 : FVec Ideal S128x128 .f32) (x4 : FVec Ideal S128 .f32)
    (r : Fin 800000) (d : Fin 128) : EReal :=
  (∑ k : Fin 128, A (ix2 r k) * x3 (ix2 d k)) + x4 (ix1 d)

/-- The activation at an edge and a channel: `z` where `0 ≤ z`, `a · z` elsewhere. -/
def hAt (A : FVec Ideal S800000x128 .f32) (x3 : FVec Ideal S128x128 .f32) (x4 : FVec Ideal S128 .f32)
    (x5 : FVec Ideal S1 .f32) (r : Fin 800000) (d : Fin 128) : EReal :=
  if (0 : EReal) ≤ zAt A x3 x4 r d then zAt A x3 x4 r d else x5 (ix1 0) * zAt A x3 x4 r d

end Cert.Pure

end
-- ==== Proof.KReg0.lean ====
/-
  The first kernel region: the node projection.

  The region walks the 50000 nodes in 25 blocks of 2000 rows. At a block it multiplies the block of `x` (2000 × 256)
  by the whole of `W_projᵀ` (256 × 128) into a zero accumulator and writes the 2000 × 128 product back; the casts to a
  narrower float format on the way are the identity on the extended reals. So row `r`, channel `d` of the array the
  region leaves is `Σ k, x[r,k] · W_projᵀ[k,d]`, which is the reference's `dot_general` at that index: every row lies
  in exactly one block, block `r / 2000`.
-/
import proofs.«415791_j54597624267061_2_alg».proof.Proof.Gen.KernelIdeal.Frame
import proofs.«415791_j54597624267061_2_alg».proof.Proof.Pure
import proofs.«415791_j54597624267061_2_alg».proof.Proof.Alg
import proofs.«415791_j54597624267061_2_alg».proof.Proof.KForm
import Idealize.ShloMosaic.Lib.Pipeline.Value
import Idealize.ShloMosaic.Lib.ValueIdx
import Idealize.ShloMosaic.PureOps.Ideal.Laws

noncomputable section

set_option maxRecDepth 16384

namespace Cert.KReg0

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets, as the constant function. -/
private theorem hz : (![0, 0] : Fin 2 → Nat) = fun _ => 0 :=
  funext fun a => by match a with | ⟨0, _⟩ => rfl | ⟨1, _⟩ => rfl

/-! ## The product at an index -/

/-- The product's operand indices, axis by axis: the left operand is read at (output row, contraction index), the right
    at (contraction index, output channel). -/
private theorem lhs_ax0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
private theorem lhs_ax1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
private theorem rhs_ax0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
private theorem rhs_ax1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The body's product at row `p`, channel `q` of its block: the row of the left block against the column of the right. -/
private theorem pay_apply (a : Vec Ideal S2000x256 .f32) (b : Vec Ideal S256x128 .f32) (p : Fin 2000) (q : Fin 128) :
    k0_pay1 (F := Ideal) a b (ix2 p q) = ∑ k : Fin 256, a (ix2 p k) * b (ix2 k q) := by
  unfold k0_pay1
  rw [shapeCast_self]
  refine (Ideal.matmul_constant_zero_apply dot_S2000x256_S256x128_S2000x128_1_0_0_1_n_n none _ _ (ix2 p q)).trans ?_
  rw [← Equiv.sum_comp (contrEquiv1 dot_S2000x256_S256x128_S2000x128_1_0_0_1_n_n 256 rfl rfl).symm]
  refine Finset.sum_congr rfl fun k _ => ?_
  have hk := contrEquiv1_symm_val dot_S2000x256_S256x128_S2000x128_1_0_0_1_n_n 256 rfl rfl k
  have el : dot_S2000x256_S256x128_S2000x128_1_0_0_1_n_n.lhsIdx (ix2 p q) ((contrEquiv1 dot_S2000x256_S256x128_S2000x128_1_0_0_1_n_n 256 rfl rfl).symm k) = ix2 p k := funext fun a => Fin.ext (by
    match a with
    | ⟨0, _⟩ => exact lhs_ax0 _ _
    | ⟨1, _⟩ => exact (lhs_ax1 _ _).trans hk)
  have er : dot_S2000x256_S256x128_S2000x128_1_0_0_1_n_n.rhsIdx (ix2 p q) ((contrEquiv1 dot_S2000x256_S256x128_S2000x128_1_0_0_1_n_n 256 rfl rfl).symm k) = ix2 k q := funext fun a => Fin.ext (by
    match a with
    | ⟨0, _⟩ => exact (rhs_ax0 _ _).trans hk
    | ⟨1, _⟩ => exact rhs_ax1 _ _)
  rw [el, er]
  rfl

/-! ## The blocks the body reads -/

/-- The block index maps over the grid: the row blocks of `x` and of the output move with the point, the weight
    block stays. -/
private theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the block of `x` at point `t` is row `2000 t + p` of `x`. -/
private theorem xblk_apply (c : Dev nD) (t : Fin cfg0.N) (p : Fin 2000) (k : Fin 256) (r : Fin 50000)
    (hr : r.val = t.val * 2000 + p.val) :
    (iblk0 (F := Ideal) V c 0 t : Vec Ideal S2000x256 .f32) (ix2 p k) = (V c main_arg0 : S50000x256.Idx → EReal) (ix2 r k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 256 + 1 * k.val = k.val; rw [e1]; omega

/-- The weight block at every point is the whole weight array. -/
private theorem wblk_apply (c : Dev nD) (t : Fin cfg0.N) (k : Fin 256) (q : Fin 128) :
    (iblk0 (F := Ideal) V c 1 t : Vec Ideal S256x128 .f32) (ix2 k q) = (V c main_v0 : S256x128.Idx → EReal) (ix2 k q) := by
  obtain ⟨-, -, e2, e3, -⟩ := idx_facts t
  unfold iblk0
  rw [View.read_apply]
  show V c main_v0 _ = V c main_v0 _
  congr 1
  funext a
  apply Fin.ext
  match a with
  | ⟨0, _⟩ => show win0_1.index t (0 : Fin 2) * 256 + 1 * k.val = k.val; rw [e2]; omega
  | ⟨1, _⟩ => show win0_1.index t (1 : Fin 2) * 128 + 1 * q.val = q.val; rw [e3]; omega

/-- The transposed weight at `(k, q)` is the weight at `(q, k)`. -/
private theorem wT_apply (x2 : FVec Ideal S128x256 .f32) (k : Fin 256) (q : Fin 128) :
    Cert.KForm.kT0 x2 (ix2 k q) = x2 (ix2 q k) := by
  unfold Cert.KForm.kT0
  exact transpose_apply [1, 0] x2 transposes_S128x256_S256x128_1_0 (ix2 k q) (ix2 q k) (fun b => match b with
    | ⟨0, _⟩ => rfl
    | ⟨1, _⟩ => rfl)

/-! ## The array the region leaves -/

/-- The projection, index by index. -/
private abbrev proj (x0 : FVec Ideal S50000x256 .f32) (x2 : FVec Ideal S128x256 .f32) : S50000x128.Idx → EReal :=
  fun i => ∑ k : Fin 256, x0 (ix2 (⟨(i 0).val, (i 0).isLt⟩ : Fin 50000) k) * x2 (ix2 (⟨(i 1).val, (i 1).isLt⟩ : Fin 128) k)

/-- The body's product on the blocks of point `t`, at row `p`, channel `q`: the projection at row `2000 t + p`. -/
private theorem blk_value (c : Dev nD) (x0 : FVec Ideal S50000x256 .f32) (x2 : FVec Ideal S128x256 .f32)
    (h0 : V c main_arg0 = x0) (hW : V c main_v0 = Cert.KForm.kT0 x2) (t : Fin cfg0.N) (p : Fin 2000) (q : Fin 128)
    (r : Fin 50000) (hr : r.val = t.val * 2000 + p.val) :
    k0_pay1 (F := Ideal) (iblk0 (F := Ideal) V c 0 t) (iblk0 (F := Ideal) V c 1 t) (ix2 p q)
      = ∑ k : Fin 256, x0 (ix2 r k) * x2 (ix2 q k) := by
  refine (pay_apply (iblk0 (F := Ideal) V c 0 t) (iblk0 (F := Ideal) V c 1 t) p q).trans ?_
  refine Finset.sum_congr rfl fun k _ => ?_
  rw [xblk_apply V c t p k r hr, wblk_apply V c t k q, h0, hW, wT_apply]

/-- What point `t` writes back is block `t` of the projection. -/
private theorem flushed_eq (c : Dev nD) (x0 : FVec Ideal S50000x256 .f32) (x2 : FVec Ideal S128x256 .f32)
    (h0 : V c main_arg0 = x0) (hW : V c main_v0 = Cert.KForm.kT0 x2) (t : Fin cfg0.N) :
    (dat0 (F := Ideal) V c).flushed 2 t = ((cfg0.win 2).blk t).view.read (Elt Ideal) (proj x0 x2) := by
  show (cfg0.win 2).cut (grid0.coords t) ((dat0 (F := Ideal) V c).after 2 t) = _
  rw [after0_2]
  unfold out0_2
  rw [View.canon_unit_zero hz]
  simp only [View.ld_unit_zero (S := S2000x256) hz, View.ld_unit_zero (S := S256x128) hz]
  obtain ⟨-, -, -, -, e4, e5⟩ := idx_facts t
  funext j
  obtain ⟨p, q, rfl⟩ : ∃ (p : Fin 2000) (q : Fin 128), j = ix2 p q := ⟨j 0, j 1, eq_ix2 j⟩
  show k0_pay1 (F := Ideal) (iblk0 (F := Ideal) V c 0 t) (iblk0 (F := Ideal) V c 1 t) (ix2 p q)
    = proj x0 x2 (((cfg0.win 2).blk t).view.emb (ix2 p q))
  refine (blk_value V c x0 x2 h0 hW t p q ⟨((((cfg0.win 2).blk t).view.emb (ix2 p q)) 0).val, ((((cfg0.win 2).blk t).view.emb (ix2 p q)) 0).isLt⟩ ?_).trans ?_
  · show win0_2.index t (0 : Fin 2) * 2000 + 1 * p.val = t.val * 2000 + p.val
    rw [e4]; omega
  · refine Finset.sum_congr rfl fun k _ => ?_
    refine congrArg (fun z => _ * x2 (ix2 z k)) (Fin.ext ?_)
    show q.val = win0_2.index t (1 : Fin 2) * 128 + 1 * q.val
    rw [e5]; omega

/-- An index of the array is in point `t`'s block iff each coordinate is in the block's range on its axis. -/
private theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v6).slice (win0_2.rect t)).set ↔ _
  rw [View.set_slice_whole, Rect.mem_set_unit]
  exact Iff.rfl

/-- Every row lies in the block of point `r / 2000`, which is written back. -/
private theorem cover (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  have ht : t.val = (i 0).val / 2000 := rfl
  obtain ⟨-, -, -, -, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; rw [e4, ht]; omega
  | ⟨1, _⟩ => show win0_2.index t (1 : Fin 2) * 128 ≤ (i 1).val ∧ (i 1).val < win0_2.index t (1 : Fin 2) * 128 + 128; rw [e5]; omega

/-- The array after the region's last point is the projection. -/
private theorem final (c : Dev nD) (x0 : FVec Ideal S50000x256 .f32) (x2 : FVec Ideal S128x256 .f32)
    (h0 : V c main_arg0 = x0) (hW : V c main_v0 = Cert.KForm.kT0 x2) :
    (dat0 (F := Ideal) V c).arrAt 2 cfg0.N = proj x0 x2 :=
  (dat0 (F := Ideal) V c).arrAt_eq_of_cover 2 (proj x0 x2) (fun t _ => flushed_eq V c x0 x2 h0 hW t) cover

/-- Row `r`, channel `d` of the array region 0 leaves in its output window: the projection of the arrays it was handed. -/
theorem value (c : Dev nD) (x0 : FVec Ideal S50000x256 .f32) (x2 : FVec Ideal S128x256 .f32)
    (h0 : V c main_arg0 = x0) (hW : V c main_v0 = Cert.KForm.kT0 x2) (r : Fin 50000) (d : Fin 128) :
    (dat0 (F := Ideal) V c).arrAt 2 cfg0.N (ix2 r d) = ∑ k : Fin 256, x0 (ix2 r k) * x2 (ix2 d k) :=
  (congrFun (final V c x0 x2 h0 hW) (ix2 r d)).trans rfl

end Cert.KReg0

end
-- ==== Proof.KReg1.lean ====
/-
  The second kernel region: the batch statistics' partial sums.

  The grid is 2 × 100: point `t` is core `t / 100`, step `t % 100`, and reads block `t` (4000 rows) of the aggregate `A`.
  At a block the body forms the activation `H = prelu (A_blk · W1ᵀ + b1)` (the casts to a narrower format are the identity
  on the extended reals), sums `H` and `H · H` over the block's 4000 rows, and adds each row of 128 sums to all 8 rows of
  the core's padded accumulator block, which step 0 first sets to zero. A core's accumulator block is written back when
  the core's last step ends, so after the run entry `(k, ρ, d)` of the first output is the sum of `H[r, d]` over core
  `k`'s 400000 rows `r = 400000 k + i`, and of the second output the sum of `H[r, d]²` over the same rows, for every
  padding row `ρ`.
-/
import proofs.«415791_j54597624267061_2_alg».proof.Proof.Gen.KernelIdeal.Frame
import proofs.«415791_j54597624267061_2_alg».proof.Proof.Pure
import proofs.«415791_j54597624267061_2_alg».proof.Proof.Alg
import proofs.«415791_j54597624267061_2_alg».proof.Proof.KForm
import Idealize.ShloMosaic.Lib.Pipeline.Value
import Idealize.ShloMosaic.Lib.ValueIdx
import Idealize.ShloMosaic.PureOps.Ideal.Laws

noncomputable section

set_option maxRecDepth 16384

namespace Cert.KReg1

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The block's arithmetic at an index -/

theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The block product into the zero accumulator, at a row and a channel: the sum over the 128 input channels. -/
theorem matmul_blk (x : FVec Ideal S4000x128 .bf16) (w : FVec Ideal S128x128 .bf16) (p : Fin 4000) (d : Fin 128) :
    matmul dot_S4000x128_S128x128_S4000x128_1_0_0_1_n_n none x w (constant (F := Ideal) S4000x128 .f32 0x00000000#32) (ix2 p d)
      = ∑ k : Fin 128, x (ix2 p k) * w (ix2 k d) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p d) ((ValueIdx.contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p d) ((ValueIdx.contrEquiv1 dot_S4000x128_S128x128_S4000x128_1_0_0_1_n_n 128 rfl rfl).symm k) = ix2 k d := funext fun a => Fin.ext (by
    match a with
    | ⟨0, _⟩ => exact (rhs_dot_0 _ _).trans hk
    | ⟨1, _⟩ => exact rhs_dot_1 _ _)
  rw [el, er]

/-- A row `[1, 128]` broadcast over the block's 4000 rows reads the row's entry at the channel. -/
theorem bcast_row_blk (b : FVec Ideal S1x128 .f32) (p : Fin 4000) (d : Fin 128) :
    broadcastTo S4000x128 b broadcasts_S1x128_S4000x128 (ix2 p d) = b (ix2 0 d) :=
  broadcastTo_apply b broadcasts_S1x128_S4000x128 (ix2 p d) (ix2 0 d) (fun a => match a with
    | ⟨0, _⟩ => rfl
    | ⟨1, _⟩ => rfl)

/-- The comparison `0 ≤ z` selecting between two values. -/
theorem select_oge (z u v : EReal) :
    Scalar.select (Ideal.cmp .oge z (Ideal.ofBits .f32 0x00000000#32)) u v = if (0 : EReal) ≤ z then u else v := by
  rw [Ideal.ofBits_zero_f32]
  unfold Ideal.cmp
  by_cases h : (0 : EReal) ≤ z
  · rw [if_pos h]; simp only [h, decide_true]; exact select_one u v
  · rw [if_neg h]; simp only [h, decide_false]; exact select_zero u v

/-- The activation block at a row and a channel. -/
theorem pay4_apply (x0 : FVec Ideal S4000x128 .f32) (W : FVec Ideal S128x128 .f32) (b : FVec Ideal S1x128 .f32)
    (a : FVec Ideal S1x1 .f32) (p : Fin 4000) (d : Fin 128) :
    k1_pay4 (F := Ideal) x0 W b a (ix2 p d)
      = if (0 : EReal) ≤ (∑ k : Fin 128, x0 (ix2 p k) * W (ix2 k d)) + b (ix2 0 d)
        then (∑ k : Fin 128, x0 (ix2 p k) * W (ix2 k d)) + b (ix2 0 d)
        else a (ix2 0 0) * ((∑ k : Fin 128, x0 (ix2 p k) * W (ix2 k d)) + b (ix2 0 d)) := by
  unfold k1_pay4
  simp only [shapeCast_self]
  refine (select_apply _ _ _ _).trans ?_
  rw [cmpf_apply, mulf_apply, addf_apply, broadcast_apply, broadcast_apply, Ideal.cmpf_def]
  refine (select_oge _ _ _).trans ?_
  rw [matmul_blk, bcast_row_blk]
  have ea : extractAt ![0, 0] a inpos_S1x1_p0_0 = a (ix2 0 0) :=
    congrArg a (funext fun i => match i with
      | ⟨0, _⟩ => rfl
      | ⟨1, _⟩ => rfl)
  simp only [truncf_apply, ea]

/-! ## The sums over the block's rows, and the accumulator update -/

/-- The sum of a block over its 4000 rows, reshaped to a row, at a channel. -/
theorem rowsum_apply (h : FVec Ideal S4000x128 .f32) (hacc : (0x00000000#32 : BitVec 32) = 0x00000000#32) (d : Fin 128) :
    shapeCast S1x128 (multiReduction (F := Ideal) .add [0] S128 h 0x00000000#32 reduces_S4000x128_S128 (.inl rfl) hacc)
        shapeCasts_S128_S1x128 (ix2 0 d)
      = ∑ p : Fin 4000, h (ix2 p d) := by
  refine (shapeCast_apply _ shapeCasts_S128_S1x128 (ix2 0 d) (ix1 d) ?_).trans ?_
  · rw [Shape.rowMajor_val_one, Shape.rowMajor_val_two]; show d.val = 0 * 128 + d.val; omega
  refine (Ideal.multiReduction_add_single h 0x00000000#32 reduces_S4000x128_S128 (.inl rfl) hacc (ix1 d)).trans ?_
  refine Finset.sum_congr rfl fun p _ => congrArg h (funext fun a => Fin.ext ?_)
  match a with
  | ⟨0, _⟩ => rfl
  | ⟨1, _⟩ => rfl

/-- The accumulator update: a row of sums added to each of the 8 padding rows of the loaded accumulator. -/
theorem accum_apply (r : FVec Ideal S1x128 .f32) (acc : FVec Ideal S1x8x128 .f32) (ρ : Fin 8) (d : Fin 128) :
    shapeCast S1x8x128 (addf (shapeCast S8x128 acc shapeCasts_S1x8x128_S8x128)
        (broadcastTo S8x128 (shapeCast S1x128 r shapeCasts_S1x128_S1x128) broadcasts_S1x128_S8x128)) shapeCasts_S8x128_S1x8x128 (ix3 0 ρ d)
      = acc (ix3 0 ρ d) + r (ix2 0 d) := by
  refine (shapeCast_apply _ shapeCasts_S8x128_S1x8x128 (ix3 0 ρ d) (ix2 ρ d) ?_).trans ?_
  · rw [Shape.rowMajor_val_two, Shape.rowMajor_val_three]; show ρ.val * 128 + d.val = (0 * 8 + ρ.val) * 128 + d.val; omega
  rw [addf_apply, shapeCast_self]
  congr 1
  · refine shapeCast_apply _ shapeCasts_S1x8x128_S8x128 (ix2 ρ d) (ix3 0 ρ d) ?_
    rw [Shape.rowMajor_val_two, Shape.rowMajor_val_three]; show (0 * 8 + ρ.val) * 128 + d.val = ρ.val * 128 + d.val; omega
  · exact broadcastTo_apply r broadcasts_S1x128_S8x128 (ix2 ρ d) (ix2 0 d) (fun a => match a with
      | ⟨0, _⟩ => rfl
      | ⟨1, _⟩ => rfl)

/-- The first output's update at an entry: the loaded accumulator plus the block's activations summed over its rows. -/
theorem pay6_apply (x0 : FVec Ideal S4000x128 .f32) (W : FVec Ideal S128x128 .f32) (b : FVec Ideal S1x128 .f32)
    (a : FVec Ideal S1x1 .f32) (acc : FVec Ideal S1x8x128 .f32) (ρ : Fin 8) (d : Fin 128) :
    k1_pay6 (F := Ideal) x0 W b a acc (ix3 0 ρ d)
      = acc (ix3 0 ρ d) + ∑ p : Fin 4000, k1_pay4 (F := Ideal) x0 W b a (ix2 p d) := by
  unfold k1_pay6
  refine (accum_apply _ acc ρ d).trans ?_
  exact congrArg (acc (ix3 0 ρ d) + ·) (rowsum_apply (k1_pay4 (F := Ideal) x0 W b a) rfl d)

/-- The row of the block's squared activations summed over its rows, at a channel. -/
theorem pay5_apply (x0 : FVec Ideal S4000x128 .f32) (W : FVec Ideal S128x128 .f32) (b : FVec Ideal S1x128 .f32)
    (a : FVec Ideal S1x1 .f32) (d : Fin 128) :
    k1_pay5 (F := Ideal) x0 W b a (ix2 0 d)
      = ∑ p : Fin 4000, k1_pay4 (F := Ideal) x0 W b a (ix2 p d) * k1_pay4 (F := Ideal) x0 W b a (ix2 p d) := by
  unfold k1_pay5
  refine (rowsum_apply (mulf (k1_pay4 (F := Ideal) x0 W b a) (k1_pay4 (F := Ideal) x0 W b a)) rfl d).trans ?_
  rfl

/-- The second output's update at an entry: the loaded accumulator plus the row of summed squares. -/
theorem pay1_apply (r : FVec Ideal S1x128 .f32) (acc : FVec Ideal S1x8x128 .f32) (ρ : Fin 8) (d : Fin 128) :
    k1_pay1 (F := Ideal) r acc (ix3 0 ρ d) = acc (ix3 0 ρ d) + r (ix2 0 d) := by
  unfold k1_pay1
  exact accum_apply r acc ρ d

/-! ## Sums over rows numbered by naturals -/

section Arith
open Finset

/-- A sum over `m * n` consecutive naturals, cut into `m` runs of `n`. -/
theorem sum_range_mul {β : Type*} [AddCommMonoid β] (f : ℕ → β) (n : ℕ) :
    ∀ m : ℕ, ∑ i ∈ range (m * n), f i = ∑ s ∈ range m, ∑ p ∈ range n, f (s * n + p)
  | 0 => by simp
  | m + 1 => by rw [Nat.succ_mul, Finset.sum_range_add, sum_range_mul f n m, Finset.sum_range_succ]

/-- The sum of `f` over block `n`'s 4000 rows. -/
def blockSum (f : ℕ → EReal) (n : ℕ) : EReal := ∑ p ∈ range 4000, f (n * 4000 + p)

/-- The sum of `f` over the blocks of point `n`'s core up to and including point `n`. -/
def runSum (f : ℕ → EReal) (n : ℕ) : EReal := ∑ s ∈ range (n % 100 + 1), blockSum f (100 * (n / 100) + s)

theorem runSum_reset (f : ℕ → EReal) (n : ℕ) (h : n % 100 = 0) : runSum f n = blockSum f n := by
  unfold runSum
  rw [h, Finset.sum_range_one]
  congr 1
  omega

theorem runSum_step (f : ℕ → EReal) (n : ℕ) (h : ¬(n + 1) % 100 = 0) :
    runSum f (n + 1) = runSum f n + blockSum f (n + 1) := by
  unfold runSum
  have e1 : (n + 1) % 100 = n % 100 + 1 := by omega
  have e2 : (n + 1) / 100 = n / 100 := by omega
  rw [e1, e2, Finset.sum_range_succ _ (n % 100 + 1)]
  congr 2
  omega

/-- At a core's last point the running sum is the sum over the core's 400000 rows. -/
theorem runSum_last (f : ℕ → EReal) (k : ℕ) :
    runSum f (100 * k + 99) = ∑ i ∈ range 400000, f (k * 400000 + i) := by
  unfold runSum blockSum
  have e1 : (100 * k + 99) % 100 + 1 = 100 := by omega
  have e2 : (100 * k + 99) / 100 = k := by omega
  rw [e1, e2, show (400000 : ℕ) = 100 * 4000 from rfl, sum_range_mul (fun i => f (k * (100 * 4000) + i)) 4000 100]
  refine Finset.sum_congr rfl fun s _ => Finset.sum_congr rfl fun p _ => congrArg f ?_
  ring

end Arith

theorem hz2 : (![0, 0] : Fin 2 → Nat) = fun _ => 0 := funext fun a => by fin_cases a <;> rfl
theorem hz3 : (![0, 0, 0] : Fin 3 → Nat) = fun _ => 0 := funext fun a => by fin_cases a <;> rfl

/-! ## What each case of the body leaves in the two accumulator blocks -/

section Pieces
variable {F : FTy → Type} [FloatOps F]

/-- Away from a core's first step the first accumulator ends at its update of what it held. -/
theorem out_B_4 (c : Dev nD) (i : grid1.Coords) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x8x128 .f32) (harg6 : arg6.IsWhole) (arg7 : Memref sig .tc .vmem S1x8x128 .f32) (harg7 : arg7.IsWhole) (hc0 : ¬cond1_0 i)
    (x0 : Vec F S4000x128 .f32) (x1 : Vec F S128x128 .f32) (x2 : Vec F S1x128 .f32) (x3 : Vec F S1x1 .f32) (xo4 xo5 : Vec F S1x8x128 .f32) :
    out1_B_4 c i arg2 harg2 arg3 harg3 arg4 harg4 arg5 harg5 arg6 harg6 arg7 harg7 hc0 x0 x1 x2 x3 xo4 xo5 = k1_pay6 x0 x1 x2 x3 xo4 := by
  unfold out1_B_4
  rw [View.read_writes_eq_canon _ _ _ (cover1_B_4 c i arg2 harg2 arg3 harg3 arg4 harg4 arg5 harg5 arg6 harg6 arg7 harg7 hc0 x0 x1 x2 x3 xo4 xo5)]
  unfold kernelRun1_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S4000x128) hz2, View.ld_unit_zero (S := S128x128) hz2, View.ld_unit_zero (S := S1x128) hz2,
    View.ld_unit_zero (S := S1x1) hz2, View.ld_unit_zero (S := S1x8x128) hz3]

/-- At a core's first step the first accumulator ends at its update of the zero block. -/
theorem out_A_4 (c : Dev nD) (i : grid1.Coords) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x8x128 .f32) (harg6 : arg6.IsWhole) (arg7 : Memref sig .tc .vmem S1x8x128 .f32) (harg7 : arg7.IsWhole) (hc0 : cond1_0 i)
    (x0 : Vec F S4000x128 .f32) (x1 : Vec F S128x128 .f32) (x2 : Vec F S1x128 .f32) (x3 : Vec F S1x1 .f32) :
    out1_A_4 c i arg2 harg2 arg3 harg3 arg4 harg4 arg5 harg5 arg6 harg6 arg7 harg7 hc0 x0 x1 x2 x3 = k1_pay6 x0 x1 x2 x3 (k1_pay2 (F := F)) := by
  unfold out1_A_4
  rw [View.read_writes_eq_canon _ _ _ (cover1_A_4 c i arg2 harg2 arg3 harg3 arg4 harg4 arg5 harg5 arg6 harg6 arg7 harg7 hc0 x0 x1 x2 x3)]
  unfold kernelRun1_A
  dsimp only
  sl_unfold_words
  rw [View.canon_cons_unit_zero (S := S1x8x128) hz3]
  simp only [View.readAt_eq_ld, harg2.read_unread, harg3.read_unread, harg4.read_unread, harg5.read_unread,
    View.ld_unit_zero (S := S4000x128) hz2, View.ld_unit_zero (S := S128x128) hz2, View.ld_unit_zero (S := S1x128) hz2,
    View.ld_unit_zero (S := S1x1) hz2, View.readCov_unit_zero (S := S1x8x128) _ hz3]

/-- Away from a core's first step the second accumulator ends at its update of what it held. -/
theorem out_B_5 (c : Dev nD) (i : grid1.Coords) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x8x128 .f32) (harg6 : arg6.IsWhole) (arg7 : Memref sig .tc .vmem S1x8x128 .f32) (harg7 : arg7.IsWhole) (hc0 : ¬cond1_0 i)
    (x0 : Vec F S4000x128 .f32) (x1 : Vec F S128x128 .f32) (x2 : Vec F S1x128 .f32) (x3 : Vec F S1x1 .f32) (xo4 xo5 : Vec F S1x8x128 .f32) :
    out1_B_5 c i arg2 harg2 arg3 harg3 arg4 harg4 arg5 harg5 arg6 harg6 arg7 harg7 hc0 x0 x1 x2 x3 xo4 xo5 = k1_pay1 (k1_pay5 x0 x1 x2 x3) xo5 := by
  unfold out1_B_5
  rw [View.read_writes_eq_canon _ _ _ (cover1_B_5 c i arg2 harg2 arg3 harg3 arg4 harg4 arg5 harg5 arg6 harg6 arg7 harg7 hc0 x0 x1 x2 x3 xo4 xo5)]
  unfold kernelRun1_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S4000x128) hz2, View.ld_unit_zero (S := S128x128) hz2, View.ld_unit_zero (S := S1x128) hz2,
    View.ld_unit_zero (S := S1x1) hz2, View.ld_unit_zero (S := S1x8x128) hz3]

/-- At a core's first step the second accumulator ends at its update of the zero block. -/
theorem out_A_5 (c : Dev nD) (i : grid1.Coords) (arg2 : Memref sig .tc .vmem S4000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1 .f32) (harg5 : arg5.IsWhole) (arg6 : Memref sig .tc .vmem S1x8x128 .f32) (harg6 : arg6.IsWhole) (arg7 : Memref sig .tc .vmem S1x8x128 .f32) (harg7 : arg7.IsWhole) (hc0 : cond1_0 i)
    (x0 : Vec F S4000x128 .f32) (x1 : Vec F S128x128 .f32) (x2 : Vec F S1x128 .f32) (x3 : Vec F S1x1 .f32) :
    out1_A_5 c i arg2 harg2 arg3 harg3 arg4 harg4 arg5 harg5 arg6 harg6 arg7 harg7 hc0 x0 x1 x2 x3 = k1_pay1 (k1_pay5 x0 x1 x2 x3) (k1_pay3 (F := F)) := by
  unfold out1_A_5
  rw [View.read_writes_eq_canon _ _ _ (cover1_A_5 c i arg2 harg2 arg3 harg3 arg4 harg4 arg5 harg5 arg6 harg6 arg7 harg7 hc0 x0 x1 x2 x3)]
  unfold kernelRun1_A
  dsimp only
  sl_unfold_words
  rw [View.canon_cons_unit_zero (S := S1x8x128) hz3]
  simp only [View.readAt_eq_ld, harg2.read_unread, harg3.read_unread, harg4.read_unread, harg5.read_unread,
    View.ld_unit_zero (S := S4000x128) hz2, View.ld_unit_zero (S := S128x128) hz2, View.ld_unit_zero (S := S1x128) hz2,
    View.ld_unit_zero (S := S1x1) hz2, View.readCov_unit_zero (S := S1x8x128) _ hz3]

end Pieces

/-! ## The windows' blocks as entries of the arrays the region finds -/

variable (V : (c : Dev nD) → (b : Ref sig .tc) → Buf (Elt Ideal) ((c : Thread nD τ).loc b))

/-- The index maps over the grid: the aggregate's block is the point, the three small operands' is the whole array,
    the accumulators' is the core. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 3) = t.val / 100 ∧ win1_4.index t (1 : Fin 3) = 0 ∧ win1_4.index t (2 : Fin 3) = 0
    ∧ win1_5.index t (0 : Fin 3) = t.val / 100 ∧ win1_5.index t (1 : Fin 3) = 0 ∧ win1_5.index t (2 : Fin 3) = 0 :=
  (by decide +kernel : ∀ t : Fin grid1.N, _)

/-- The aggregate's block at point `t` is its rows `4000 t … 4000 t + 3999`. -/
theorem blk0_apply (c : Dev nD) (t : Fin cfg1.N) (p : Fin 4000) (k : Fin 128) (i : S800000x128.Idx)
    (hi0 : (i 0).val = t.val * 4000 + p.val) (hi1 : (i 1).val = k.val) :
    (iblk1 V c 0 t : Vec Ideal S4000x128 .f32) (ix2 p k) = (V c main_v33 : S800000x128.Idx → Elt Ideal .f32) i := by
  obtain ⟨e0, e1, -⟩ := idx_facts t
  unfold iblk1
  rw [View.read_apply]
  show V c main_v33 _ = V c main_v33 _
  congr 1
  funext a
  apply Fin.ext
  match a with
  | ⟨0, _⟩ => show win1_0.index t 0 * 4000 + 1 * p.val = (i 0).val; rw [e0, hi0]; omega
  | ⟨1, _⟩ => show win1_0.index t 1 * 128 + 1 * k.val = (i 1).val; rw [e1, hi1]; omega

/-- The weight window's block is the whole array. -/
theorem blk1_apply (c : Dev nD) (t : Fin cfg1.N) (k d : Fin 128) :
    (iblk1 V c 1 t : Vec Ideal S128x128 .f32) (ix2 k d) = (V c main_v1 : S128x128.Idx → Elt Ideal .f32) (ix2 k d) := by
  obtain ⟨-, -, e0, e1, -⟩ := idx_facts t
  unfold iblk1
  rw [View.read_apply]
  show V c main_v1 _ = V c main_v1 _
  congr 1
  funext a
  apply Fin.ext
  match a with
  | ⟨0, _⟩ => show win1_1.index t 0 * 128 + 1 * k.val = k.val; rw [e0]; omega
  | ⟨1, _⟩ => show win1_1.index t 1 * 128 + 1 * d.val = d.val; rw [e1]; omega

/-- The bias window's block is the whole row. -/
theorem blk2_apply (c : Dev nD) (t : Fin cfg1.N) (d : Fin 128) :
    (iblk1 V c 2 t : Vec Ideal S1x128 .f32) (ix2 0 d) = (V c main_v2 : S1x128.Idx → Elt Ideal .f32) (ix2 0 d) := by
  obtain ⟨-, -, -, -, e0, e1, -⟩ := idx_facts t
  unfold iblk1
  rw [View.read_apply]
  show V c main_v2 _ = V c main_v2 _
  congr 1
  funext a
  apply Fin.ext
  match a with
  | ⟨0, _⟩ => show win1_2.index t 0 * 1 + 1 * 0 = 0; rw [e0]
  | ⟨1, _⟩ => show win1_2.index t 1 * 128 + 1 * d.val = d.val; rw [e1]; omega

/-- The slope window's block is the one entry. -/
theorem blk3_apply (c : Dev nD) (t : Fin cfg1.N) :
    (iblk1 V c 3 t : Vec Ideal S1x1 .f32) (ix2 0 0) = (V c main_v3 : S1x1.Idx → Elt Ideal .f32) (ix2 0 0) := by
  obtain ⟨-, -, -, -, -, -, e0, e1, -⟩ := idx_facts t
  unfold iblk1
  rw [View.read_apply]
  show V c main_v3 _ = V c main_v3 _
  congr 1
  funext a
  apply Fin.ext
  match a with
  | ⟨0, _⟩ => show win1_3.index t 0 * 1 + 1 * 0 = 0; rw [e0]
  | ⟨1, _⟩ => show win1_3.index t 1 * 1 + 1 * 0 = 0; rw [e1]

/-! ## The three small operands as the host stretch leaves them -/

theorem kT1_apply (x3 : FVec Ideal S128x128 .f32) (k d : Fin 128) : Cert.KForm.kT1 x3 (ix2 k d) = x3 (ix2 d k) := by
  unfold Cert.KForm.kT1
  exact transpose_apply [1, 0] x3 transposes_S128x128_S128x128_1_0 (ix2 k d) (ix2 d k) (fun b => match b with
    | ⟨0, _⟩ => rfl
    | ⟨1, _⟩ => rfl)

theorem kRow_apply (x4 : FVec Ideal S128 .f32) (d : Fin 128) : Cert.KForm.kRow x4 (ix2 0 d) = x4 (ix1 d) := by
  unfold Cert.KForm.kRow
  refine shapeCast_apply x4 shapeCasts_S128_S1x128 (ix2 0 d) (ix1 d) ?_
  rw [Shape.rowMajor_val_one, Shape.rowMajor_val_two]; show d.val = 0 * 128 + d.val; omega

theorem kRow1_apply (x5 : FVec Ideal S1 .f32) : Cert.KForm.kRow1 x5 (ix2 0 0) = x5 (ix1 0) := by
  unfold Cert.KForm.kRow1
  refine shapeCast_apply x5 shapeCasts_S1_S1x1 (ix2 0 0) (ix1 0) ?_
  rw [Shape.rowMajor_val_one, Shape.rowMajor_val_two]; rfl

/-! ## The activation of a block, and the accumulators after each point -/

/-- The activation at a row number and a channel (zero past the array's last row). -/
def hRow (A : FVec Ideal S800000x128 .f32) (x3 : FVec Ideal S128x128 .f32) (x4 : FVec Ideal S128 .f32)
    (x5 : FVec Ideal S1 .f32) (d : Fin 128) (r : ℕ) : EReal :=
  if h : r < 800000 then Cert.Pure.hAt A x3 x4 x5 ⟨r, h⟩ d else 0

/-- The squared activation at a row number and a channel. -/
def hRowSq (A : FVec Ideal S800000x128 .f32) (x3 : FVec Ideal S128x128 .f32) (x4 : FVec Ideal S128 .f32)
    (x5 : FVec Ideal S1 .f32) (d : Fin 128) (r : ℕ) : EReal := hRow A x3 x4 x5 d r * hRow A x3 x4 x5 d r

/-- Point `t`'s four input blocks, at their literal types. -/
abbrev ablk (c : Dev nD) (t : Fin cfg1.N) : FVec Ideal S4000x128 .f32 := iblk1 V c 0 t
abbrev wblk (c : Dev nD) (t : Fin cfg1.N) : FVec Ideal S128x128 .f32 := iblk1 V c 1 t
abbrev bblk (c : Dev nD) (t : Fin cfg1.N) : FVec Ideal S1x128 .f32 := iblk1 V c 2 t
abbrev sblk (c : Dev nD) (t : Fin cfg1.N) : FVec Ideal S1x1 .f32 := iblk1 V c 3 t

/-- The two accumulator blocks after the point numbered `n`, at their literal types. -/
abbrev acc4 (c : Dev nD) (n : ℕ) (h : n < cfg1.N) : FVec Ideal S1x8x128 .f32 := (outsAt1 V c n h).1
abbrev acc5 (c : Dev nD) (n : ℕ) (h : n < cfg1.N) : FVec Ideal S1x8x128 .f32 := (outsAt1 V c n h).2

section Inv
variable (c : Dev nD) (A : FVec Ideal S800000x128 .f32) (x3 : FVec Ideal S128x128 .f32)
    (x4 : FVec Ideal S128 .f32) (x5 : FVec Ideal S1 .f32)
    (hA : V c main_v33 = A) (hW : V c main_v1 = Cert.KForm.kT1 x3) (hb : V c main_v2 = Cert.KForm.kRow x4)
    (ha : V c main_v3 = Cert.KForm.kRow1 x5)
include hA hW hb ha

/-- The four blocks in terms of the aggregate, the weight, the bias and the slope. -/
theorem ablk_apply (t : Fin cfg1.N) (p : Fin 4000) (k : Fin 128) (hr : t.val * 4000 + p.val < 800000) :
    ablk V c t (ix2 p k) = A (ix2 ⟨t.val * 4000 + p.val, hr⟩ k) :=
  (blk0_apply V c t p k (ix2 ⟨t.val * 4000 + p.val, hr⟩ k) rfl rfl).trans (congrFun hA _)
theorem wblk_apply (t : Fin cfg1.N) (k d : Fin 128) : wblk V c t (ix2 k d) = x3 (ix2 d k) :=
  (blk1_apply V c t k d).trans ((congrFun hW _).trans (kT1_apply x3 k d))
theorem bblk_apply (t : Fin cfg1.N) (d : Fin 128) : bblk V c t (ix2 0 d) = x4 (ix1 d) :=
  (blk2_apply V c t d).trans ((congrFun hb _).trans (kRow_apply x4 d))
theorem sblk_apply (t : Fin cfg1.N) : sblk V c t (ix2 0 0) = x5 (ix1 0) :=
  (blk3_apply V c t).trans ((congrFun ha _).trans (kRow1_apply x5))

/-- The activation block of point `t` at row `p` is the activation of the aggregate's row `4000 t + p`. -/
theorem pay4_blk (t : Fin cfg1.N) (p : Fin 4000) (d : Fin 128) :
    k1_pay4 (F := Ideal) (ablk V c t) (wblk V c t) (bblk V c t) (sblk V c t) (ix2 p d)
      = hRow A x3 x4 x5 d (t.val * 4000 + p.val) := by
  have hN : t.val < 200 := lt_of_lt_of_eq t.isLt N_1
  have hr : t.val * 4000 + p.val < 800000 := by have := p.isLt; omega
  refine (pay4_apply (ablk V c t) (wblk V c t) (bblk V c t) (sblk V c t) p d).trans ?_
  unfold hRow
  rw [dif_pos hr]
  unfold Cert.Pure.hAt Cert.Pure.zAt
  have ez : (∑ k : Fin 128, ablk V c t (ix2 p k) * wblk V c t (ix2 k d)) + bblk V c t (ix2 0 d)
      = (∑ k : Fin 128, A (ix2 ⟨t.val * 4000 + p.val, hr⟩ k) * x3 (ix2 d k)) + x4 (ix1 d) := by
    congr 1
    · refine Finset.sum_congr rfl fun k _ => ?_
      rw [ablk_apply V c A x3 x4 x5 hA hW hb ha t p k hr, wblk_apply V c A x3 x4 x5 hA hW hb ha t k d]
    · exact bblk_apply V c A x3 x4 x5 hA hW hb ha t d
  rw [ez, sblk_apply V c A x3 x4 x5 hA hW hb ha t]

/-- The block's activations summed over its rows. -/
theorem blockSum_pay4 (t : Fin cfg1.N) (d : Fin 128) :
    ∑ p : Fin 4000, k1_pay4 (F := Ideal) (ablk V c t) (wblk V c t) (bblk V c t) (sblk V c t) (ix2 p d)
      = blockSum (hRow A x3 x4 x5 d) t.val := by
  unfold blockSum
  rw [← Fin.sum_univ_eq_sum_range (fun p => hRow A x3 x4 x5 d (t.val * 4000 + p)) 4000]
  exact Finset.sum_congr rfl fun p _ => pay4_blk V c A x3 x4 x5 hA hW hb ha t p d

/-- The block's squared activations summed over its rows. -/
theorem blockSum_pay4_sq (t : Fin cfg1.N) (d : Fin 128) :
    ∑ p : Fin 4000, k1_pay4 (F := Ideal) (ablk V c t) (wblk V c t) (bblk V c t) (sblk V c t) (ix2 p d)
        * k1_pay4 (F := Ideal) (ablk V c t) (wblk V c t) (bblk V c t) (sblk V c t) (ix2 p d)
      = blockSum (hRowSq A x3 x4 x5 d) t.val := by
  unfold blockSum
  rw [← Fin.sum_univ_eq_sum_range (fun p => hRowSq A x3 x4 x5 d (t.val * 4000 + p)) 4000]
  refine Finset.sum_congr rfl fun p _ => ?_
  unfold hRowSq
  rw [pay4_blk V c A x3 x4 x5 hA hW hb ha t p d]

/-- At a core's first point the first accumulator is the block's sum. -/
theorem acc4_A (t : Fin cfg1.N) (h0 : t.val % 100 = 0) (ρ : Fin 8) (d : Fin 128) :
    acc4 V c t.val t.isLt (ix3 0 ρ d) = blockSum (hRow A x3 x4 x5 d) t.val := by
  show ((outsAt1 V c t.val t.isLt).1 : FVec Ideal S1x8x128 .f32) (ix3 0 ρ d) = _
  rw [outsAt1_A V c t h0]
  dsimp only
  refine (congrFun (out_A_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (ablk V c t) (wblk V c t) (bblk V c t) (sblk V c t)) (ix3 0 ρ d)).trans ?_
  refine (pay6_apply (ablk V c t) (wblk V c t) (bblk V c t) (sblk V c t) (k1_pay2 (F := Ideal)) ρ d).trans ?_
  rw [blockSum_pay4 V c A x3 x4 x5 hA hW hb ha t d]
  show Ideal.ofBits .f32 0x00000000#32 + _ = _
  rw [Ideal.ofBits_zero_f32, zero_add]

/-- At any other point the first accumulator is what the point before left plus the block's sum. -/
theorem acc4_B (t : Fin cfg1.N) (h0 : ¬t.val % 100 = 0) (ρ : Fin 8) (d : Fin 128) :
    acc4 V c t.val t.isLt (ix3 0 ρ d)
      = acc4 V c (t.val - 1) (Nat.lt_of_le_of_lt (Nat.sub_le _ _) t.isLt) (ix3 0 ρ d) + blockSum (hRow A x3 x4 x5 d) t.val := by
  show ((outsAt1 V c t.val t.isLt).1 : FVec Ideal S1x8x128 .f32) (ix3 0 ρ d) = _
  rw [outsAt1_B V c t h0]
  dsimp only
  refine (congrFun (out_B_4 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (ablk V c t) (wblk V c t) (bblk V c t) (sblk V c t) (acc4 V c (t.val - 1) (Nat.lt_of_le_of_lt (Nat.sub_le _ _) t.isLt)) (acc5 V c (t.val - 1) (Nat.lt_of_le_of_lt (Nat.sub_le _ _) t.isLt))) (ix3 0 ρ d)).trans ?_
  refine (pay6_apply (ablk V c t) (wblk V c t) (bblk V c t) (sblk V c t) (acc4 V c (t.val - 1) (Nat.lt_of_le_of_lt (Nat.sub_le _ _) t.isLt)) ρ d).trans ?_
  rw [blockSum_pay4 V c A x3 x4 x5 hA hW hb ha t d]

/-- After every point the first accumulator holds the sum of the activations over the rows its core has met. -/
theorem acc4_eq : ∀ (n : ℕ) (h : n < cfg1.N) (ρ : Fin 8) (d : Fin 128),
    acc4 V c n h (ix3 0 ρ d) = runSum (hRow A x3 x4 x5 d) n
  | 0, h, ρ, d => by
    rw [runSum_reset _ 0 rfl]
    exact acc4_A V c A x3 x4 x5 hA hW hb ha ⟨0, h⟩ rfl ρ d
  | n + 1, h, ρ, d => by
    by_cases h0 : (n + 1) % 100 = 0
    · rw [runSum_reset _ (n + 1) h0]
      exact acc4_A V c A x3 x4 x5 hA hW hb ha ⟨n + 1, h⟩ h0 ρ d
    · rw [runSum_step _ n h0, ← acc4_eq n (Nat.lt_of_succ_lt h) ρ d]
      exact acc4_B V c A x3 x4 x5 hA hW hb ha ⟨n + 1, h⟩ h0 ρ d

end Inv

/-! ## From the accumulator blocks to the first output array -/

/-- What the first output ends holding: at core `k`, every padding row, channel `d`, the activations summed over the core's rows. -/
def G4 (A : FVec Ideal S800000x128 .f32) (x3 : FVec Ideal S128x128 .f32) (x4 : FVec Ideal S128 .f32)
    (x5 : FVec Ideal S1 .f32) : FVec Ideal S2x8x128 .f32 :=
  fun i => ∑ r ∈ Finset.range 400000, hRow A x3 x4 x5 (i 2) ((i 0).val * 400000 + r)

theorem G4_of (A : FVec Ideal S800000x128 .f32) (x3 : FVec Ideal S128x128 .f32) (x4 : FVec Ideal S128 .f32)
    (x5 : FVec Ideal S1 .f32) (i : S2x8x128.Idx) (d : Fin 128) (k : ℕ) (hd : (i 2).val = d.val) (hk : (i 0).val = k) :
    G4 A x3 x4 x5 i = ∑ r ∈ Finset.range 400000, hRow A x3 x4 x5 d (k * 400000 + r) := by
  unfold G4
  have e : i 2 = d := Fin.ext hd
  rw [e, hk]

section Final
variable (c : Dev nD) (A : FVec Ideal S800000x128 .f32) (x3 : FVec Ideal S128x128 .f32)
    (x4 : FVec Ideal S128 .f32) (x5 : FVec Ideal S1 .f32)
    (hA : V c main_v33 = A) (hW : V c main_v1 = Cert.KForm.kT1 x3) (hb : V c main_v2 = Cert.KForm.kRow x4)
    (ha : V c main_v3 = Cert.KForm.kRow1 x5)
include hA hW hb ha

/-- The first accumulator at any entry of its block, by the entry's channel. -/
theorem acc4_of (n : ℕ) (h : n < cfg1.N) (y : S1x8x128.Idx) (d : Fin 128) (hd : (y 2).val = d.val) :
    acc4 V c n h y = runSum (hRow A x3 x4 x5 d) n := by
  obtain ⟨z, ρ, d', rfl⟩ : ∃ (z : Fin 1) (ρ : Fin 8) (d' : Fin 128), y = ix3 z ρ d' := ⟨y 0, y 1, y 2, eq_ix3 y⟩
  obtain rfl : z = 0 := Subsingleton.elim _ _
  obtain rfl : d' = d := Fin.ext hd
  exact acc4_eq V c A x3 x4 x5 hA hW hb ha n h ρ d'

/-- What a core's last point writes back is the core's block of any array that holds, at core `k` and channel `d`,
    the sum over the core's rows. -/
theorem flushed4_of (g : FVec Ideal S2x8x128 .f32)
    (hg : ∀ (i : S2x8x128.Idx) (d : Fin 128) (k : ℕ), (i 2).val = d.val → (i 0).val = k →
      g i = ∑ r ∈ Finset.range 400000, hRow A x3 x4 x5 d (k * 400000 + r))
    (t : Fin cfg1.N) (hf : (cfg1.win 4).flush t = true) :
    (dat1 (F := Ideal) V c).flushed 4 t = ((cfg1.win 4).blk t).view.read (Elt Ideal) g := by
  have h99 : t.val % 100 = 99 := (flush1_4 t).mp hf
  have hN : t.val < 200 := lt_of_lt_of_eq t.isLt N_1
  obtain ⟨-, -, -, -, -, -, -, -, e0, e1, e2, -⟩ := idx_facts t
  show (cfg1.win 4).cut (grid1.coords t) ((dat1 (F := Ideal) V c).after 4 t) = _
  rw [after1_4]
  funext j
  have hj0 : (j 0).val < 1 := (j 0).isLt
  have hj2 : (j 2).val < 128 := (j 2).isLt
  show acc4 V c t.val t.isLt _ = g _
  refine (acc4_of V c A x3 x4 x5 hA hW hb ha t.val t.isLt _ ⟨(j 2).val, hj2⟩ rfl).trans ?_
  refine Eq.trans ?_ (hg _ ⟨(j 2).val, hj2⟩ (t.val / 100) ?_ ?_).symm
  · have e : runSum (hRow A x3 x4 x5 ⟨(j 2).val, hj2⟩) t.val = runSum (hRow A x3 x4 x5 ⟨(j 2).val, hj2⟩) (100 * (t.val / 100) + 99) :=
      congrArg _ (by omega)
    rw [e, runSum_last]
  · show win1_4.index t 2 * 128 + 1 * (j 2).val = (j 2).val
    rw [e2]; omega
  · show win1_4.index t 0 * 1 + 1 * (j 0).val = t.val / 100
    rw [e0]; omega

/-- What a core's last point writes back is the core's block of `G4`. -/
theorem flushed4_eq (t : Fin cfg1.N) (hf : (cfg1.win 4).flush t = true) :
    (dat1 (F := Ideal) V c).flushed 4 t = ((cfg1.win 4).blk t).view.read (Elt Ideal) (G4 A x3 x4 x5) :=
  flushed4_of V c A x3 x4 x5 hA hW hb ha (G4 A x3 x4 x5) (G4_of A x3 x4 x5) t hf

omit hA hW hb ha in
/-- Every entry of the first output lies in the block its core's last point writes back. -/
theorem cover4 (i : S2x8x128.Idx) :
    ∃ t : Fin cfg1.N, (cfg1.win 4).flush t = true ∧ i ∈ ((cfg1.win 4).blk t).view.set := by
  have hi0 : (i 0).val < 2 := (i 0).isLt
  have hi1 : (i 1).val < 8 := (i 1).isLt
  have hi2 : (i 2).val < 128 := (i 2).isLt
  have hN : cfg1.N = 200 := N_1
  have ht : 100 * (i 0).val + 99 < cfg1.N := by omega
  obtain ⟨-, -, -, -, -, -, -, -, e0, e1, e2, -⟩ := idx_facts ⟨100 * (i 0).val + 99, ht⟩
  have q : (100 * (i 0).val + 99) / 100 = (i 0).val := by omega
  refine ⟨⟨100 * (i 0).val + 99, ht⟩, (flush1_4 _).mpr (by show (100 * (i 0).val + 99) % 100 = 99; omega), ?_⟩
  show i ∈ ((View.whole main_v34_0).slice (win1_4.rect ⟨100 * (i 0).val + 99, ht⟩)).set
  rw [View.set_slice_whole, Rect.mem_set_unit]
  intro a
  match a with
  | ⟨0, _⟩ =>
    show win1_4.index ⟨100 * (i 0).val + 99, ht⟩ 0 * 1 ≤ (i 0).val ∧ (i 0).val < win1_4.index ⟨100 * (i 0).val + 99, ht⟩ 0 * 1 + 1
    rw [e0]; show (100 * (i 0).val + 99) / 100 * 1 ≤ (i 0).val ∧ (i 0).val < (100 * (i 0).val + 99) / 100 * 1 + 1
    rw [q]; omega
  | ⟨1, _⟩ =>
    show win1_4.index ⟨100 * (i 0).val + 99, ht⟩ 1 * 8 ≤ (i 1).val ∧ (i 1).val < win1_4.index ⟨100 * (i 0).val + 99, ht⟩ 1 * 8 + 8
    rw [e1]; omega
  | ⟨2, _⟩ =>
    show win1_4.index ⟨100 * (i 0).val + 99, ht⟩ 2 * 128 ≤ (i 2).val ∧ (i 2).val < win1_4.index ⟨100 * (i 0).val + 99, ht⟩ 2 * 128 + 128
    rw [e2]; omega

/-- The first output after the region. -/
theorem final4 : (dat1 (F := Ideal) V c).arrAt 4 cfg1.N = G4 A x3 x4 x5 :=
  (dat1 (F := Ideal) V c).arrAt_eq_of_cover 4 (G4 A x3 x4 x5)
    (fun t hf => flushed4_eq V c A x3 x4 x5 hA hW hb ha t hf) cover4

end Final

/-- The activation at a row number below the array's extent. -/
theorem hRow_of_lt (A : FVec Ideal S800000x128 .f32) (x3 : FVec Ideal S128x128 .f32) (x4 : FVec Ideal S128 .f32)
    (x5 : FVec Ideal S1 .f32) (d : Fin 128) (r : ℕ) (h : r < 800000) :
    hRow A x3 x4 x5 d r = Cert.Pure.hAt A x3 x4 x5 ⟨r, h⟩ d := dif_pos h

/-- After region 1, its first output holds each core's sum of the activations over the core's rows. -/
theorem sum_value (c : Dev nD) (A : FVec Ideal S800000x128 .f32) (x3 : FVec Ideal S128x128 .f32)
    (x4 : FVec Ideal S128 .f32) (x5 : FVec Ideal S1 .f32)
    (hA : V c main_v33 = A) (hW : V c main_v1 = Cert.KForm.kT1 x3) (hb : V c main_v2 = Cert.KForm.kRow x4)
    (ha : V c main_v3 = Cert.KForm.kRow1 x5) (k : Fin 2) (ρ : Fin 8) (d : Fin 128) :
    (dat1 (F := Ideal) V c).arrAt 4 cfg1.N (ix3 k ρ d)
      = ∑ i : Fin 400000, Cert.Pure.hAt A x3 x4 x5 ⟨k.val * 400000 + i.val, by omega⟩ d := by
  refine (congrFun (final4 V c A x3 x4 x5 hA hW hb ha) (ix3 k ρ d)).trans ?_
  refine (G4_of A x3 x4 x5 (ix3 k ρ d) d k.val rfl rfl).trans ?_
  rw [← Fin.sum_univ_eq_sum_range (fun r => hRow A x3 x4 x5 d (k.val * 400000 + r)) 400000]
  exact Finset.sum_congr rfl fun i _ => hRow_of_lt A x3 x4 x5 d _ _

/-! ## The second accumulator: the same over the squared activations -/

section InvSq
variable (c : Dev nD) (A : FVec Ideal S800000x128 .f32) (x3 : FVec Ideal S128x128 .f32)
    (x4 : FVec Ideal S128 .f32) (x5 : FVec Ideal S1 .f32)
    (hA : V c main_v33 = A) (hW : V c main_v1 = Cert.KForm.kT1 x3) (hb : V c main_v2 = Cert.KForm.kRow x4)
    (ha : V c main_v3 = Cert.KForm.kRow1 x5)
include hA hW hb ha

/-- At a core's first point the second accumulator is the block's sum of squares. -/
theorem acc5_A (t : Fin cfg1.N) (h0 : t.val % 100 = 0) (ρ : Fin 8) (d : Fin 128) :
    acc5 V c t.val t.isLt (ix3 0 ρ d) = blockSum (hRowSq A x3 x4 x5 d) t.val := by
  show ((outsAt1 V c t.val t.isLt).2 : FVec Ideal S1x8x128 .f32) (ix3 0 ρ d) = _
  rw [outsAt1_A V c t h0]
  dsimp only
  refine (congrFun (out_A_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (ablk V c t) (wblk V c t) (bblk V c t) (sblk V c t)) (ix3 0 ρ d)).trans ?_
  refine (pay1_apply (k1_pay5 (F := Ideal) (ablk V c t) (wblk V c t) (bblk V c t) (sblk V c t)) (k1_pay3 (F := Ideal)) ρ d).trans ?_
  rw [pay5_apply (ablk V c t) (wblk V c t) (bblk V c t) (sblk V c t) d, blockSum_pay4_sq V c A x3 x4 x5 hA hW hb ha t d]
  show Ideal.ofBits .f32 0x00000000#32 + _ = _
  rw [Ideal.ofBits_zero_f32, zero_add]

/-- At any other point the second accumulator is what the point before left plus the block's sum of squares. -/
theorem acc5_B (t : Fin cfg1.N) (h0 : ¬t.val % 100 = 0) (ρ : Fin 8) (d : Fin 128) :
    acc5 V c t.val t.isLt (ix3 0 ρ d)
      = acc5 V c (t.val - 1) (Nat.lt_of_le_of_lt (Nat.sub_le _ _) t.isLt) (ix3 0 ρ d) + blockSum (hRowSq A x3 x4 x5 d) t.val := by
  show ((outsAt1 V c t.val t.isLt).2 : FVec Ideal S1x8x128 .f32) (ix3 0 ρ d) = _
  rw [outsAt1_B V c t h0]
  dsimp only
  refine (congrFun (out_B_5 (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (ablk V c t) (wblk V c t) (bblk V c t) (sblk V c t) (acc4 V c (t.val - 1) (Nat.lt_of_le_of_lt (Nat.sub_le _ _) t.isLt)) (acc5 V c (t.val - 1) (Nat.lt_of_le_of_lt (Nat.sub_le _ _) t.isLt))) (ix3 0 ρ d)).trans ?_
  refine (pay1_apply (k1_pay5 (F := Ideal) (ablk V c t) (wblk V c t) (bblk V c t) (sblk V c t)) (acc5 V c (t.val - 1) (Nat.lt_of_le_of_lt (Nat.sub_le _ _) t.isLt)) ρ d).trans ?_
  rw [pay5_apply (ablk V c t) (wblk V c t) (bblk V c t) (sblk V c t) d, blockSum_pay4_sq V c A x3 x4 x5 hA hW hb ha t d]

/-- After every point the second accumulator holds the sum of the squared activations over the rows its core has met. -/
theorem acc5_eq : ∀ (n : ℕ) (h : n < cfg1.N) (ρ : Fin 8) (d : Fin 128),
    acc5 V c n h (ix3 0 ρ d) = runSum (hRowSq A x3 x4 x5 d) n
  | 0, h, ρ, d => by
    rw [runSum_reset _ 0 rfl]
    exact acc5_A V c A x3 x4 x5 hA hW hb ha ⟨0, h⟩ rfl ρ d
  | n + 1, h, ρ, d => by
    by_cases h0 : (n + 1) % 100 = 0
    · rw [runSum_reset _ (n + 1) h0]
      exact acc5_A V c A x3 x4 x5 hA hW hb ha ⟨n + 1, h⟩ h0 ρ d
    · rw [runSum_step _ n h0, ← acc5_eq n (Nat.lt_of_succ_lt h) ρ d]
      exact acc5_B V c A x3 x4 x5 hA hW hb ha ⟨n + 1, h⟩ h0 ρ d

end InvSq

/-! ## From the accumulator blocks to the second output array -/

/-- What the second output ends holding: the squared activations summed over the core's rows. -/
def G5 (A : FVec Ideal S800000x128 .f32) (x3 : FVec Ideal S128x128 .f32) (x4 : FVec Ideal S128 .f32)
    (x5 : FVec Ideal S1 .f32) : FVec Ideal S2x8x128 .f32 :=
  fun i => ∑ r ∈ Finset.range 400000, hRowSq A x3 x4 x5 (i 2) ((i 0).val * 400000 + r)

theorem G5_of (A : FVec Ideal S800000x128 .f32) (x3 : FVec Ideal S128x128 .f32) (x4 : FVec Ideal S128 .f32)
    (x5 : FVec Ideal S1 .f32) (i : S2x8x128.Idx) (d : Fin 128) (k : ℕ) (hd : (i 2).val = d.val) (hk : (i 0).val = k) :
    G5 A x3 x4 x5 i = ∑ r ∈ Finset.range 400000, hRowSq A x3 x4 x5 d (k * 400000 + r) := by
  unfold G5
  have e : i 2 = d := Fin.ext hd
  rw [e, hk]

section FinalSq
variable (c : Dev nD) (A : FVec Ideal S800000x128 .f32) (x3 : FVec Ideal S128x128 .f32)
    (x4 : FVec Ideal S128 .f32) (x5 : FVec Ideal S1 .f32)
    (hA : V c main_v33 = A) (hW : V c main_v1 = Cert.KForm.kT1 x3) (hb : V c main_v2 = Cert.KForm.kRow x4)
    (ha : V c main_v3 = Cert.KForm.kRow1 x5)
include hA hW hb ha

/-- The second accumulator at any entry of its block, by the entry's channel. -/
theorem acc5_of (n : ℕ) (h : n < cfg1.N) (y : S1x8x128.Idx) (d : Fin 128) (hd : (y 2).val = d.val) :
    acc5 V c n h y = runSum (hRowSq A x3 x4 x5 d) n := by
  obtain ⟨z, ρ, d', rfl⟩ : ∃ (z : Fin 1) (ρ : Fin 8) (d' : Fin 128), y = ix3 z ρ d' := ⟨y 0, y 1, y 2, eq_ix3 y⟩
  obtain rfl : z = 0 := Subsingleton.elim _ _
  obtain rfl : d' = d := Fin.ext hd
  exact acc5_eq V c A x3 x4 x5 hA hW hb ha n h ρ d'

/-- What a core's last point writes back is the core's block of any array that holds, at core `k` and channel `d`,
    the sum over the core's rows. -/
theorem flushed5_of (g : FVec Ideal S2x8x128 .f32)
    (hg : ∀ (i : S2x8x128.Idx) (d : Fin 128) (k : ℕ), (i 2).val = d.val → (i 0).val = k →
      g i = ∑ r ∈ Finset.range 400000, hRowSq A x3 x4 x5 d (k * 400000 + r))
    (t : Fin cfg1.N) (hf : (cfg1.win 5).flush t = true) :
    (dat1 (F := Ideal) V c).flushed 5 t = ((cfg1.win 5).blk t).view.read (Elt Ideal) g := by
  have h99 : t.val % 100 = 99 := (flush1_5 t).mp hf
  have hN : t.val < 200 := lt_of_lt_of_eq t.isLt N_1
  obtain ⟨-, -, -, -, -, -, -, -, -, -, -, e0, e1, e2⟩ := idx_facts t
  show (cfg1.win 5).cut (grid1.coords t) ((dat1 (F := Ideal) V c).after 5 t) = _
  rw [after1_5]
  funext j
  have hj0 : (j 0).val < 1 := (j 0).isLt
  have hj2 : (j 2).val < 128 := (j 2).isLt
  show acc5 V c t.val t.isLt _ = g _
  refine (acc5_of V c A x3 x4 x5 hA hW hb ha t.val t.isLt _ ⟨(j 2).val, hj2⟩ rfl).trans ?_
  refine Eq.trans ?_ (hg _ ⟨(j 2).val, hj2⟩ (t.val / 100) ?_ ?_).symm
  · have e : runSum (hRowSq A x3 x4 x5 ⟨(j 2).val, hj2⟩) t.val = runSum (hRowSq A x3 x4 x5 ⟨(j 2).val, hj2⟩) (100 * (t.val / 100) + 99) :=
      congrArg _ (by omega)
    rw [e, runSum_last]
  · show win1_5.index t 2 * 128 + 1 * (j 2).val = (j 2).val
    rw [e2]; omega
  · show win1_5.index t 0 * 1 + 1 * (j 0).val = t.val / 100
    rw [e0]; omega

/-- What a core's last point writes back is the core's block of `G5`. -/
theorem flushed5_eq (t : Fin cfg1.N) (hf : (cfg1.win 5).flush t = true) :
    (dat1 (F := Ideal) V c).flushed 5 t = ((cfg1.win 5).blk t).view.read (Elt Ideal) (G5 A x3 x4 x5) :=
  flushed5_of V c A x3 x4 x5 hA hW hb ha (G5 A x3 x4 x5) (G5_of A x3 x4 x5) t hf

omit hA hW hb ha in
/-- Every entry of the second output lies in the block its core's last point writes back. -/
theorem cover5 (i : S2x8x128.Idx) :
    ∃ t : Fin cfg1.N, (cfg1.win 5).flush t = true ∧ i ∈ ((cfg1.win 5).blk t).view.set := by
  have hi0 : (i 0).val < 2 := (i 0).isLt
  have hi1 : (i 1).val < 8 := (i 1).isLt
  have hi2 : (i 2).val < 128 := (i 2).isLt
  have hN : cfg1.N = 200 := N_1
  have ht : 100 * (i 0).val + 99 < cfg1.N := by omega
  obtain ⟨-, -, -, -, -, -, -, -, -, -, -, e0, e1, e2⟩ := idx_facts ⟨100 * (i 0).val + 99, ht⟩
  have q : (100 * (i 0).val + 99) / 100 = (i 0).val := by omega
  refine ⟨⟨100 * (i 0).val + 99, ht⟩, (flush1_5 _).mpr (by show (100 * (i 0).val + 99) % 100 = 99; omega), ?_⟩
  show i ∈ ((View.whole main_v34_1).slice (win1_5.rect ⟨100 * (i 0).val + 99, ht⟩)).set
  rw [View.set_slice_whole, Rect.mem_set_unit]
  intro a
  match a with
  | ⟨0, _⟩ =>
    show win1_5.index ⟨100 * (i 0).val + 99, ht⟩ 0 * 1 ≤ (i 0).val ∧ (i 0).val < win1_5.index ⟨100 * (i 0).val + 99, ht⟩ 0 * 1 + 1
    rw [e0]; show (100 * (i 0).val + 99) / 100 * 1 ≤ (i 0).val ∧ (i 0).val < (100 * (i 0).val + 99) / 100 * 1 + 1
    rw [q]; omega
  | ⟨1, _⟩ =>
    show win1_5.index ⟨100 * (i 0).val + 99, ht⟩ 1 * 8 ≤ (i 1).val ∧ (i 1).val < win1_5.index ⟨100 * (i 0).val + 99, ht⟩ 1 * 8 + 8
    rw [e1]; omega
  | ⟨2, _⟩ =>
    show win1_5.index ⟨100 * (i 0).val + 99, ht⟩ 2 * 128 ≤ (i 2).val ∧ (i 2).val < win1_5.index ⟨100 * (i 0).val + 99, ht⟩ 2 * 128 + 128
    rw [e2]; omega

/-- The second output after the region. -/
theorem final5 : (dat1 (F := Ideal) V c).arrAt 5 cfg1.N = G5 A x3 x4 x5 :=
  (dat1 (F := Ideal) V c).arrAt_eq_of_cover 5 (G5 A x3 x4 x5)
    (fun t hf => flushed5_eq V c A x3 x4 x5 hA hW hb ha t hf) cover5

end FinalSq

/-- After region 1, its second output holds each core's sum of the squared activations over the core's rows. -/
theorem sumsq_value (c : Dev nD) (A : FVec Ideal S800000x128 .f32) (x3 : FVec Ideal S128x128 .f32)
    (x4 : FVec Ideal S128 .f32) (x5 : FVec Ideal S1 .f32)
    (hA : V c main_v33 = A) (hW : V c main_v1 = Cert.KForm.kT1 x3) (hb : V c main_v2 = Cert.KForm.kRow x4)
    (ha : V c main_v3 = Cert.KForm.kRow1 x5) (k : Fin 2) (ρ : Fin 8) (d : Fin 128) :
    (dat1 (F := Ideal) V c).arrAt 5 cfg1.N (ix3 k ρ d)
      = ∑ i : Fin 400000, Cert.Pure.hAt A x3 x4 x5 ⟨k.val * 400000 + i.val, by omega⟩ d
          * Cert.Pure.hAt A x3 x4 x5 ⟨k.val * 400000 + i.val, by omega⟩ d := by
  refine (congrFun (final5 V c A x3 x4 x5 hA hW hb ha) (ix3 k ρ d)).trans ?_
  refine (G5_of A x3 x4 x5 (ix3 k ρ d) d k.val rfl rfl).trans ?_
  rw [← Fin.sum_univ_eq_sum_range (fun r => hRowSq A x3 x4 x5 d (k.val * 400000 + r)) 400000]
  refine Finset.sum_congr rfl fun i _ => ?_
  unfold hRowSq
  rw [hRow_of_lt A x3 x4 x5 d _ (by have := k.isLt; have := i.isLt; omega)]

end Cert.KReg1

end
-- ==== Proof.KReg2.lean ====
/-
  The third kernel region: the normalised update.

  The region walks the 800000 edges in 200 blocks of 4000 rows. At a block it forms the activation again,
  `H = prelu (A_blk · W1ᵀ + b1)`, and writes back `Z_blk + ((H − mean) · rsqrt (var + ε) · γ + β)`, the per-channel rows
  `mean`, `var`, `γ`, `β` spread over the block's rows. Entry `(r, d)` of the array it leaves is therefore
  `Z[r,d] + ((H[r,d] − mean[d]) · rsqrt (var[d] + ε) · γ[d] + β[d])`: every row lies in exactly one block, block `r / 4000`.
-/
import proofs.«415791_j54597624267061_2_alg».proof.Proof.Gen.KernelIdeal.Frame
import proofs.«415791_j54597624267061_2_alg».proof.Proof.Pure
import proofs.«415791_j54597624267061_2_alg».proof.Proof.Alg
import proofs.«415791_j54597624267061_2_alg».proof.Proof.KForm
import Idealize.ShloMosaic.Lib.Pipeline.Value
import Idealize.ShloMosaic.Lib.ValueIdx
import Idealize.ShloMosaic.PureOps.Ideal.Laws

noncomputable section

set_option maxRecDepth 16384

namespace Cert.KReg2

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The block product at an index -/

theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block of 4000 rows times the 128 × 128 matrix, into the zero accumulator: entry `(p, q)` is the sum over
    the 128 shared channels. -/
theorem matmul_at (l : FVec Ideal S4000x128 .bf16) (w : FVec Ideal S128x128 .bf16) (p : Fin 4000) (q : Fin 128) :
    matmul dot_S4000x128_S128x128_S4000x128_1_0_0_1_n_n none l w (constant (F := Ideal) S4000x128 .f32 0x00000000#32) (ix2 p q)
      = ∑ k : Fin 128, l (ix2 p k) * w (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-! ## The body's value at an index of the block -/

/-- The activation of a pre-activation `z` with slope `a`. -/
def act (z a : EReal) : EReal := if (0 : EReal) ≤ z then z else a * z

/-- A row `[1, 128]` spread over the 4000 rows of a block reads its entry of the column. -/
theorem row_at (x : FVec Ideal S1x128 .f32) (p : Fin 4000) (q : Fin 128) :
    broadcastTo S4000x128 x broadcasts_S1x128_S4000x128 (ix2 p q) = x (ix2 0 q) :=
  broadcastTo_apply x broadcasts_S1x128_S4000x128 (ix2 p q) (ix2 0 q) (fun a => match a with
    | ⟨0, _⟩ => rfl
    | ⟨1, _⟩ => rfl)

/-- The comparison with zero followed by the selection is the activation. -/
theorem select_act (z a : EReal) :
    Scalar.select (FloatOps.cmpf (F := Ideal) (φ := .f32) .oge z (FloatOps.ofBits (F := Ideal) .f32 0x00000000#32)) z (a * z) = act z a := by
  unfold act
  rw [Ideal.cmpf_def, Ideal.ofBits_def]
  rw [Ideal.ofBits_zero_f32]
  by_cases h : (0 : EReal) ≤ z
  · rw [if_pos h]
    have : Ideal.cmp .oge z 0 = 1#1 := by unfold Ideal.cmp; simp [h]
    rw [this, select_one]
  · rw [if_neg h]
    have : Ideal.cmp .oge z 0 = 0#1 := by unfold Ideal.cmp; simp [h]
    rw [this, select_zero]

theorem pay_at (v0 : FVec Ideal S4000x128 .f32) (v3 : FVec Ideal S128x128 .f32) (v7 : FVec Ideal S1x128 .f32) (v11 : FVec Ideal S1x1 .f32)
    (v18 v23 v29 v33 : FVec Ideal S1x128 .f32) (v37 : FVec Ideal S4000x128 .f32) (p : Fin 4000) (q : Fin 128) :
    k2_pay1 (k2_pay2 v0 v3 v7 v11 v18 v23 v29 v33) v37 (ix2 p q)
      = v37 (ix2 p q) + ((act ((∑ k : Fin 128, v0 (ix2 p k) * v3 (ix2 k q)) + v7 (ix2 0 q)) (v11 (ix2 0 0)) - v23 (ix2 0 q))
          * Ideal.rsqrt (v18 (ix2 0 q) + Ideal.ofBits .f32 0x3727C5AC#32) * v29 (ix2 0 q) + v33 (ix2 0 q)) := by
  unfold k2_pay1 k2_pay2
  simp only [shapeCast_self]
  simp only [addf_apply, mulf_apply, subf_apply, select_apply, cmpf_apply, broadcast_apply, row_at, matmul_at, truncf_apply]
  have e1 : extractAt ![0, 0] v11 inpos_S1x1_p0_0 = v11 (ix2 0 0) :=
    congrArg v11 (funext fun a => match a with | ⟨0, _⟩ => rfl | ⟨1, _⟩ => rfl)
  rw [e1, select_act]
  rfl

/-! ## The parameter arrays as the region finds them, at an index -/

/-- The transposed weight at `(k, d)` is the weight at `(d, k)`. -/
theorem kT1_at (x3 : FVec Ideal S128x128 .f32) (k d : Fin 128) : Cert.KForm.kT1 x3 (ix2 k d) = x3 (ix2 d k) :=
  transpose_apply [1, 0] x3 transposes_S128x128_S128x128_1_0 (ix2 k d) (ix2 d k) (fun b => match b with
    | ⟨0, _⟩ => rfl
    | ⟨1, _⟩ => rfl)

/-- A vector of 128 channels laid out as a row reads its entry of the column. -/
theorem kRow_at (v : FVec Ideal S128 .f32) (d : Fin 128) : Cert.KForm.kRow v (ix2 0 d) = v (ix1 d) :=
  shapeCast_apply v shapeCasts_S128_S1x128 (ix2 0 d) (ix1 d) (by
    rw [Shape.rowMajor_val_one, Shape.rowMajor_val_two]
    show d.val = 0 * 128 + d.val
    omega)

/-- The one-entry vector laid out as `[1, 1]`. -/
theorem kRow1_at (v : FVec Ideal S1 .f32) : Cert.KForm.kRow1 v (ix2 0 0) = v (ix1 0) :=
  shapeCast_apply v shapeCasts_S1_S1x1 (ix2 0 0) (ix1 0) (by
    rw [Shape.rowMajor_val_one, Shape.rowMajor_val_two]
    rfl)

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the two edge arrays and the output move one block of rows per point, the
    parameter arrays stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

theorem point_lt (t : Fin cfg2.N) : t.val < 200 := lt_of_lt_of_eq t.isLt N_2

/-- Row `p` of block `t` is row `4000 t + p` of the array. -/
def row (t : Fin cfg2.N) (p : Fin 4000) : Fin 800000 := ⟨t.val * 4000 + p.val, by have := point_lt t; omega⟩

/-! ### Each window's block, read off its array -/

theorem blk0 (c : Dev nD) (X : FVec Ideal S800000x128 .f32) (hX : V c main_v33 = X) (t : Fin cfg2.N) (p : Fin 4000) (q : Fin 128) :
    iblk2 (F := Ideal) V c 0 t (ix2 p q) = X (ix2 (row t p) q) := by
  subst hX
  show V c main_v33 (((cfg2.win 0).blk t).view.emb (ix2 p q)) = V c main_v33 (ix2 (row t p) q)
  refine congrArg _ (funext fun a => Fin.ext ?_)
  obtain ⟨e00, e01, e10, e11, -⟩ := idx_facts t
  match a with
  | ⟨0, _⟩ => show win2_0.index t (0 : Fin 2) * 4000 + 1 * p.val = t.val * 4000 + p.val; omega
  | ⟨1, _⟩ => show win2_0.index t (1 : Fin 2) * 128 + 1 * q.val = q.val; omega

theorem blk1 (c : Dev nD) (X : FVec Ideal S800000x128 .f32) (hX : V c main_v16 = X) (t : Fin cfg2.N) (p : Fin 4000) (q : Fin 128) :
    iblk2 (F := Ideal) V c 1 t (ix2 p q) = X (ix2 (row t p) q) := by
  subst hX
  show V c main_v16 (((cfg2.win 1).blk t).view.emb (ix2 p q)) = V c main_v16 (ix2 (row t p) q)
  refine congrArg _ (funext fun a => Fin.ext ?_)
  obtain ⟨e00, e01, e10, e11, -⟩ := idx_facts t
  match a with
  | ⟨0, _⟩ => show win2_1.index t (0 : Fin 2) * 4000 + 1 * p.val = t.val * 4000 + p.val; omega
  | ⟨1, _⟩ => show win2_1.index t (1 : Fin 2) * 128 + 1 * q.val = q.val; omega

theorem blk2 (c : Dev nD) (X : FVec Ideal S128x128 .f32) (hX : V c main_v1 = X) (t : Fin cfg2.N) (p : Fin 128) (q : Fin 128) :
    iblk2 (F := Ideal) V c 2 t (ix2 p q) = X (ix2 p q) := by
  subst hX
  show V c main_v1 (((cfg2.win 2).blk t).view.emb (ix2 p q)) = V c main_v1 (ix2 p q)
  refine congrArg _ (funext fun a => Fin.ext ?_)
  obtain ⟨-, -, -, -, e20, e21, e30, e31, e40, e41, e50, e51, e60, e61, e70, e71, e80, e81, -, -⟩ := idx_facts t
  match a with
  | ⟨0, _⟩ => show win2_2.index t (0 : Fin 2) * 128 + 1 * p.val = p.val; omega
  | ⟨1, _⟩ => show win2_2.index t (1 : Fin 2) * 128 + 1 * q.val = q.val; omega

theorem blk3 (c : Dev nD) (X : FVec Ideal S1x128 .f32) (hX : V c main_v2 = X) (t : Fin cfg2.N) (p : Fin 1) (q : Fin 128) :
    iblk2 (F := Ideal) V c 3 t (ix2 p q) = X (ix2 p q) := by
  subst hX
  show V c main_v2 (((cfg2.win 3).blk t).view.emb (ix2 p q)) = V c main_v2 (ix2 p q)
  refine congrArg _ (funext fun a => Fin.ext ?_)
  obtain ⟨-, -, -, -, e20, e21, e30, e31, e40, e41, e50, e51, e60, e61, e70, e71, e80, e81, -, -⟩ := idx_facts t
  match a with
  | ⟨0, _⟩ => show win2_3.index t (0 : Fin 2) * 1 + 1 * p.val = p.val; omega
  | ⟨1, _⟩ => show win2_3.index t (1 : Fin 2) * 128 + 1 * q.val = q.val; omega

theorem blk4 (c : Dev nD) (X : FVec Ideal S1x1 .f32) (hX : V c main_v3 = X) (t : Fin cfg2.N) (p : Fin 1) (q : Fin 1) :
    iblk2 (F := Ideal) V c 4 t (ix2 p q) = X (ix2 p q) := by
  subst hX
  show V c main_v3 (((cfg2.win 4).blk t).view.emb (ix2 p q)) = V c main_v3 (ix2 p q)
  refine congrArg _ (funext fun a => Fin.ext ?_)
  obtain ⟨-, -, -, -, e20, e21, e30, e31, e40, e41, e50, e51, e60, e61, e70, e71, e80, e81, -, -⟩ := idx_facts t
  match a with
  | ⟨0, _⟩ => show win2_4.index t (0 : Fin 2) * 1 + 1 * p.val = p.val; omega
  | ⟨1, _⟩ => show win2_4.index t (1 : Fin 2) * 1 + 1 * q.val = q.val; omega

theorem blk5 (c : Dev nD) (X : FVec Ideal S1x128 .f32) (hX : V c main_v49 = X) (t : Fin cfg2.N) (p : Fin 1) (q : Fin 128) :
    iblk2 (F := Ideal) V c 5 t (ix2 p q) = X (ix2 p q) := by
  subst hX
  show V c main_v49 (((cfg2.win 5).blk t).view.emb (ix2 p q)) = V c main_v49 (ix2 p q)
  refine congrArg _ (funext fun a => Fin.ext ?_)
  obtain ⟨-, -, -, -, e20, e21, e30, e31, e40, e41, e50, e51, e60, e61, e70, e71, e80, e81, -, -⟩ := idx_facts t
  match a with
  | ⟨0, _⟩ => show win2_5.index t (0 : Fin 2) * 1 + 1 * p.val = p.val; omega
  | ⟨1, _⟩ => show win2_5.index t (1 : Fin 2) * 128 + 1 * q.val = q.val; omega

theorem blk6 (c : Dev nD) (X : FVec Ideal S1x128 .f32) (hX : V c main_v50 = X) (t : Fin cfg2.N) (p : Fin 1) (q : Fin 128) :
    iblk2 (F := Ideal) V c 6 t (ix2 p q) = X (ix2 p q) := by
  subst hX
  show V c main_v50 (((cfg2.win 6).blk t).view.emb (ix2 p q)) = V c main_v50 (ix2 p q)
  refine congrArg _ (funext fun a => Fin.ext ?_)
  obtain ⟨-, -, -, -, e20, e21, e30, e31, e40, e41, e50, e51, e60, e61, e70, e71, e80, e81, -, -⟩ := idx_facts t
  match a with
  | ⟨0, _⟩ => show win2_6.index t (0 : Fin 2) * 1 + 1 * p.val = p.val; omega
  | ⟨1, _⟩ => show win2_6.index t (1 : Fin 2) * 128 + 1 * q.val = q.val; omega

theorem blk7 (c : Dev nD) (X : FVec Ideal S1x128 .f32) (hX : V c main_v4 = X) (t : Fin cfg2.N) (p : Fin 1) (q : Fin 128) :
    iblk2 (F := Ideal) V c 7 t (ix2 p q) = X (ix2 p q) := by
  subst hX
  show V c main_v4 (((cfg2.win 7).blk t).view.emb (ix2 p q)) = V c main_v4 (ix2 p q)
  refine congrArg _ (funext fun a => Fin.ext ?_)
  obtain ⟨-, -, -, -, e20, e21, e30, e31, e40, e41, e50, e51, e60, e61, e70, e71, e80, e81, -, -⟩ := idx_facts t
  match a with
  | ⟨0, _⟩ => show win2_7.index t (0 : Fin 2) * 1 + 1 * p.val = p.val; omega
  | ⟨1, _⟩ => show win2_7.index t (1 : Fin 2) * 128 + 1 * q.val = q.val; omega

theorem blk8 (c : Dev nD) (X : FVec Ideal S1x128 .f32) (hX : V c main_v5 = X) (t : Fin cfg2.N) (p : Fin 1) (q : Fin 128) :
    iblk2 (F := Ideal) V c 8 t (ix2 p q) = X (ix2 p q) := by
  subst hX
  show V c main_v5 (((cfg2.win 8).blk t).view.emb (ix2 p q)) = V c main_v5 (ix2 p q)
  refine congrArg _ (funext fun a => Fin.ext ?_)
  obtain ⟨-, -, -, -, e20, e21, e30, e31, e40, e41, e50, e51, e60, e61, e70, e71, e80, e81, -, -⟩ := idx_facts t
  match a with
  | ⟨0, _⟩ => show win2_8.index t (0 : Fin 2) * 1 + 1 * p.val = p.val; omega
  | ⟨1, _⟩ => show win2_8.index t (1 : Fin 2) * 128 + 1 * q.val = q.val; omega

/-- Entry `(p, q)` of the output's block `t` sits at row `4000 t + p` of the array. -/
theorem emb9 (t : Fin cfg2.N) (p : Fin 4000) (q : Fin 128) :
    (((cfg2.win 9).blk t).view.emb (ix2 p q) : S800000x128.Idx) = ix2 (row t p) q := by
  refine funext fun a => Fin.ext ?_
  obtain ⟨-, -, -, -, -, -, -, -, -, -, -, -, -, -, -, -, -, -, e90, e91⟩ := idx_facts t
  match a with
  | ⟨0, _⟩ => show win2_9.index t (0 : Fin 2) * 4000 + 1 * p.val = t.val * 4000 + p.val; omega
  | ⟨1, _⟩ => show win2_9.index t (1 : Fin 2) * 128 + 1 * q.val = q.val; omega

/-! ### The array the region leaves -/

/-- The value at row `r`, channel `d`, from the region's input arrays as it finds them. -/
def Gc (A Z : FVec Ideal S800000x128 .f32) (W : FVec Ideal S128x128 .f32) (b : FVec Ideal S1x128 .f32) (a : FVec Ideal S1x1 .f32)
    (m v g be : FVec Ideal S1x128 .f32) (r : Fin 800000) (d : Fin 128) : EReal :=
  Z (ix2 r d) + ((act ((∑ k : Fin 128, A (ix2 r k) * W (ix2 k d)) + b (ix2 0 d)) (a (ix2 0 0)) - m (ix2 0 d))
      * Ideal.rsqrt (v (ix2 0 d) + Ideal.ofBits .f32 0x3727C5AC#32) * g (ix2 0 d) + be (ix2 0 d))

/-- The same as one function of the array's index. -/
def G (A Z : FVec Ideal S800000x128 .f32) (W : FVec Ideal S128x128 .f32) (b : FVec Ideal S1x128 .f32) (a : FVec Ideal S1x1 .f32)
    (m v g be : FVec Ideal S1x128 .f32) : S800000x128.Idx → EReal := fun i => Gc A Z W b a m v g be (i 0) (i 1)

/-- What point `t` writes back is block `t` of that function. -/
theorem flushed_eq (c : Dev nD) (A Z : FVec Ideal S800000x128 .f32) (W : FVec Ideal S128x128 .f32) (b : FVec Ideal S1x128 .f32)
    (a : FVec Ideal S1x1 .f32) (m v g be : FVec Ideal S1x128 .f32)
    (hA : V c main_v33 = A) (hZ : V c main_v16 = Z) (hW : V c main_v1 = W) (hb : V c main_v2 = b) (ha : V c main_v3 = a)
    (hm : V c main_v49 = m) (hv : V c main_v50 = v) (hg : V c main_v4 = g) (hbe : V c main_v5 = be) (t : Fin cfg2.N) :
    (dat2 (F := Ideal) V c).flushed 9 t = ((cfg2.win 9).blk t).view.read (Elt Ideal) (G A Z W b a m v g be) := by
  show (cfg2.win 9).cut (grid2.coords t) ((dat2 V c).after 9 t) = _
  rw [after2_9]
  unfold out2_9
  rw [View.canon_unit_zero hz]
  simp only [View.ld_unit_zero (S := S4000x128) hz, View.ld_unit_zero (S := S128x128) hz, View.ld_unit_zero (S := S1x128) hz,
    View.ld_unit_zero (S := S1x1) hz]
  funext j
  obtain ⟨p, q, rfl⟩ : ∃ (p : Fin 4000) (q : Fin 128), j = ix2 p q := ⟨j 0, j 1, eq_ix2 j⟩
  show k2_pay1 (k2_pay2 (iblk2 V c 0 t) (iblk2 V c 2 t) (iblk2 V c 3 t) (iblk2 V c 4 t) (iblk2 V c 6 t) (iblk2 V c 5 t) (iblk2 V c 7 t)
      (iblk2 V c 8 t)) (iblk2 V c 1 t) (ix2 p q) = G A Z W b a m v g be (((cfg2.win 9).blk t).view.emb (ix2 p q))
  rw [emb9 t p q]
  refine (pay_at (iblk2 V c 0 t) (iblk2 V c 2 t) (iblk2 V c 3 t) (iblk2 V c 4 t) (iblk2 V c 6 t) (iblk2 V c 5 t) (iblk2 V c 7 t)
    (iblk2 V c 8 t) (iblk2 V c 1 t) p q).trans ?_
  simp only [blk0 V c A hA t, blk1 V c Z hZ t, blk2 V c W hW t, blk3 V c b hb t, blk4 V c a ha t, blk5 V c m hm t, blk6 V c v hv t,
    blk7 V c g hg t, blk8 V c be hbe t]
  rfl

/-- An index of the array is in point `t`'s block iff each coordinate is in the block's range on its axis. -/
theorem mem_blk (t : Fin cfg2.N) (i : S800000x128.Idx) :
    i ∈ ((cfg2.win 9).blk t).view.set ↔ ∀ a : Fin 2, win2_9.index t a * S4000x128.size a ≤ (i a).val ∧ (i a).val < win2_9.index t a * S4000x128.size a + S4000x128.size a := by
  show i ∈ ((View.whole main_v51).slice (win2_9.rect t)).set ↔ _
  rw [View.set_slice_whole, Rect.mem_set_unit]
  exact Iff.rfl

/-- Every row lies in exactly one block, block `r / 4000`; that point writes it back. -/
theorem cover (i : S800000x128.Idx) :
    ∃ t : Fin cfg2.N, (cfg2.win 9).flush t = true ∧ i ∈ ((cfg2.win 9).blk t).view.set := by
  have hi0 : (i 0).val < 800000 := (i 0).isLt
  have hi1 : (i 1).val < 128 := (i 1).isLt
  have hlt : (i 0).val / 4000 < cfg2.N := lt_of_lt_of_eq (by omega : (i 0).val / 4000 < 200) N_2.symm
  obtain ⟨-, -, -, -, -, -, -, -, -, -, -, -, -, -, -, -, -, -, e90, e91⟩ := idx_facts ⟨(i 0).val / 4000, hlt⟩
  refine ⟨⟨(i 0).val / 4000, hlt⟩, flush2_9 _, ?_⟩
  rw [mem_blk]
  intro a
  match a with
  | ⟨0, _⟩ =>
    show win2_9.index ⟨(i 0).val / 4000, hlt⟩ (0 : Fin 2) * 4000 ≤ (i 0).val
      ∧ (i 0).val < win2_9.index ⟨(i 0).val / 4000, hlt⟩ (0 : Fin 2) * 4000 + 4000
    rw [e90]
    show (i 0).val / 4000 * 4000 ≤ (i 0).val ∧ (i 0).val < (i 0).val / 4000 * 4000 + 4000
    omega
  | ⟨1, _⟩ =>
    show win2_9.index ⟨(i 0).val / 4000, hlt⟩ (1 : Fin 2) * 128 ≤ (i 1).val
      ∧ (i 1).val < win2_9.index ⟨(i 0).val / 4000, hlt⟩ (1 : Fin 2) * 128 + 128
    rw [e91]
    omega

/-- The array after the region. -/
theorem final (c : Dev nD) (A Z : FVec Ideal S800000x128 .f32) (W : FVec Ideal S128x128 .f32) (b : FVec Ideal S1x128 .f32)
    (a : FVec Ideal S1x1 .f32) (m v g be : FVec Ideal S1x128 .f32)
    (hA : V c main_v33 = A) (hZ : V c main_v16 = Z) (hW : V c main_v1 = W) (hb : V c main_v2 = b) (ha : V c main_v3 = a)
    (hm : V c main_v49 = m) (hv : V c main_v50 = v) (hg : V c main_v4 = g) (hbe : V c main_v5 = be) :
    (dat2 (F := Ideal) V c).arrAt 9 cfg2.N = G A Z W b a m v g be :=
  (dat2 (F := Ideal) V c).arrAt_eq_of_cover 9 (G A Z W b a m v g be)
    (fun t _ => flushed_eq V c A Z W b a m v g be hA hZ hW hb ha hm hv hg hbe t) cover

/-- The array region 2 leaves in its output window, entry by entry. -/
theorem value (c : Dev nD) (A Z : FVec Ideal S800000x128 .f32) (x3 : FVec Ideal S128x128 .f32)
    (x4 : FVec Ideal S128 .f32) (x5 : FVec Ideal S1 .f32)
    (mean var x6 x7 : FVec Ideal S128 .f32)
    (hA : V c main_v33 = A) (hZ : V c main_v16 = Z) (hW : V c main_v1 = Cert.KForm.kT1 x3) (hb : V c main_v2 = Cert.KForm.kRow x4)
    (ha : V c main_v3 = Cert.KForm.kRow1 x5) (hm : V c main_v49 = Cert.KForm.kRow mean) (hv : V c main_v50 = Cert.KForm.kRow var)
    (hg : V c main_v4 = Cert.KForm.kRow x6) (hbeta : V c main_v5 = Cert.KForm.kRow x7) (r : Fin 800000) (d : Fin 128) :
    (dat2 (F := Ideal) V c).arrAt 9 cfg2.N (ix2 r d)
      = Z (ix2 r d) + ((Cert.Pure.hAt A x3 x4 x5 r d - mean (ix1 d)) * Ideal.rsqrt (var (ix1 d) + Ideal.ofBits .f32 0x3727C5AC#32) * x6 (ix1 d)
          + x7 (ix1 d)) := by
  rw [final V c A Z _ _ _ _ _ _ _ hA hZ hW hb ha hm hv hg hbeta]
  show Gc A Z (Cert.KForm.kT1 x3) (Cert.KForm.kRow x4) (Cert.KForm.kRow1 x5) (Cert.KForm.kRow mean) (Cert.KForm.kRow var)
    (Cert.KForm.kRow x6) (Cert.KForm.kRow x7) r d = _
  unfold Gc
  simp only [kT1_at, kRow_at, kRow1_at]
  rfl

end Cert.KReg2

end
-- ==== Proof.Spec.lean ====
/-
  The reference's stages as functions of the INTERMEDIATE arrays.

  The reference computes, in order: the node projection `P = x · W_projᵀ`; the fused edge features
  `Z = edge_attr + (P[src] + P[dst]) · ½`; the line-graph aggregate `A`, the mean of `Z[line_src]` over the edges that
  share a `line_dst` (a sum scattered by `line_dst`, divided by the count clamped below at one); the activation
  `H = prelu (A · W1ᵀ + b1)`; its batch statistics over the 800000 edges, `mean = (Σ H)/E` and
  `var = (Σ (H − mean)²)/E`, per channel; the normalised update `Z' = Z + ((H − mean) · rsqrt (var + ε) · γ + β)`; and
  the node update, the mean of `Z'` over the edges that share a `dst`.

  The generated read-back of the reference names each of these as a function of the ARGUMENTS. Here each is stated
  once more as a function of the stage before it, so that a region of the kernel program, which sees only the arrays
  it is handed, can be compared with one stage; each `…_eq` lemma says the generated name is that function of the
  generated name before it (they unfold to the same term).
-/
import proofs.«415791_j54597624267061_2_alg».proof.Proof.RefRead

set_option maxRecDepth 16384

noncomputable section

namespace Cert.Spec

open Cert.ReferenceIdeal Cert.ReferenceIdeal.Gen Cert.ReferenceIdeal.ReadP Idealize.ShloMosaic

/-- `Z` from the projection `P`: `edge_attr + (P[src] + P[dst]) · ½`, the two index rows of `edge_index` read as the
    reference reads them (a negative index counted from the end, then clamped into the array by the gather). -/
def fusedOf (P : FVec Ideal S50000x128 .f32) (x1 : FVec Ideal S800000x128 .f32) (x8 : IVec S2x800000 32) :
    FVec Ideal S800000x128 .f32 :=
  addf x1 (mulf (addf
      (Host.gather gather_S50000x128_S800000x1_S800000x128_1_0_n_n_0_1_1128 P (val_main_v11 (F := Ideal) x8))
      (Host.gather gather_S50000x128_S800000x1_S800000x128_1_0_n_n_0_1_1128 P (val_main_v18 (F := Ideal) x8)))
    (val_main_v21 (F := Ideal)))

theorem v23_eq (x0 : FVec Ideal S50000x256 .f32) (x1 : FVec Ideal S800000x128 .f32) (x2 : FVec Ideal S128x256 .f32)
    (x8 : IVec S2x800000 32) :
    val_main_v23 (F := Ideal) x0 x1 x2 x8 = fusedOf (val_main_v5 (F := Ideal) x0 x2) x1 x8 := rfl

/-- `A` from `Z`: the rows `Z[line_src]` summed by `line_dst`, over the count of each `line_dst` clamped below at one. -/
def aggOf (Z : FVec Ideal S800000x128 .f32) (x9 : IVec S2x1600000 32) : FVec Ideal S800000x128 .f32 :=
  Host.divf
    (Host.scatterAdd scatter_S800000x128_S1600000x1_S1600000x128_1_0_0_1 (val_main_v35 (F := Ideal)) (val_main_v36 (F := Ideal) x9)
      (Host.gather gather_S800000x128_S1600000x1_S1600000x128_1_0_n_n_0_1_1128 Z (val_main_v33 (F := Ideal) x9)))
    (val_main_v45 (F := Ideal) x9)

theorem v46_eq (x0 : FVec Ideal S50000x256 .f32) (x1 : FVec Ideal S800000x128 .f32) (x2 : FVec Ideal S128x256 .f32)
    (x8 : IVec S2x800000 32) (x9 : IVec S2x1600000 32) :
    val_main_v46 (F := Ideal) x0 x1 x2 x8 x9 = aggOf (val_main_v23 (F := Ideal) x0 x1 x2 x8) x9 := rfl

/-- The pre-activation `A · W1ᵀ + b1`. -/
def linOf (A : FVec Ideal S800000x128 .f32) (x3 : FVec Ideal S128x128 .f32) (x4 : FVec Ideal S128 .f32) :
    FVec Ideal S800000x128 .f32 :=
  addf (Host.dotGeneral (φ₁ := .f32) (φ₂ := .f32) dot_S800000x128_S128x128_S800000x128_1_0_0_1_n_n none A
      (val_main_v47 (F := Ideal) x3))
    (val_main_v50 (F := Ideal) x4)

/-- `H` from `A`: `z` where `z ≥ 0` and `a · z` elsewhere, `z = A · W1ᵀ + b1`. -/
def actOf (A : FVec Ideal S800000x128 .f32) (x3 : FVec Ideal S128x128 .f32) (x4 : FVec Ideal S128 .f32)
    (x5 : FVec Ideal S1 .f32) : FVec Ideal S800000x128 .f32 :=
  select (cmpf .oge (linOf A x3 x4) (val_main_v52 (F := Ideal))) (linOf A x3 x4)
    (mulf (val_main_v55 (F := Ideal) x5) (linOf A x3 x4))

theorem v57_eq (x0 : FVec Ideal S50000x256 .f32) (x1 : FVec Ideal S800000x128 .f32) (x2 : FVec Ideal S128x256 .f32)
    (x3 : FVec Ideal S128x128 .f32) (x4 : FVec Ideal S128 .f32) (x5 : FVec Ideal S1 .f32)
    (x8 : IVec S2x800000 32) (x9 : IVec S2x1600000 32) :
    val_main_v57 (F := Ideal) x0 x1 x2 x3 x4 x5 x8 x9 = actOf (val_main_v46 (F := Ideal) x0 x1 x2 x8 x9) x3 x4 x5 := rfl

/-- The per-channel mean of `H` over the edges. -/
def meanOf (H : FVec Ideal S800000x128 .f32) : FVec Ideal S128 .f32 :=
  Host.divf (Host.reduceAdd H (val_main_cst_10 (F := Ideal)) reducesTo_S800000x128_S128_d0 h_S_) (val_main_v59 (F := Ideal))

theorem v60_eq (x0 : FVec Ideal S50000x256 .f32) (x1 : FVec Ideal S800000x128 .f32) (x2 : FVec Ideal S128x256 .f32)
    (x3 : FVec Ideal S128x128 .f32) (x4 : FVec Ideal S128 .f32) (x5 : FVec Ideal S1 .f32)
    (x8 : IVec S2x800000 32) (x9 : IVec S2x1600000 32) :
    val_main_v60 (F := Ideal) x0 x1 x2 x3 x4 x5 x8 x9 = meanOf (val_main_v57 (F := Ideal) x0 x1 x2 x3 x4 x5 x8 x9) := rfl

/-- A per-channel row `[128]` spread over the edges, `[800000, 128]`. -/
def spread (v : FVec Ideal S128 .f32) : FVec Ideal S800000x128 .f32 :=
  broadcastInDim S800000x128 ![0, 1] bcast_S1x128_S800000x128_0_1 (broadcastInDim S1x128 ![1] bcast_S128_S1x128_1 v)

/-- The per-channel (biased) variance of `H`: the mean of the squared deviations from `mean`. -/
def varOf (H : FVec Ideal S800000x128 .f32) (mean : FVec Ideal S128 .f32) : FVec Ideal S128 .f32 :=
  Host.divf (Host.reduceAdd (mulf (subf H (spread mean)) (subf H (spread mean))) (val_main_cst_12 (F := Ideal))
      reducesTo_S800000x128_S128_d0 h_S_) (val_main_v66 (F := Ideal))

theorem v67_eq (x0 : FVec Ideal S50000x256 .f32) (x1 : FVec Ideal S800000x128 .f32) (x2 : FVec Ideal S128x256 .f32)
    (x3 : FVec Ideal S128x128 .f32) (x4 : FVec Ideal S128 .f32) (x5 : FVec Ideal S1 .f32)
    (x8 : IVec S2x800000 32) (x9 : IVec S2x1600000 32) :
    val_main_v67 (F := Ideal) x0 x1 x2 x3 x4 x5 x8 x9
      = varOf (val_main_v57 (F := Ideal) x0 x1 x2 x3 x4 x5 x8 x9) (val_main_v60 (F := Ideal) x0 x1 x2 x3 x4 x5 x8 x9) := rfl

/-- `Z'` from `Z`, `H` and the statistics: `Z + ((H − mean) · rsqrt (var + ε) · γ + β)`. -/
def bnOf (Z H : FVec Ideal S800000x128 .f32) (mean var x6 x7 : FVec Ideal S128 .f32) : FVec Ideal S800000x128 .f32 :=
  addf Z (addf (mulf (mulf (subf H (spread mean)) (spread (Host.rsqrt (addf var (val_main_v71 (F := Ideal))))))
      (val_main_v78 (F := Ideal) x6)) (val_main_v81 (F := Ideal) x7))

theorem v83_eq (x0 : FVec Ideal S50000x256 .f32) (x1 : FVec Ideal S800000x128 .f32) (x2 : FVec Ideal S128x256 .f32)
    (x3 : FVec Ideal S128x128 .f32) (x4 : FVec Ideal S128 .f32) (x5 : FVec Ideal S1 .f32) (x6 x7 : FVec Ideal S128 .f32)
    (x8 : IVec S2x800000 32) (x9 : IVec S2x1600000 32) :
    val_main_v83 (F := Ideal) x0 x1 x2 x3 x4 x5 x6 x7 x8 x9
      = bnOf (val_main_v23 (F := Ideal) x0 x1 x2 x8) (val_main_v57 (F := Ideal) x0 x1 x2 x3 x4 x5 x8 x9)
          (val_main_v60 (F := Ideal) x0 x1 x2 x3 x4 x5 x8 x9) (val_main_v67 (F := Ideal) x0 x1 x2 x3 x4 x5 x8 x9) x6 x7 := rfl

/-- The node update from `Z'`: its rows summed by `dst`, over the count of each `dst` clamped below at one. -/
def outOf (Z' : FVec Ideal S800000x128 .f32) (x8 : IVec S2x800000 32) : FVec Ideal S50000x128 .f32 :=
  Host.divf (Host.scatterAdd scatter_S50000x128_S800000x1_S800000x128_1_0_0_1 (val_main_v84 (F := Ideal)) (val_main_v85 (F := Ideal) x8) Z')
    (val_main_v94 (F := Ideal) x8)

theorem v95_eq (x0 : FVec Ideal S50000x256 .f32) (x1 : FVec Ideal S800000x128 .f32) (x2 : FVec Ideal S128x256 .f32)
    (x3 : FVec Ideal S128x128 .f32) (x4 : FVec Ideal S128 .f32) (x5 : FVec Ideal S1 .f32) (x6 x7 : FVec Ideal S128 .f32)
    (x8 : IVec S2x800000 32) (x9 : IVec S2x1600000 32) :
    val_main_v95 (F := Ideal) x0 x1 x2 x3 x4 x5 x6 x7 x8 x9 = outOf (val_main_v83 (F := Ideal) x0 x1 x2 x3 x4 x5 x6 x7 x8 x9) x8 := rfl

end Cert.Spec

end
-- ==== Proof.SpecApply.lean ====
/-
  The stages of `Spec.lean` read at an index, as plain sums and products of extended reals.

  At an edge `r` and a channel `d`: the projection is `Σ k, x[r,k] · W_proj[d,k]`; the pre-activation is
  `z = Σ k, A[r,k] · W1[d,k] + b1[d]`; the activation is `z` when `0 ≤ z` and `a · z` otherwise; the mean over the
  edges is `(Σ r, H[r,d]) / 800000`, the variance `(Σ r, (H[r,d] − mean[d])²) / 800000`; the normalised update is
  `Z[r,d] + ((H[r,d] − mean[d]) · rsqrt (var[d] + ε) · γ[d] + β[d])`. The zero accumulators and zero initial values of
  the sums drop out (`0 + s = s` on the extended reals), and the divisor's word is the number 800000.
-/
import proofs.«415791_j54597624267061_2_alg».proof.Proof.Spec
import proofs.«415791_j54597624267061_2_alg».proof.Proof.Alg
import proofs.«415791_j54597624267061_2_alg».proof.Proof.Pure
import Idealize.ShloMosaic.Lib.ValueIdx
import Idealize.ShloMosaic.Lib.Pipeline.Value
import Idealize.ShloMosaic.PureOps.Ideal.Laws
import Mathlib.Logic.Equiv.Fin.Basic
import Mathlib.Algebra.BigOperators.Fin

noncomputable section

namespace Cert.Spec

open Cert.ReferenceIdeal Cert.ReferenceIdeal.Gen Cert.ReferenceIdeal.ReadP Idealize.ShloMosaic Idealize.ShloMosaic.ValueIdx

/-! ## Small readings shared by the stages -/

/-- A per-channel row spread over the edges reads, at edge `r` and channel `d`, the row's entry `d`: the first
    broadcast puts the channel on the second axis of a one-row array, the second repeats that row for every edge. -/
theorem spread_apply (v : FVec Ideal S128 .f32) (r : Fin 800000) (d : Fin 128) : spread v (ix2 r d) = v (ix1 d) := by
  show val_main_v50 (F := Ideal) v (ix2 r d) = v (ix1 d)
  rw [val_main_v50_apply, val_main_v49_apply]
  exact congrArg v (funext fun a => Fin.ext (by match a with | ⟨0, _⟩ => rfl))

/-- A sum over the edge axis that starts from zero: at channel `d` it is the plain sum of the column `d`. -/
theorem reduce0_apply (X : FVec Ideal S800000x128 .f32) (init : FVec Ideal S_ .f32)
    (h0 : init (Shape.Idx.first h_S_) = 0) (d : Fin 128) :
    Host.reduceAdd X init reducesTo_S800000x128_S128_d0 h_S_ (ix1 d) = ∑ r : Fin 800000, X (ix2 r d) := by
  simp only [Host.reduceAdd, Ideal.hostReduceAdd_def]
  rw [Ideal.hostReduceAdd_single reducesTo_S800000x128_S128_d0 (by decide), h0, zero_add]
  refine Finset.sum_congr rfl fun k _ => ?_
  exact congrArg X (funext fun a => Fin.ext (by match a with | ⟨0, _⟩ => rfl | ⟨1, _⟩ => rfl))

/-- The divisor of the mean: the word `0x49435000` is the number 800000. -/
theorem v59_apply (d : Fin 128) : val_main_v59 (F := Ideal) (ix1 d) = ((800000 : ℝ) : EReal) := by
  rw [val_main_v59_apply, val_main_cst_11_apply]
  exact Alg.ofBits_800000

/-- The divisor of the variance: the same number. -/
theorem v66_apply (d : Fin 128) : val_main_v66 (F := Ideal) (ix1 d) = ((800000 : ℝ) : EReal) := by
  rw [val_main_v66_apply, val_main_cst_13_apply]
  exact Alg.ofBits_800000

/-- The threshold of the activation is zero. -/
theorem v52_apply (r : Fin 800000) (d : Fin 128) : val_main_v52 (F := Ideal) (ix2 r d) = 0 := by
  rw [val_main_v52_apply, val_main_cst_9_apply]
  exact Alg.ofBits_zero

/-- The slope of the activation, spread over every edge and channel, is its one entry. -/
theorem v55_apply (x5 : FVec Ideal S1 .f32) (r : Fin 800000) (d : Fin 128) :
    val_main_v55 (F := Ideal) x5 (ix2 r d) = x5 (ix1 0) := by
  rw [val_main_v55_apply, val_main_v54_apply]
  exact congrArg x5 (funext fun a => Fin.ext (by match a with | ⟨0, _⟩ => rfl))

/-- The small number under the reciprocal square root, at every channel. -/
theorem v71_apply (d : Fin 128) : val_main_v71 (F := Ideal) (ix1 d) = Ideal.ofBits .f32 0x3727C5AC#32 := by
  rw [val_main_v71_apply, val_main_cst_14_apply]
  rfl

/-! ## The stages -/

/-- The projection at a node `r` and a channel `d`. -/
theorem v5_apply (x0 : FVec Ideal S50000x256 .f32) (x2 : FVec Ideal S128x256 .f32) (r : Fin 50000) (d : Fin 128) :
    val_main_v5 (F := Ideal) x0 x2 (ix2 r d) = ∑ k : Fin 256, x0 (ix2 r k) * x2 (ix2 d k) := by
  rw [val_main_v5_apply]
  refine Finset.sum_congr rfl fun k _ => ?_
  rw [val_main_v4_apply]
  have e1 : lidx_main_v5 (ix2 r d) k = ix2 r k :=
    funext fun a => Fin.ext (by match a with | ⟨0, _⟩ => rfl | ⟨1, _⟩ => rfl)
  have e2 : idx_main_v4 (ridx_main_v5 (ix2 r d) k) = ix2 d k :=
    funext fun a => Fin.ext (by match a with | ⟨0, _⟩ => rfl | ⟨1, _⟩ => rfl)
  rw [e1, e2]

/-- The pre-activation at an edge `r` and a channel `d`: the contraction over the 128 input channels of `A`'s row
    with `W1`'s row `d` (the second operand is `W1` transposed), plus the bias. -/
theorem linOf_apply (A : FVec Ideal S800000x128 .f32) (x3 : FVec Ideal S128x128 .f32) (x4 : FVec Ideal S128 .f32)
    (r : Fin 800000) (d : Fin 128) :
    linOf A x3 x4 (ix2 r d) = Cert.Pure.zAt A x3 x4 r d := by
  unfold linOf Cert.Pure.zAt
  rw [addf_apply]
  have hb : val_main_v50 (F := Ideal) x4 (ix2 r d) = x4 (ix1 d) := spread_apply x4 r d
  rw [hb]
  refine congrArg (· + x4 (ix1 d)) ?_
  simp only [Host.dotGeneral]
  rw [Ideal.dotGeneral_apply,
    ← Equiv.sum_comp (contrEquiv1 dot_S800000x128_S128x128_S800000x128_1_0_0_1_n_n 128 rfl rfl).symm]
  refine Finset.sum_congr rfl fun k _ => ?_
  have hk := contrEquiv1_symm_val dot_S800000x128_S128x128_S800000x128_1_0_0_1_n_n 128 rfl rfl k
  generalize (contrEquiv1 dot_S800000x128_S128x128_S800000x128_1_0_0_1_n_n 128 rfl rfl).symm k = q at hk
  rw [val_main_v47_apply]
  have el : dot_S800000x128_S128x128_S800000x128_1_0_0_1_n_n.lhsIdx (ix2 r d) q = ix2 r k :=
    funext fun a => Fin.ext (by
      match a with
      | ⟨0, _⟩ => exact lhs_main_v48_0 (ix2 r d) q
      | ⟨1, _⟩ => exact (lhs_main_v48_1 (ix2 r d) q).trans hk)
  have er : idx_main_v47 (dot_S800000x128_S128x128_S800000x128_1_0_0_1_n_n.rhsIdx (ix2 r d) q) = ix2 d k :=
    funext fun a => Fin.ext (by
      match a with
      | ⟨0, _⟩ => exact rhs_main_v48_1 (ix2 r d) q
      | ⟨1, _⟩ => exact (rhs_main_v48_0 (ix2 r d) q).trans hk)
  rw [el, er]

theorem actOf_apply (A : FVec Ideal S800000x128 .f32) (x3 : FVec Ideal S128x128 .f32) (x4 : FVec Ideal S128 .f32)
    (x5 : FVec Ideal S1 .f32) (r : Fin 800000) (d : Fin 128) :
    actOf A x3 x4 x5 (ix2 r d) = Cert.Pure.hAt A x3 x4 x5 r d := by
  unfold actOf Cert.Pure.hAt
  rw [select_apply, cmpf_apply, mulf_apply, linOf_apply, v52_apply, v55_apply]
  generalize Cert.Pure.zAt A x3 x4 r d = z
  -- the comparison `z ≥ 0` on the extended reals is the one bit that says `0 ≤ z`
  have hc : FloatOps.cmpf (F := Ideal) (φ := .f32) .oge z 0 = BitVec.ofBool (decide ((0 : EReal) ≤ z)) := rfl
  rw [hc]
  by_cases h : (0 : EReal) ≤ z
  · rw [if_pos h, decide_eq_true h]
    exact select_one _ _
  · rw [if_neg h, decide_eq_false h]
    exact select_zero _ _

theorem meanOf_apply (H : FVec Ideal S800000x128 .f32) (d : Fin 128) :
    meanOf H (ix1 d) = Ideal.div (∑ r : Fin 800000, H (ix2 r d)) ((800000 : ℝ) : EReal) := by
  unfold meanOf
  show Ideal.div (Host.reduceAdd H (val_main_cst_10 (F := Ideal)) reducesTo_S800000x128_S128_d0 h_S_ (ix1 d))
      (val_main_v59 (F := Ideal) (ix1 d)) = _
  rw [reduce0_apply H _ Alg.ofBits_zero d, v59_apply]

theorem varOf_apply (H : FVec Ideal S800000x128 .f32) (mean : FVec Ideal S128 .f32) (d : Fin 128) :
    varOf H mean (ix1 d)
      = Ideal.div (∑ r : Fin 800000, (H (ix2 r d) - mean (ix1 d)) * (H (ix2 r d) - mean (ix1 d))) ((800000 : ℝ) : EReal) := by
  unfold varOf
  show Ideal.div (Host.reduceAdd (mulf (subf H (spread mean)) (subf H (spread mean))) (val_main_cst_12 (F := Ideal))
      reducesTo_S800000x128_S128_d0 h_S_ (ix1 d)) (val_main_v66 (F := Ideal) (ix1 d)) = _
  have e : ∀ r : Fin 800000, mulf (subf H (spread mean)) (subf H (spread mean)) (ix2 r d)
      = (H (ix2 r d) - mean (ix1 d)) * (H (ix2 r d) - mean (ix1 d)) := fun r => by
    rw [mulf_apply, subf_apply, spread_apply]
  rw [reduce0_apply _ _ Alg.ofBits_zero d, v66_apply, Finset.sum_congr rfl fun r _ => e r]

theorem bnOf_apply (Z H : FVec Ideal S800000x128 .f32) (mean var x6 x7 : FVec Ideal S128 .f32) (r : Fin 800000) (d : Fin 128) :
    bnOf Z H mean var x6 x7 (ix2 r d)
      = Z (ix2 r d) + ((H (ix2 r d) - mean (ix1 d)) * Ideal.rsqrt (var (ix1 d) + Ideal.ofBits .f32 0x3727C5AC#32) * x6 (ix1 d)
          + x7 (ix1 d)) := by
  unfold bnOf
  have h6 : val_main_v78 (F := Ideal) x6 (ix2 r d) = x6 (ix1 d) := spread_apply x6 r d
  have h7 : val_main_v81 (F := Ideal) x7 (ix2 r d) = x7 (ix1 d) := spread_apply x7 r d
  rw [addf_apply, addf_apply, mulf_apply, mulf_apply, subf_apply, spread_apply, spread_apply, h6, h7]
  show Z (ix2 r d) + ((H (ix2 r d) - mean (ix1 d)) * Ideal.rsqrt (var (ix1 d) + val_main_v71 (F := Ideal) (ix1 d)) * x6 (ix1 d)
      + x7 (ix1 d)) = _
  rw [v71_apply]

/-- A sum over the 800000 edges is the sum over the two halves of 400000 (one per core of the statistics kernel). -/
theorem sum_halves (f : Fin 800000 → EReal) :
    ∑ r : Fin 800000, f r = ∑ k : Fin 2, ∑ i : Fin 400000, f ⟨k.val * 400000 + i.val, by omega⟩ := by
  refine (Equiv.sum_comp (finProdFinEquiv (m := 2) (n := 400000)) f).symm.trans ?_
  rw [Fintype.sum_prod_type]
  refine Finset.sum_congr rfl fun k _ => Finset.sum_congr rfl fun i _ => congrArg f (Fin.ext ?_)
  show i.val + 400000 * k.val = k.val * 400000 + i.val
  omega

end Cert.Spec

end
-- ==== Proof.BridgeA.lean ====
/-
  The kernel program's host stretches against the reference's stages: where the two spell the same array differently.

  The reference reads an index row of `edge_index` as Python does, a negative index counted from the end
  (`i + 50000` when `i < 0`), before its gather clamps it; the kernel program hands the row to the gather as it is.
  On a non-negative index the two agree, so under the precondition (every such index ≥ 0) the gathered rows are the
  same, and the fused features differ only in the order of the factors of `½ · (…)`. The segment means are the same
  operations on both sides. An array given entry by entry by the projection's sum, or by the normalised update's
  expression, is the reference's stage of that name (its read-at-an-index lemma says so).
-/
import proofs.«415791_j54597624267061_2_alg».proof.Proof.KForm
import proofs.«415791_j54597624267061_2_alg».proof.Proof.Spec
import proofs.«415791_j54597624267061_2_alg».proof.Proof.SpecApply
import proofs.«415791_j54597624267061_2_alg».proof.Proof.Alg
import proofs.«415791_j54597624267061_2_alg».proof.Proof.Pure
import Idealize.ShloMosaic.Lib.ValueIdx
import Idealize.ShloMosaic.Lib.Pipeline.Value

noncomputable section

namespace Cert.BridgeA

open Cert.ReferenceIdeal Cert.ReferenceIdeal.Gen Cert.ReferenceIdeal.ReadP Idealize.ShloMosaic Idealize.ShloMosaic.ValueIdx
open Cert.KForm Cert.Spec Cert.Alg

/-- A word that is not negative, read signed, is not below zero. -/
theorem cmpi_slt_zero_of_nonneg (w : BitVec 32) (h : 0 ≤ w.toInt) : IntOp.cmpi .slt w 0#32 = 0#1 := by
  have hlt : w.slt 0#32 = false := by
    simp only [BitVec.slt, BitVec.toInt_zero, decide_eq_false_iff_not, Int.not_lt]
    exact h
  show BitVec.ofBool (w.slt 0#32) = 0#1
  rw [hlt]
  rfl

/-! ### The index rows: the reference's wrapped row is the plain row where no index is negative -/

/-- Row 0 of `edge_index` is spelt the same way by both programs. -/
theorem v1_eq (x8 : IVec S2x800000 32) : val_main_v1 (F := Ideal) x8 = kSrc x8 := rfl

/-- Row 1 of `edge_index` is spelt the same way by both programs. -/
theorem v3_eq (x8 : IVec S2x800000 32) : val_main_v3 (F := Ideal) x8 = kDst x8 := rfl

/-- Row 0 of `line_graph_edge_index` is spelt the same way by both programs. -/
theorem v25_eq (x9 : IVec S2x1600000 32) : val_main_v25 (F := Ideal) x9 = kLSrc x9 := rfl

/-- Row 1 of `line_graph_edge_index` is spelt the same way by both programs. -/
theorem v27_eq (x9 : IVec S2x1600000 32) : val_main_v27 (F := Ideal) x9 = kLDst x9 := rfl

/-- The reference's source row, after its Python-style wrap, is the plain row. -/
theorem v10_eq (x8 : IVec S2x800000 32) (h8 : ∀ i, 0 ≤ (x8 i).toInt) : val_main_v10 (F := Ideal) x8 = kSrc x8 := by
  funext i
  have hn : 0 ≤ (val_main_v1 (F := Ideal) x8 i).toInt := by
    rw [val_main_v1_apply, val_main_v0_apply]; exact h8 _
  rw [val_main_v10_apply, val_main_v7_apply, val_main_v6_apply, val_main_c_apply, cmpi_slt_zero_of_nonneg _ hn,
    select_zero, v1_eq]

/-- The reference's destination row, after its Python-style wrap, is the plain row. -/
theorem v17_eq (x8 : IVec S2x800000 32) (h8 : ∀ i, 0 ≤ (x8 i).toInt) : val_main_v17 (F := Ideal) x8 = kDst x8 := by
  funext i
  have hn : 0 ≤ (val_main_v3 (F := Ideal) x8 i).toInt := by
    rw [val_main_v3_apply, val_main_v2_apply]; exact h8 _
  rw [val_main_v17_apply, val_main_v14_apply, val_main_v13_apply, val_main_c_1_apply, cmpi_slt_zero_of_nonneg _ hn,
    select_zero, v3_eq]

/-- The reference's line-graph source row, after its wrap, is the plain row. -/
theorem v32_eq (x9 : IVec S2x1600000 32) (h9 : ∀ e : Fin 1600000, 0 ≤ (x9 (ix2 (0 : Fin 2) e)).toInt) :
    val_main_v32 (F := Ideal) x9 = kLSrc x9 := by
  funext i
  have hn : 0 ≤ (val_main_v25 (F := Ideal) x9 i).toInt := by
    rw [val_main_v25_apply, val_main_v24_apply]
    have hi : idx_main_v24 (idx_main_v25 i) = ix2 (0 : Fin 2) (i 0) := by
      funext a
      match a with
      | ⟨0, _⟩ => rfl
      | ⟨1, _⟩ => exact Fin.ext (Nat.mod_eq_of_lt (i 0).isLt)
    rw [hi]; exact h9 _
  rw [val_main_v32_apply, val_main_v29_apply, val_main_v28_apply, val_main_c_3_apply, cmpi_slt_zero_of_nonneg _ hn,
    select_zero, v25_eq]

/-- The reference's source row as the gather's index column is the kernel program's. -/
theorem v11_eq (x8 : IVec S2x800000 32) (h8 : ∀ i, 0 ≤ (x8 i).toInt) :
    val_main_v11 (F := Ideal) x8
      = broadcastInDim Cert.KernelIdeal.S800000x1 ![0] Cert.KernelIdeal.Facts₀.bcast_S800000_S800000x1_0 (kSrc x8) := by
  unfold val_main_v11
  rw [v10_eq x8 h8]

/-- The reference's destination row as the gather's index column is the kernel program's. -/
theorem v18_eq (x8 : IVec S2x800000 32) (h8 : ∀ i, 0 ≤ (x8 i).toInt) :
    val_main_v18 (F := Ideal) x8
      = broadcastInDim Cert.KernelIdeal.S800000x1 ![0] Cert.KernelIdeal.Facts₀.bcast_S800000_S800000x1_0 (kDst x8) := by
  unfold val_main_v18
  rw [v17_eq x8 h8]

/-- The reference's line-graph source row as the gather's index column is the kernel program's. -/
theorem v33_eq (x9 : IVec S2x1600000 32) (h9 : ∀ e : Fin 1600000, 0 ≤ (x9 (ix2 (0 : Fin 2) e)).toInt) :
    val_main_v33 (F := Ideal) x9
      = broadcastInDim Cert.KernelIdeal.S1600000x1 ![0] Cert.KernelIdeal.Facts₀.bcast_S1600000_S1600000x1_0 (kLSrc x9) := by
  unfold val_main_v33
  rw [v32_eq x9 h9]

/-- With non-negative node indices the kernel program's fused features are the reference's. -/
theorem kFused_eq (P : FVec Ideal S50000x128 .f32) (x1 : FVec Ideal S800000x128 .f32) (x8 : IVec S2x800000 32)
    (h8 : ∀ i, 0 ≤ (x8 i).toInt) : kFused P x1 x8 = fusedOf P x1 x8 := by
  unfold kFused fusedOf kTake
  rw [v11_eq x8 h8, v18_eq x8 h8]
  funext j
  simp only [addf_apply, mulf_apply]
  rw [mul_comm]
  rfl

/-- With non-negative line-graph source indices the kernel program's aggregate is the reference's. -/
theorem kAgg_eq (Z : FVec Ideal S800000x128 .f32) (x9 : IVec S2x1600000 32)
    (h9 : ∀ e : Fin 1600000, 0 ≤ (x9 (ix2 (0 : Fin 2) e)).toInt) : kAgg Z x9 = aggOf Z x9 := by
  unfold aggOf
  rw [v33_eq x9 h9]
  rfl

/-- The final segment mean is the same operations on both sides. -/
theorem kOut_eq (Z' : FVec Ideal S800000x128 .f32) (x8 : IVec S2x800000 32) : kOut Z' x8 = outOf Z' x8 := rfl

/-- An array that is the projection's sum entry by entry is the reference's projection. -/
theorem px_eq (P : FVec Ideal S50000x128 .f32) (x0 : FVec Ideal S50000x256 .f32) (x2 : FVec Ideal S128x256 .f32)
    (h : ∀ (r : Fin 50000) (d : Fin 128), P (ix2 r d) = ∑ k : Fin 256, x0 (ix2 r k) * x2 (ix2 d k)) :
    P = val_main_v5 (F := Ideal) x0 x2 := by
  funext j
  obtain ⟨r, d, rfl⟩ : ∃ (r : Fin 50000) (d : Fin 128), j = ix2 r d := ⟨j 0, j 1, eq_ix2 j⟩
  rw [v5_apply, h]

/-- An array that is the normalised update entry by entry, over the activation of `A`, is the reference's stage. -/
theorem bn_eq (Z' Z A : FVec Ideal S800000x128 .f32) (x3 : FVec Ideal S128x128 .f32) (x4 : FVec Ideal S128 .f32)
    (x5 : FVec Ideal S1 .f32) (mean var x6 x7 : FVec Ideal S128 .f32)
    (h : ∀ (r : Fin 800000) (d : Fin 128), Z' (ix2 r d)
        = Z (ix2 r d) + ((Cert.Pure.hAt A x3 x4 x5 r d - mean (ix1 d)) * Ideal.rsqrt (var (ix1 d) + Ideal.ofBits .f32 0x3727C5AC#32) * x6 (ix1 d)
            + x7 (ix1 d))) :
    Z' = bnOf Z (actOf A x3 x4 x5) mean var x6 x7 := by
  funext j
  obtain ⟨r, d, rfl⟩ : ∃ (r : Fin 800000) (d : Fin 128), j = ix2 r d := ⟨j 0, j 1, eq_ix2 j⟩
  rw [bnOf_apply, actOf_apply, h]

end Cert.BridgeA

end
-- ==== Proof.BridgeB.lean ====
/-
  The batch statistics: the kernel program's from its two accumulators, against the reference's.

  Region 1 leaves, per core `k` and channel `d`, the sum of the activations `H[r,d]` and of their squares over the
  core's 400000 rows; the host adds the two cores' (row 0 of each padded block), divides by 800000 for the mean, and
  takes mean of squares less squared mean, clamped below at zero, for the variance. The reference's mean is
  `(Σ r, H[r,d]) / 800000`, the same number since the two halves make up the 800000 rows. Its variance is the mean of
  the squared deviations; for REAL activations that is the same number (the variance identity), which is where the
  finiteness of the inputs is used.
-/
import proofs.«415791_j54597624267061_2_alg».proof.Proof.KForm
import proofs.«415791_j54597624267061_2_alg».proof.Proof.Spec
import proofs.«415791_j54597624267061_2_alg».proof.Proof.SpecApply
import proofs.«415791_j54597624267061_2_alg».proof.Proof.Alg
import proofs.«415791_j54597624267061_2_alg».proof.Proof.Pure
import Idealize.ShloMosaic.Lib.ValueIdx
import Idealize.ShloMosaic.Lib.Pipeline.Value
import Idealize.ShloMosaic.PureOps.Ideal.Laws

noncomputable section

namespace Cert.BridgeB

open Cert.ReferenceIdeal Cert.ReferenceIdeal.Gen Cert.ReferenceIdeal.ReadP Idealize.ShloMosaic Idealize.ShloMosaic.ValueIdx
open Cert.KForm Cert.Spec Cert.Alg

/-- Row 0 of each core's padded block, the two cores added from a zero initial value: at channel `d` the sum of the two
    cores' entries (0, d). Stated over the literal shapes. -/
theorem stat_apply (acc : FVec Ideal ⟨3, ![2, 8, 128]⟩ .f32)
    (hs : (⟨3, ![2, 8, 128]⟩ : Shape).Slices ![0, 0, 0] ⟨3, ![2, 1, 128]⟩)
    (hc : (⟨3, ![2, 1, 128]⟩ : Shape).ShapeCasts ⟨2, ![2, 128]⟩)
    (hr : (⟨2, ![2, 128]⟩ : Shape).ReducesTo [0] ⟨1, ![128]⟩)
    (hz : 0 < (⟨0, ![]⟩ : Shape).numel) (d : Fin 128) :
    Host.reduceAdd (F := Ideal) (shapeCast ⟨2, ![2, 128]⟩ (extractStridedSlice ⟨3, ![2, 1, 128]⟩ ![0, 0, 0] acc hs) hc)
        (constant ⟨0, ![]⟩ .f32 0x00000000#32) hr hz (ix1 d)
      = acc (ix3 (0 : Fin 2) (0 : Fin 8) d) + acc (ix3 (1 : Fin 2) (0 : Fin 8) d) := by
  have hR : (⟨2, ![2, 128]⟩ : Shape).Reduces [0] ⟨1, ![128]⟩ := by decide
  -- the reshaped slice at (k, d) is the accumulator at (k, 0, d): both sit at position k · 128 + d of their rows
  have rd : ∀ k : Fin 2, shapeCast ⟨2, ![2, 128]⟩ (extractStridedSlice ⟨3, ![2, 1, 128]⟩ ![0, 0, 0] acc hs) hc (ix2 k d)
      = acc (ix3 k (0 : Fin 8) d) := fun k => by
    refine (shapeCast_apply _ hc (ix2 k d) (ix3 k (0 : Fin 1) d) ?_).trans ?_
    · rw [Shape.rowMajor_val_two, Shape.rowMajor_val_three]
      show (k.val * 1 + 0) * 128 + d.val = k.val * 128 + d.val
      omega
    · refine extractStridedSlice_apply ![0, 0, 0] acc hs _ (ix3 k (0 : Fin 8) d) fun a => ?_
      match a with
      | ⟨0, _⟩ => exact (Nat.zero_add k.val).symm
      | ⟨1, _⟩ => rfl
      | ⟨2, _⟩ => exact (Nat.zero_add d.val).symm
  show Ideal.hostReduceAdd hr _ (Ideal.ofBits .f32 0x00000000#32) (ix1 d) = _
  rw [Ideal.hostReduceAdd_single hr hR, Ideal.ofBits_zero_f32, zero_add]
  refine (Fin.sum_univ_two _).trans ?_
  have l0 : hR.lift (ix1 d) (0 : Fin 2) = ix2 (0 : Fin 2) d := by
    funext a; match a with | ⟨0, _⟩ => rfl | ⟨1, _⟩ => rfl
  have l1 : hR.lift (ix1 d) (1 : Fin 2) = ix2 (1 : Fin 2) d := by
    funext a; match a with | ⟨0, _⟩ => rfl | ⟨1, _⟩ => rfl
  rw [l0, l1, rd, rd]

/-- The two cores' partial sums added, at channel `d`. -/
theorem kStat_apply (acc : FVec Ideal Cert.KernelIdeal.S2x8x128 .f32) (d : Fin 128) :
    kStat acc (ix1 d) = acc (ix3 (0 : Fin 2) (0 : Fin 8) d) + acc (ix3 (1 : Fin 2) (0 : Fin 8) d) :=
  stat_apply acc _ _ _ _ d

/-- Accumulators that hold each core's sum of `f` over its 400000 rows add up to the sum of `f` over all 800000. -/
theorem kStat_total (acc : FVec Ideal Cert.KernelIdeal.S2x8x128 .f32) (f : Fin 800000 → EReal) (d : Fin 128)
    (h : ∀ (k : Fin 2) (ρ : Fin 8), acc (ix3 k ρ d) = ∑ i : Fin 400000, f ⟨k.val * 400000 + i.val, by omega⟩) :
    kStat acc (ix1 d) = ∑ r : Fin 800000, f r := by
  rw [kStat_apply, h, h, sum_halves f, Fin.sum_univ_two]

/-- The kernel program's mean at channel `d`: the sum of `H[·,d]` over 800000. -/
theorem kMean_apply (acc0 : FVec Ideal Cert.KernelIdeal.S2x8x128 .f32) (H : FVec Ideal S800000x128 .f32)
    (h0 : ∀ (k : Fin 2) (ρ : Fin 8) (d : Fin 128), acc0 (ix3 k ρ d) = ∑ i : Fin 400000, H (ix2 ⟨k.val * 400000 + i.val, by omega⟩ d))
    (d : Fin 128) :
    kMean acc0 (ix1 d) = Ideal.div (∑ r : Fin 800000, H (ix2 r d)) ((800000 : ℝ) : EReal) := by
  show Ideal.div (kStat acc0 (ix1 d)) (Ideal.ofBits .f32 0x49435000#32) = _
  rw [kStat_total acc0 (fun r => H (ix2 r d)) d (fun k ρ => h0 k ρ d), ofBits_800000]

/-- The kernel program's mean, from accumulators that hold each core's sum of `H`, is the reference's mean of `H`. -/
theorem kMean_eq (acc0 : FVec Ideal Cert.KernelIdeal.S2x8x128 .f32) (H : FVec Ideal S800000x128 .f32)
    (h0 : ∀ (k : Fin 2) (ρ : Fin 8) (d : Fin 128), acc0 (ix3 k ρ d) = ∑ i : Fin 400000, H (ix2 ⟨k.val * 400000 + i.val, by omega⟩ d)) :
    kMean acc0 = meanOf H := by
  funext j
  obtain ⟨d, rfl⟩ : ∃ d, j = ix1 d := ⟨j 0, eq_ix1 j⟩
  rw [kMean_apply acc0 H h0, meanOf_apply]

/-- The kernel program's clamped variance, from accumulators that hold each core's sums of `H` and of `H²`, is the
    reference's variance of `H`, when every entry of `H` is a real number. -/
theorem kVar_eq (acc0 acc1 : FVec Ideal Cert.KernelIdeal.S2x8x128 .f32) (H : FVec Ideal S800000x128 .f32)
    (h0 : ∀ (k : Fin 2) (ρ : Fin 8) (d : Fin 128), acc0 (ix3 k ρ d) = ∑ i : Fin 400000, H (ix2 ⟨k.val * 400000 + i.val, by omega⟩ d))
    (h1 : ∀ (k : Fin 2) (ρ : Fin 8) (d : Fin 128), acc1 (ix3 k ρ d)
        = ∑ i : Fin 400000, H (ix2 ⟨k.val * 400000 + i.val, by omega⟩ d) * H (ix2 ⟨k.val * 400000 + i.val, by omega⟩ d))
    (hfin : ∀ j, IsFin (H j)) :
    kVar acc0 acc1 = varOf H (meanOf H) := by
  funext j
  obtain ⟨d, rfl⟩ : ∃ d, j = ix1 d := ⟨j 0, eq_ix1 j⟩
  show max (Ideal.div (kStat acc1 (ix1 d)) (Ideal.ofBits .f32 0x49435000#32)
      - kMean acc0 (ix1 d) * kMean acc0 (ix1 d)) (Ideal.ofBits .f32 0x00000000#32) = _
  rw [kStat_total acc1 (fun r => H (ix2 r d) * H (ix2 r d)) d (fun k ρ => h1 k ρ d),
    kMean_apply acc0 H h0, ofBits_800000, ofBits_zero, varOf_apply, meanOf_apply]
  exact var_identity (fun r => H (ix2 r d)) (fun r => hfin _) 800000 (by simp) (by norm_num)

end Cert.BridgeB

end
-- ==== Proof.Fin.lean ====
/-
  Real inputs give real activations.

  Every stage between the inputs and the activation is built from sums, products, differences, a quotient by a count
  clamped below at one, and a choice between two values: each keeps real numbers real. The projection is a finite sum
  of products of inputs; a gathered row is a row of the array; the fused features add and halve; the aggregate is a
  finite sum of gathered entries (an update landing outside contributes nothing) over a count that is a finite sum of
  ones, clamped below at one; the activation is a finite sum of products plus a bias, or the slope times that.
-/
import proofs.«415791_j54597624267061_2_alg».proof.Proof.Spec
import proofs.«415791_j54597624267061_2_alg».proof.Proof.SpecApply
import proofs.«415791_j54597624267061_2_alg».proof.Proof.Alg
import proofs.«415791_j54597624267061_2_alg».proof.Proof.Pure
import Idealize.ShloMosaic.Lib.ValueIdx
import Idealize.ShloMosaic.PureOps.Ideal.Laws

noncomputable section

namespace Cert.Fin

open Cert.ReferenceIdeal Cert.ReferenceIdeal.Gen Cert.ReferenceIdeal.ReadP Idealize.ShloMosaic Idealize.ShloMosaic.ValueIdx
open Cert.Spec Cert.Alg

/-! ## The literals, as real numbers -/

/-- The word of zero is the real number zero. -/
theorem isFin_ofBits_zero : IsFin (Ideal.ofBits .f32 0x00000000#32) := by
  rw [ofBits_zero]; exact isFin_zero

/-- The word of one is the real number one. -/
theorem isFin_ofBits_one : IsFin (Ideal.ofBits .f32 0x3F800000#32) := by
  rw [ofBits_one]; exact isFin_coe _

/-- The word of one half is the real number one half. -/
theorem isFin_ofBits_half : IsFin (Ideal.ofBits .f32 0x3F000000#32) := by
  rw [ofBits_half]; exact isFin_coe _

/-! ## Three array operations keep real entries real -/

/-- Every entry of a gather is an entry of its operand. -/
theorem isFin_gather {s si t : Shape} {w : Nat} {φ : FTy} (d : GatherDims s si t) (x : FVec Ideal s φ) (idx : IVec si w)
    (hx : ∀ i, IsFin (x i)) : ∀ j, IsFin (Host.gather d x idx j) := fun j => hx _

/-- An entry of an accumulating scatter is the operand's entry plus a finite sum of update entries. -/
theorem isFin_scatterAdd {s si su : Shape} {w : Nat} {φ : FTy} (d : ScatterDims s si su) (x : FVec Ideal s φ)
    (idx : IVec si w) (upd : FVec Ideal su φ) (hx : ∀ i, IsFin (x i)) (hu : ∀ u, IsFin (upd u)) :
    ∀ i, IsFin (Host.scatterAdd d x idx upd i) := by
  intro i
  unfold Host.scatterAdd
  rw [Ideal.hostScatterAdd_def]
  unfold Ideal.hostScatterAdd
  exact (hx i).add (isFin_sum _ _ fun u _ => hu u)

/-- An entry of a contraction is a finite sum of products of entries of its two operands. -/
theorem isFin_dotGeneral {sl sr so : Shape} {φ₁ φ₂ : FTy} (d : DotDims sl sr so) (l : FVec Ideal sl φ₁)
    (r : FVec Ideal sr φ₂) (hl : ∀ i, IsFin (l i)) (hr : ∀ i, IsFin (r i)) :
    ∀ j, IsFin (Host.dotGeneral d none l r j) := by
  intro j
  unfold Host.dotGeneral
  rw [Ideal.dotGeneral_apply]
  exact isFin_sum _ _ fun k _ => (hl _).mul (hr _)

/-! ## The projection: a finite sum of products of inputs -/

theorem fin_px (x0 : FVec Ideal S50000x256 .f32) (x2 : FVec Ideal S128x256 .f32)
    (h0 : ∀ i, IsFin (x0 i)) (h2 : ∀ i, IsFin (x2 i)) : ∀ j, IsFin (val_main_v5 (F := Ideal) x0 x2 j) := by
  intro j
  unfold val_main_v5
  refine isFin_dotGeneral _ x0 _ h0 (fun i => ?_) j
  rw [val_main_v4_apply]
  exact h2 _

/-! ## The fused features: an input entry plus half the sum of two gathered entries of the projection -/

theorem fin_fused (P : FVec Ideal S50000x128 .f32) (x1 : FVec Ideal S800000x128 .f32) (x8 : IVec S2x800000 32)
    (hP : ∀ j, IsFin (P j)) (h1 : ∀ i, IsFin (x1 i)) : ∀ j, IsFin (fusedOf P x1 x8 j) := by
  intro j
  unfold fusedOf
  rw [addf_apply, mulf_apply, addf_apply]
  refine (h1 j).add (((isFin_gather _ P _ hP j).add (isFin_gather _ P _ hP j)).mul ?_)
  rw [val_main_v21_apply, val_main_cst_apply]
  exact isFin_ofBits_half

/-! ## The aggregate: a finite sum of gathered entries over a count that is at least one -/

/-- The count of a destination, clamped below at one, is a real number that is at least one: it is the larger of one
    and a finite sum of ones. -/
theorem count_fin (x9 : IVec S2x1600000 32) (i : S800000.Idx) :
    IsFin (val_main_v43 (F := Ideal) x9 i) ∧ (1 : EReal) ≤ val_main_v43 (F := Ideal) x9 i := by
  have hone : val_main_v42 (F := Ideal) i = ((1 : ℝ) : EReal) := by
    rw [val_main_v42_apply, val_main_cst_8_apply]; exact ofBits_one
  have hcnt : IsFin (val_main_v41 (F := Ideal) x9 i) := by
    unfold val_main_v41
    refine isFin_scatterAdd _ _ _ _ (fun a => ?_) (fun u => ?_) i
    · rw [val_main_v39_apply, val_main_cst_7_apply]; exact isFin_ofBits_zero
    · rw [val_main_v38_apply, val_main_cst_6_apply]; exact isFin_ofBits_one
  rw [val_main_v43_apply, Ideal.maximumf_def, hone]
  refine ⟨hcnt.max (isFin_coe 1), ?_⟩
  rw [EReal.coe_one]
  exact le_max_right _ _

/-- The count spread over the channels is the count of the row. -/
theorem den_fin (x9 : IVec S2x1600000 32) (j : S800000x128.Idx) :
    IsFin (val_main_v45 (F := Ideal) x9 j) ∧ (1 : EReal) ≤ val_main_v45 (F := Ideal) x9 j := by
  rw [val_main_v45_apply, val_main_v44_apply]
  exact count_fin x9 _

/-- The sum scattered by destination: the zero it starts from plus a finite sum of gathered entries. -/
theorem num_fin (Z : FVec Ideal S800000x128 .f32) (x9 : IVec S2x1600000 32) (hZ : ∀ j, IsFin (Z j)) :
    ∀ j, IsFin (Host.scatterAdd scatter_S800000x128_S1600000x1_S1600000x128_1_0_0_1 (val_main_v35 (F := Ideal))
      (val_main_v36 (F := Ideal) x9)
      (Host.gather gather_S800000x128_S1600000x1_S1600000x128_1_0_n_n_0_1_1128 Z (val_main_v33 (F := Ideal) x9)) j) := by
  refine isFin_scatterAdd _ _ _ _ (fun a => ?_) (isFin_gather _ Z _ hZ)
  rw [val_main_v35_apply, val_main_cst_5_apply]
  exact isFin_ofBits_zero

/-- The host's quotient of two arrays, read at an index, is the quotient of the entries. -/
theorem hostDivf_apply {s : Shape} {φ : FTy} (a b : FVec Ideal s φ) (i : s.Idx) :
    Host.divf a b i = Ideal.div (a i) (b i) := rfl

theorem fin_agg (Z : FVec Ideal S800000x128 .f32) (x9 : IVec S2x1600000 32)
    (hZ : ∀ j, IsFin (Z j)) : ∀ j, IsFin (aggOf Z x9 j) := by
  intro j
  unfold aggOf
  rw [hostDivf_apply]
  exact IsFin.div_of_one_le (num_fin Z x9 hZ j) (den_fin x9 j).1 (den_fin x9 j).2

/-! ## The activation: a finite sum of products plus a bias, or the slope times that -/

/-- The pre-activation is a real number. -/
theorem fin_lin (A : FVec Ideal S800000x128 .f32) (x3 : FVec Ideal S128x128 .f32) (x4 : FVec Ideal S128 .f32)
    (hA : ∀ j, IsFin (A j)) (h3 : ∀ i, IsFin (x3 i)) (h4 : ∀ i, IsFin (x4 i)) : ∀ j, IsFin (linOf A x3 x4 j) := by
  intro j
  unfold linOf
  rw [addf_apply]
  refine IsFin.add (isFin_dotGeneral _ A _ hA (fun i => ?_) j) ?_
  · rw [val_main_v47_apply]
    exact h3 _
  · rw [val_main_v50_apply, val_main_v49_apply]
    exact h4 _

theorem fin_act (A : FVec Ideal S800000x128 .f32) (x3 : FVec Ideal S128x128 .f32) (x4 : FVec Ideal S128 .f32)
    (x5 : FVec Ideal S1 .f32) (hA : ∀ j, IsFin (A j)) (h3 : ∀ i, IsFin (x3 i)) (h4 : ∀ i, IsFin (x4 i))
    (h5 : ∀ i, IsFin (x5 i)) : ∀ j, IsFin (actOf A x3 x4 x5 j) := by
  intro j
  unfold actOf
  rw [select_apply, mulf_apply]
  refine isFin_select _ (fin_lin A x3 x4 hA h3 h4 j) (IsFin.mul ?_ (fin_lin A x3 x4 hA h3 h4 j))
  rw [val_main_v55_apply, val_main_v54_apply]
  exact h5 _

end Cert.Fin

end
-- ==== Proof.KValue.lean ====
/-
  The kernel program's result, as the reference's function of the arguments.

  Read through the fold of the program's segments, the result buffer is the segment mean over `dst` of what region 2
  leaves; region 2 leaves the normalised update of the fused features by the statistics of the activation; the
  statistics come from region 1's two accumulators; the activation's input is the line-graph aggregate of the fused
  features of region 0's projection. Stage by stage each of these is the reference's stage of the same arguments:
  the projection index by index; the fused features and the aggregate because the index rows are non-negative (the
  precondition), so that reading a negative index from the end never happens; the mean because the two cores' halves
  make up all the edges; the variance by the variance identity, for which the activation's entries must be real
  numbers, and they are because the inputs are (the precondition again); the update and the final mean are the same
  expressions on both sides.
-/
import proofs.«415791_j54597624267061_2_alg».proof.Proof.KRun
import proofs.«415791_j54597624267061_2_alg».proof.Proof.KNames
import proofs.«415791_j54597624267061_2_alg».proof.Proof.KForm
import proofs.«415791_j54597624267061_2_alg».proof.Proof.KHostA
import proofs.«415791_j54597624267061_2_alg».proof.Proof.KHostB
import proofs.«415791_j54597624267061_2_alg».proof.Proof.KReg0
import proofs.«415791_j54597624267061_2_alg».proof.Proof.KReg1
import proofs.«415791_j54597624267061_2_alg».proof.Proof.KReg2
import proofs.«415791_j54597624267061_2_alg».proof.Proof.Spec
import proofs.«415791_j54597624267061_2_alg».proof.Proof.SpecApply
import proofs.«415791_j54597624267061_2_alg».proof.Proof.BridgeA
import proofs.«415791_j54597624267061_2_alg».proof.Proof.BridgeB
import proofs.«415791_j54597624267061_2_alg».proof.Proof.Fin
import proofs.«415791_j54597624267061_2_alg».proof.Proof.Alg
import proofs.«415791_j54597624267061_2_alg».proof.Proof.Pure
import proofs.«415791_j54597624267061_2_alg».proof.Proof.RefRead

noncomputable section

set_option maxRecDepth 16384

namespace Cert.KValue

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.KNames Cert.KForm Cert.Spec Cert.Alg
open Cert.ReferenceIdeal.ReadP (val_main_v5 val_main_v23 val_main_v46 val_main_v57 val_main_v60 val_main_v67 val_main_v83 val_main_v95)

variable (m : (ℓ : Loc nD τ sig) → Buf (Elt Ideal) ℓ) (ρ : Dev nD → PrngReg) (c : Dev nD)

/-- Region 0's output is the reference's projection. -/
theorem px_value : PX m ρ c = val_main_v5 (F := Ideal) (x0 m c) (x2 m c) :=
  Cert.BridgeA.px_eq _ _ _ fun r d =>
    Cert.KReg0.value (V1 m ρ) c (x0 m c) (x2 m c) (Cert.KHostA.v1_arg0 m ρ c) (Cert.KHostA.v1_v0 m ρ c) r d

/-- The fused features the kernel program forms are the reference's, when the node indices are non-negative. -/
theorem fused_value (h8 : ∀ i, 0 ≤ (x8 m c i).toInt) :
    kFused (PX m ρ c) (x1 m c) (x8 m c) = val_main_v23 (F := Ideal) (x0 m c) (x1 m c) (x2 m c) (x8 m c) := by
  rw [px_value m ρ c, Cert.BridgeA.kFused_eq _ _ _ h8]
  exact (v23_eq _ _ _ _).symm

/-- The aggregate the kernel program forms is the reference's, when the indices it gathers at are non-negative. -/
theorem agg_value (h8 : ∀ i, 0 ≤ (x8 m c i).toInt) (h9 : ∀ e : Fin 1600000, 0 ≤ (x9 m c (ix2 (0 : Fin 2) e)).toInt) :
    kAgg (kFused (PX m ρ c) (x1 m c) (x8 m c)) (x9 m c)
      = val_main_v46 (F := Ideal) (x0 m c) (x1 m c) (x2 m c) (x8 m c) (x9 m c) := by
  rw [fused_value m ρ c h8, Cert.BridgeA.kAgg_eq _ _ h9]
  exact (v46_eq _ _ _ _ _).symm

/-- THE VALUE: under what the precondition says of the arguments, the result buffer the run leaves is the reference's
    result of the same arguments. -/
theorem value
    (h0 : ∀ i, IsFin (x0 m c i)) (h1 : ∀ i, IsFin (x1 m c i)) (h2 : ∀ i, IsFin (x2 m c i)) (h3 : ∀ i, IsFin (x3 m c i))
    (h4 : ∀ i, IsFin (x4 m c i)) (h5 : ∀ i, IsFin (x5 m c i))
    (h8 : ∀ i, 0 ≤ (x8 m c i).toInt) (h9 : ∀ e : Fin 1600000, 0 ≤ (x9 m c (ix2 (0 : Fin 2) e)).toInt) :
    W12 m ρ c (Proc.devRef .tc main_v63)
      = val_main_v95 (F := Ideal) (x0 m c) (x1 m c) (x2 m c) (x3 m c) (x4 m c) (x5 m c) (x6 m c) (x7 m c) (x8 m c) (x9 m c) := by
  -- the reference's stages of these arguments
  have hZ := fused_value m ρ c h8
  have hA := agg_value m ρ c h8 h9
  generalize hZdef : val_main_v23 (F := Ideal) (x0 m c) (x1 m c) (x2 m c) (x8 m c) = Z at hZ
  generalize hAdef : val_main_v46 (F := Ideal) (x0 m c) (x1 m c) (x2 m c) (x8 m c) (x9 m c) = A at hA
  -- the aggregate's entries are real numbers
  have hfinA : ∀ j, IsFin (A j) := by
    subst hAdef
    rw [v46_eq, v23_eq]
    exact Cert.Fin.fin_agg _ _ (Cert.Fin.fin_fused _ _ _ (Cert.Fin.fin_px _ _ h0 h2) h1)
  have hfinH : ∀ j, IsFin (actOf A (x3 m c) (x4 m c) (x5 m c) j) := Cert.Fin.fin_act _ _ _ _ hfinA h3 h4 h5
  -- region 1's accumulators, over the activation's entries
  have hacc0 : ∀ (k : Fin 2) (ρ' : Fin 8) (d : Fin 128), ACC0 m ρ c (ix3 k ρ' d)
      = ∑ i : Fin 400000, actOf A (x3 m c) (x4 m c) (x5 m c) (ix2 ⟨k.val * 400000 + i.val, by omega⟩ d) := by
    intro k ρ' d
    have h := Cert.KReg1.sum_value (V8 m ρ) c A (x3 m c) (x4 m c) (x5 m c) ((Cert.KHostA.v8_v33 m ρ c).trans hA)
      (Cert.KHostA.v8_v1 m ρ c) (Cert.KHostA.v8_v2 m ρ c) (Cert.KHostA.v8_v3 m ρ c) k ρ' d
    simp only [← actOf_apply] at h
    exact h
  have hacc1 : ∀ (k : Fin 2) (ρ' : Fin 8) (d : Fin 128), ACC1 m ρ c (ix3 k ρ' d)
      = ∑ i : Fin 400000, actOf A (x3 m c) (x4 m c) (x5 m c) (ix2 ⟨k.val * 400000 + i.val, by omega⟩ d)
          * actOf A (x3 m c) (x4 m c) (x5 m c) (ix2 ⟨k.val * 400000 + i.val, by omega⟩ d) := by
    intro k ρ' d
    have h := Cert.KReg1.sumsq_value (V8 m ρ) c A (x3 m c) (x4 m c) (x5 m c) ((Cert.KHostA.v8_v33 m ρ c).trans hA)
      (Cert.KHostA.v8_v1 m ρ c) (Cert.KHostA.v8_v2 m ρ c) (Cert.KHostA.v8_v3 m ρ c) k ρ' d
    simp only [← actOf_apply] at h
    exact h
  -- the statistics
  have hmean : kMean (ACC0 m ρ c) = meanOf (actOf A (x3 m c) (x4 m c) (x5 m c)) := Cert.BridgeB.kMean_eq _ _ hacc0
  have hvar : kVar (ACC0 m ρ c) (ACC1 m ρ c)
      = varOf (actOf A (x3 m c) (x4 m c) (x5 m c)) (meanOf (actOf A (x3 m c) (x4 m c) (x5 m c))) :=
    Cert.BridgeB.kVar_eq _ _ _ hacc0 hacc1 hfinH
  -- region 2's output
  have hZ2 : Z2 m ρ c = bnOf Z (actOf A (x3 m c) (x4 m c) (x5 m c)) (meanOf (actOf A (x3 m c) (x4 m c) (x5 m c)))
      (varOf (actOf A (x3 m c) (x4 m c) (x5 m c)) (meanOf (actOf A (x3 m c) (x4 m c) (x5 m c)))) (x6 m c) (x7 m c) :=
    Cert.BridgeA.bn_eq _ Z A _ _ _ _ _ _ _ fun r d =>
      Cert.KReg2.value (V10 m ρ) c A Z (x3 m c) (x4 m c) (x5 m c) _ _ (x6 m c) (x7 m c)
        ((Cert.KHostB.v10_v33 m ρ c).trans hA) ((Cert.KHostB.v10_v16 m ρ c).trans hZ)
        (Cert.KHostB.v10_v1 m ρ c) (Cert.KHostB.v10_v2 m ρ c) (Cert.KHostB.v10_v3 m ρ c)
        ((Cert.KHostB.v10_v49 m ρ c).trans (congrArg kRow hmean)) ((Cert.KHostB.v10_v50 m ρ c).trans (congrArg kRow hvar))
        (Cert.KHostB.v10_v4 m ρ c) (Cert.KHostB.v10_v5 m ρ c) r d
  -- the result
  rw [Cert.KHostB.w12_v63, Cert.BridgeA.kOut_eq, hZ2, v95_eq, v83_eq, v67_eq, v60_eq, v57_eq, hZdef, hAdef]

end Cert.KValue

end
-- ==== Proof.lean ====
/-
  The certificate: the kernel program and the reference compute the same node updates over the extended reals.

  The kernel program projects the node features in a first kernel, gathers and fuses the edge features and takes the
  line-graph segment mean on the host, accumulates the batch statistics of the activation `prelu (A · W1ᵀ + b1)` in a
  second kernel (per core, step by step), normalises and adds the residual in a third, and ends with the segment mean
  over the destination nodes. The reference does all of it with whole-array operations. The two differ in three
  places, and agree there for these reasons:
  * the reference reads a node or edge index as Python does, a negative one counted from the end, and the kernel
    program clamps it; the precondition says the indices used for gathering are non-negative, where both read the same
    row (an index past the end is clamped by both);
  * the kernel program's sums over the 800000 edges are taken block by block and core by core; a finite sum of
    extended reals does not depend on the grouping;
  * the kernel program's variance is the mean of squares less the squared mean, clamped below at zero, the reference's
    the mean of the squared deviations: the same number for real entries, and the entries are real because the float
    inputs are finite (the precondition) and every stage before keeps real numbers real.
  The three frames: the two kernel programs' are the generated frame certificates; the reference's is its run with
  the result dropped. The idealization rewrote nothing, so `preserves` is `True`.
-/
import proofs.«415791_j54597624267061_2_alg».proof.Defs
import proofs.«415791_j54597624267061_2_alg».proof.Proof.Gen.Kernel
import proofs.«415791_j54597624267061_2_alg».proof.Proof.Gen.Kernel.Frame
import proofs.«415791_j54597624267061_2_alg».proof.Proof.Gen.KernelIdeal
import proofs.«415791_j54597624267061_2_alg».proof.Proof.Gen.KernelIdeal.Frame
import proofs.«415791_j54597624267061_2_alg».proof.Proof.Gen.ReferenceIdeal
import proofs.«415791_j54597624267061_2_alg».proof.Proof.Gen.Pre_finite_inputs
import proofs.«415791_j54597624267061_2_alg».proof.Proof.KRun
import proofs.«415791_j54597624267061_2_alg».proof.Proof.RefRun
import proofs.«415791_j54597624267061_2_alg».proof.Proof.RefRead
import proofs.«415791_j54597624267061_2_alg».proof.Proof.PreFacts
import proofs.«415791_j54597624267061_2_alg».proof.Proof.KValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs run; the kernel program's result buffer ends at the fold of its segments, which under the
    precondition is the reference's function of the arguments (`KValue.value`); the reference's ends at that function
    of ITS arguments, which agree with the kernel program's. -/
theorem algebraic : Cert.algebraic_KernelIdeal_ReferenceIdeal := by
  intro m ρ m' ρ' hpre hagree
  refine ⟨fun c => Cert.KernelIdeal.Gen.W12 m ρ c (Proc.devRef .tc Cert.KernelIdeal.main_v63),
    Cert.KernelIdeal.RunV.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, _, _, h8, h9⟩ := Cert.PreFacts.decode _ _ _ _ _ _ _ _ _ _ (hpre c)
  rw [Cert.ReferenceIdeal.ReadP.val_main_v95_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.KValue.value m ρ c h0 h1 h2 h3 h4 h5 h8 h9).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
